-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S16x64 : Shape := ⟨2, ![16, 64]⟩
abbrev S128x64 : Shape := ⟨2, ![128, 64]⟩
abbrev S64 : Shape := ⟨1, ![64]⟩
abbrev S2x1000000 : Shape := ⟨2, ![2, 1000000]⟩
abbrev S100000 : Shape := ⟨1, ![100000]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S16x64 : S_.BroadcastsInDim S16x64 (![] : Fin 0 → Fin S16x64.rank)
  reducesTo_S16x64_S_d0_1 : S16x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg11 : IVec S2x1000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x1000000 32 := (extractStridedSlice S1x1000000 ![0, 0] · slices_S2x1000000_S1x1000000_0_0) main_arg11
  let main_v55 : IVec S1000000 32 := shapeCast S1000000 main_v54 shapeCasts_S1x1000000_S1000000
  let main_c_20 : IVec S_ 32 := constantI S_ 32 0#32
  let main_v56 : IVec S1000000 32 := broadcastInDim S1000000 ![] bcast_S_S1000000 main_c_20
  let main_v57 : IVec S1000000 1 := cmpi .sge main_v55 main_v56
  let main_c_21 : IVec S_ 1 := constantI S_ 1 1#1
  let main_v58 : IVec S_ 1 := (fun x v => Host.reduce IntOp.andi x v reducesTo_S1000000_S_d0 h_S_) main_v57 main_c_21
  let main_v59 : IVec S_ 1 := andi main_v53 main_v58
  main_v59

def fn_part2 {F : FTy → Type} [FloatOps F] (main_arg7 : FVec F S128x64 .f32) (main_arg8 : FVec F S64 .f32) (main_arg9 : FVec F S64 .f32) (main_arg10 : FVec F S64 .f32) (main_arg11 : IVec S2x1000000 32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_v48 main_v49 main_v50

def fn_part1 {F : FTy → Type} [FloatOps F] (main_arg4 : FVec F S64 .f32) (main_arg5 : FVec F S64 .f32) (main_arg6 : FVec F S64 .f32) (main_arg7 : FVec F S128x64 .f32) (main_arg8 : FVec F S64 .f32) (main_arg9 : FVec F S64 .f32) (main_arg10 : FVec F S64 .f32) (main_arg11 : IVec S2x1000000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S1000000x64 .f32) (main_arg2 : FVec F S16x64 .f32) (main_arg3 : FVec F S128x64 .f32) (main_arg4 : FVec F S64 .f32) (main_arg5 : FVec F S64 .f32) (main_arg6 : FVec F S64 .f32) (main_arg7 : FVec F S128x64 .f32) (main_arg8 : FVec F S64 .f32) (main_arg9 : FVec F S64 .f32) (main_arg10 : FVec F S64 .f32) (main_arg11 : IVec S2x1000000 32) (main_arg12 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S1000000x64 : Shape := ⟨2, ![1000000, 64]⟩
abbrev S16x64 : Shape := ⟨2, ![16, 64]⟩
abbrev S128x64 : Shape := ⟨2, ![128, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S1000000x1 : Shape := ⟨2, ![1000000, 1]⟩
abbrev S64x64 : Shape := ⟨2, ![64, 64]⟩
abbrev S1x64 : Shape := ⟨2, ![1, 64]⟩
abbrev S2x2x64 : Shape := ⟨3, ![2, 2, 64]⟩
abbrev S20000x64 : Shape := ⟨2, ![20000, 64]⟩
abbrev S1x2x64 : Shape := ⟨3, ![1, 2, 64]⟩
abbrev S2x64 : Shape := ⟨2, ![2, 64]⟩
abbrev S_ : Shape := ⟨0, ![]⟩
abbrev S10000x64 : Shape := ⟨2, ![10000, 64]⟩
abbrev S100000x1 : Shape := ⟨2, ![100000, 1]⟩

abbrev nBuf : Space → Nat
  | .hbm => 74
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S16x64, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S2x1000000, .i32⟩
  | .hbm, ⟨12, _⟩ => ⟨S100000, .i32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S100000x64, .bf16⟩
  | .hbm, ⟨18, _⟩ => ⟨S1000000x1, .i32⟩
  | .hbm, ⟨19, _⟩ => ⟨S1000000x64, .bf16⟩
  | .hbm, ⟨20, _⟩ => ⟨S64x64, .f32⟩
  | .hbm, ⟨21, _⟩ => ⟨S64x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S2x2x64, .f32⟩
  | .hbm, ⟨26, _⟩ => ⟨S_, .f32⟩
  | .hbm, ⟨27, _⟩ => ⟨S2x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S_, .f32⟩
  | .hbm, ⟨44, _⟩ => ⟨S1000000, .f32⟩
  | .hbm, ⟨45, _⟩ => ⟨S_, .f32⟩
  | .hbm, ⟨46, _⟩ => ⟨S100000, .f32⟩
  | .hbm, ⟨47, _⟩ => ⟨S1000000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S2x2x64, .f32⟩
  | .hbm, ⟨61, _⟩ => ⟨S_, .f32⟩
  | .hbm, ⟨62, _⟩ => ⟨S2x64, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S100000x64, .f32⟩
  | .local _ .vmem, ⟨0, _⟩ => ⟨S20000x64, .bf16⟩
  | .local _ .vmem, ⟨1, _⟩ => ⟨S20000x64, .bf16⟩
  | .local _ .vmem, ⟨2, _⟩ => ⟨S20000x64, .f32⟩
  | .local _ .vmem, ⟨3, _⟩ => ⟨S20000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x2x64, .f32⟩
  | .local _ .vmem, ⟨8, _⟩ => ⟨S1x2x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S64x64, .f32⟩
  | .local _ .vmem, ⟨28, _⟩ => ⟨S1x64, .f32⟩
  | .local _ .vmem, ⟨29, _⟩ => ⟨S1x2x64, .f32⟩
  | .local _ .vmem, ⟨30, _⟩ => ⟨S1x2x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x2x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S1000000_S1000000x1_0 : S1000000.BroadcastsInDim S1000000x1 (![0] : Fin 1 → Fin S1000000x1.rank)
  slices_S128x64_S64x64_0_0 : S128x64.Slices ![0, 0] S64x64
  slices_S128x64_S64x64_64_0 : S128x64.Slices ![64, 0] S64x64
  shapeCasts_S64_S1x64 : S64.ShapeCasts S1x64
  inb_S1x2x64_S1x2x64_0_0_0 : ∀ a, (![0, 0, 0] : Fin 3 → Nat) a + S1x2x64.size a ≤ S1x2x64.size a
  h_S1x2x64 : 0 < S1x2x64.numel
  shapeCasts_S1x2x64_S2x64 : S1x2x64.ShapeCasts S2x64
  shapeCasts_S2x64_S1x2x64 : S2x64.ShapeCasts S1x2x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  reduces_S20000x64_S64 : S20000x64.Reduces [0] S64
  concatenates_S1x64_S1x64_S2x64_d0 : Shape.Concatenates [S1x64, S1x64] S2x64 0
  reducesTo_S2x2x64_S2x64_d0 : S2x2x64.ReducesTo [0] S2x64
  h_S_ : 0 < S_.numel
  slices_S2x64_S1x64_0_0 : S2x64.Slices ![0, 0] S1x64
  slices_S2x64_S1x64_1_0 : S2x64.Slices ![1, 0] S1x64
  bcast_S_S1x64 : S_.BroadcastsInDim S1x64 (![] : Fin 0 → Fin S1x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reduces_S10000x64_S64 : S10000x64.Reduces [0] S64
  gather_S100000x64_S1000000x1_S1000000x64_1_0_n_n_0_1_164_wf : GatherDims.WF S100000x64 S1000000x1 S1000000x64 [1] [0] [] [0] [] 1 ![1, 64]
  dot_S20000x64_S64x64_S20000x64_1_0_0_1_n_n_wf : DotDims.WF S20000x64 S64x64 S20000x64 [1] [0] [0] [1] [] []
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .bf16 = 32 ∨ (Rect.block (s := S1000000x64) S20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S1000000x64.size a
  hwx0_1 : ∀ i : grid0.Coords, EltTy.bits .f32 = 32 ∨ (Rect.block (s := S1000000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x64.size a ≤ S2x2x64.size a
  hwx0_5 : ∀ i : grid0.Coords, EltTy.bits .f32 = 32 ∨ (Rect.block (s := S2x2x64) S1x2x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .bf16 = 32 ∨ (Rect.block (s := S1000000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S1000000x64.size a
  hwx1_9 : ∀ i : grid1.Coords, EltTy.bits .f32 = 32 ∨ (Rect.block (s := S1000000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2x64.size a ≤ S2x2x64.size a
  hwx2_5 : ∀ i : grid2.Coords, EltTy.bits .f32 = 32 ∨ (Rect.block (s := S2x2x64) S1x2x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x64.size a ≤ S100000x64.size a
  hwx3_9 : ∀ i : grid3.Coords, EltTy.bits .f32 = 32 ∨ (Rect.block (s := S100000x64) S10000x64.size (cc3_transform_9 i) (hinb3_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_v5) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x2x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v38) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S10000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S16x64 : Shape := ⟨2, ![16, 64]⟩
abbrev S128x64 : Shape := ⟨2, ![128, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x64 : Shape := ⟨2, ![1, 64]⟩
abbrev S100000x1 : Shape := ⟨2, ![100000, 1]⟩
abbrev S100000x128 : Shape := ⟨2, ![100000, 128]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S1000000x64, .f32⟩
  | 2 => ⟨S16x64, .f32⟩
  | 3 => ⟨S128x64, .f32⟩
  | 4 => ⟨S64, .f32⟩
  | 5 => ⟨S64, .f32⟩
  | 6 => ⟨S64, .f32⟩
  | 7 => ⟨S128x64, .f32⟩
  | 8 => ⟨S64, .f32⟩
  | 9 => ⟨S64, .f32⟩
  | 10 => ⟨S64, .f32⟩
  | 11 => ⟨S2x1000000, .i32⟩
  | 12 => ⟨S100000, .i32⟩
  | 13 => ⟨S1x1000000, .i32⟩
  | 14 => ⟨S1000000, .i32⟩
  | 15 => ⟨S1x1000000, .i32⟩
  | 16 => ⟨S1000000, .i32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x128, .f32⟩
  | 27 => ⟨S1000000x64, .f32⟩
  | 28 => ⟨S1x64, .f32⟩
  | 29 => ⟨S1000000x64, .f32⟩
  | 30 => ⟨S1000000x64, .f32⟩
  | 31 => ⟨S_, .f32⟩
  | 32 => ⟨S64, .f32⟩
  | 33 => ⟨S_, .f32⟩
  | 34 => ⟨S64, .f32⟩
  | 35 => ⟨S64, .f32⟩
  | 36 => ⟨S_, .i32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S1000000x64, .f32⟩
  | 44 => ⟨S1000000x64, .f32⟩
  | 45 => ⟨S1000000x64, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S64, .f32⟩
  | 53 => ⟨S_, .f32⟩
  | 54 => ⟨S_, .i1⟩
  | 55 => ⟨S_, .f32⟩
  | 56 => ⟨S_, .f32⟩
  | 57 => ⟨S64, .f32⟩
  | 58 => ⟨S64, .f32⟩
  | 59 => ⟨S1x64, .f32⟩
  | 60 => ⟨S1000000x64, .f32⟩
  | 61 => ⟨S1000000x64, .f32⟩
  | 62 => ⟨S_, .f32⟩
  | 63 => ⟨S64, .f32⟩
  | 64 => ⟨S64, .f32⟩
  | 65 => ⟨S64, .f32⟩
  | 66 => ⟨S1x64, .f32⟩
  | 67 => ⟨S1000000x64, .f32⟩
  | 68 => ⟨S1000000x64, .f32⟩
  | 69 => ⟨S1x64, .f32⟩
  | 70 => ⟨S1000000x64, .f32⟩
  | 71 => ⟨S1000000x64, .f32⟩
  | 72 => ⟨S1x64, .f32⟩
  | 73 => ⟨S1000000x64, .f32⟩
  | 74 => ⟨S1000000x64, .f32⟩
  | 75 => ⟨S1000000x64, .f32⟩
  | 76 => ⟨S1000000x64, .f32⟩
  | 77 => ⟨S_, .f32⟩
  | 78 => ⟨S1000000x64, .f32⟩
  | 79 => ⟨S1000000x64, .f32⟩
  | 80 => ⟨S_, .f32⟩
  | 81 => ⟨S1000000x64, .f32⟩
  | 82 => ⟨S1000000x64, .f32⟩
  | 83 => ⟨S1000000x64, .f32⟩
  | 84 => ⟨S_, .f32⟩
  | 85 => ⟨S100000x64, .f32⟩
  | 86 => ⟨S1000000x1, .i32⟩
  | 87 => ⟨S100000x64, .f32⟩
  | 88 => ⟨S_, .f32⟩
  | 89 => ⟨S1000000, .f32⟩
  | 90 => ⟨S_, .f32⟩
  | 91 => ⟨S100000, .f32⟩
  | 92 => ⟨S1000000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x64, .f32⟩
  | 99 => ⟨S100000x64, .f32⟩
  | 100 => ⟨S100000x128, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_cst_3 : Ref sig .tc := ⟨.hbm, 53, rfl⟩
abbrev main_call0_v12 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_6 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_10 : Ref sig .tc := ⟨.hbm, 105, rfl⟩
abbrev main_v59 : Ref sig .tc := ⟨.hbm, 106, rfl⟩
abbrev main_cst_11 : Ref sig .tc := ⟨.hbm, 107, rfl⟩
abbrev main_v60 : Ref sig .tc := ⟨.hbm, 108, rfl⟩
abbrev main_v61 : Ref sig .tc := ⟨.hbm, 109, rfl⟩
abbrev main_c_12 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_cst_3 : Ref sig .tc := ⟨.hbm, 127, rfl⟩
abbrev main_call1_v12 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_cst_13 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_14 : Ref sig .tc := ⟨.hbm, 151, rfl⟩
abbrev main_v80 : Ref sig .tc := ⟨.hbm, 152, rfl⟩
abbrev main_v81 : Ref sig .tc := ⟨.hbm, 153, rfl⟩
abbrev main_cst_15 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S64_d0 : S1000000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S64_d0 : S100000x64.ReducesTo [0] S64
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Spec.lean ====
/-
  The mathematics of one message-passing layer, on the extended reals, free of any program text.

  A layer takes two row-aligned arrays `a`, `b` (each row has 64 entries), multiplies the concatenated row `[a_r | b_r]`
  by a 128 x 64 weight matrix given as its two halves `wa`, `wb`, adds a bias, normalises every column by its mean and
  variance over ALL rows (batch statistics, biased variance), scales and shifts by `g`, `β`, and applies
  `x ↦ x · σ(x)` with `σ` the logistic function.

  The variance of a column has two spellings: the mean of the squares minus the square of the mean
  (`varMoments`), and the mean of the squared deviations from the mean (`varCentred`). They are the same number when
  every entry of the column is a real number; on the extended reals in general they are not (the first can be
  `∞ - ∞`), which is why the equality below asks for finite entries.
-/
import Idealize.ShloMosaic.PureOps.Ideal
import Idealize.ShloMosaic.PureOps.Ideal.Laws
import Idealize.ShloMosaic.Lib.ValueIdx
import proofs.«412310_j6030134084155_3_alg».proof.Proof.LibFinite

noncomputable section

namespace Cert.Spec

open Idealize.ShloMosaic Idealize.ShloMosaic.ValueIdx Cert.Fin
open scoped BigOperators

/-! ## Arrays read by their coordinates -/

/-- A rank-2 array read by its two coordinates. -/
def arr2 {n0 n1 : ℕ} (v : (⟨2, ![n0, n1]⟩ : Shape).Idx → EReal) (r : Fin n0) (j : Fin n1) : EReal := v (ix2 r j)

/-- The single row of a `[1, n]` array. -/
def row0 {n : ℕ} (v : (⟨2, ![1, n]⟩ : Shape).Idx → EReal) (j : Fin n) : EReal := v (ix2 0 j)

/-- A rank-1 array read by its coordinate. -/
def vec1 {n : ℕ} (v : (⟨1, ![n]⟩ : Shape).Idx → EReal) (j : Fin n) : EReal := v (ix1 j)

/-! ## The layer -/

variable {R : ℕ}

/-- The affine map on row `r` of the concatenation `[a | b]`: `a_r · wa + b_r · wb + β`, at column `j`. -/
def affine (a b : Fin R → Fin 64 → EReal) (wa wb : Fin 64 → Fin 64 → EReal) (β : Fin 64 → EReal)
    (r : Fin R) (j : Fin 64) : EReal :=
  ((∑ k : Fin 64, a r k * wa k j) + ∑ k : Fin 64, b r k * wb k j) + β j

/-- The sum of a column over all rows. -/
def colSum (h : Fin R → Fin 64 → EReal) (j : Fin 64) : EReal := ∑ r : Fin R, h r j

/-- The sum of a column's squares over all rows. -/
def colSumSq (h : Fin R → Fin 64 → EReal) (j : Fin 64) : EReal := ∑ r : Fin R, h r j * h r j

/-- A column's mean: its sum over the row count `n`. -/
def mean (n : EReal) (h : Fin R → Fin 64 → EReal) (j : Fin 64) : EReal := Ideal.div (colSum h j) n

/-- A column's variance as the mean of the squares minus the square of the mean. -/
def varMoments (n : EReal) (h : Fin R → Fin 64 → EReal) (j : Fin 64) : EReal :=
  Ideal.div (colSumSq h j) n - mean n h j * mean n h j

/-- A column's variance as the mean of the squared deviations from the mean. -/
def varCentred (n : EReal) (h : Fin R → Fin 64 → EReal) (j : Fin 64) : EReal :=
  Ideal.div (∑ r : Fin R, (h r j - mean n h j) * (h r j - mean n h j)) n

/-- The small positive constant added to a variance before the reciprocal square root (the float nearest `1e-5`). -/
def eps : EReal := Ideal.ofBits .f32 0x3727C5AC#32

/-- A column entry normalised by the column's mean `μ` and variance `v`, scaled by `g` and shifted by `β`. -/
def normalise (h : Fin R → Fin 64 → EReal) (μ v g β : Fin 64 → EReal) (r : Fin R) (j : Fin 64) : EReal :=
  ((h r j - μ j) * Ideal.rsqrt (v j + eps)) * g j + β j

/-- `x · σ(x)`, with `σ` the logistic function. -/
def silu (x : EReal) : EReal := x * Ideal.logistic x

/-- The layer's output entry: normalise, then `x · σ(x)`. -/
def layer (h : Fin R → Fin 64 → EReal) (μ v g β : Fin 64 → EReal) (r : Fin R) (j : Fin 64) : EReal :=
  silu (normalise h μ v g β r j)

/-! ## Rows counted by natural numbers, and the two moments -/

/-- A function of (row, column) read at any natural number as the row: zero past the last row. -/
def onNat {R : ℕ} (h : Fin R → Fin 64 → EReal) (n : ℕ) (j : Fin 64) : EReal :=
  if hn : n < R then h ⟨n, hn⟩ j else 0

/-- The entry itself (`s = 0`) or its square (`s = 1`): the two quantities whose column sums the statistics pass keeps. -/
def moment (s : Fin 2) (x : EReal) : EReal := if s = 0 then x else x * x

/-! ## Two layers with an aggregation between them -/

/-- The whole computation. The first layer runs on the rows `xr` (one gathered node row per edge) beside the edge
    rows `ea`; its output is aggregated onto the nodes by `agg`; the second layer runs on the node rows `x` beside the
    aggregated rows. `var` is the spelling of a column's variance (`varMoments` or `varCentred`); `n₁`, `n₂` are the two
    row counts as extended reals. -/
def network {E N : ℕ} (var : {R : ℕ} → EReal → (Fin R → Fin 64 → EReal) → Fin 64 → EReal) (n₁ n₂ : EReal)
    (xr ea : Fin E → Fin 64 → EReal) (x : Fin N → Fin 64 → EReal)
    (agg : (Fin E → Fin 64 → EReal) → Fin N → Fin 64 → EReal)
    (w1a w1b : Fin 64 → Fin 64 → EReal) (b1 g1 be1 : Fin 64 → EReal)
    (w2a w2b : Fin 64 → Fin 64 → EReal) (b2 g2 be2 : Fin 64 → EReal) : Fin N → Fin 64 → EReal :=
  let h1 := affine xr ea w1a w1b b1
  let msg := layer h1 (mean n₁ h1) (var n₁ h1) g1 be1
  let h2 := affine x (agg msg) w2a w2b b2
  layer h2 (mean n₂ h2) (var n₂ h2) g2 be2

/-- A function of two coordinates as a rank-2 array. -/
def toArr2 {n0 n1 : ℕ} (f : Fin n0 → Fin n1 → EReal) : (⟨2, ![n0, n1]⟩ : Shape).Idx → EReal := fun i => f (i 0) (i 1)

theorem arr2_toArr2 {n0 n1 : ℕ} (f : Fin n0 → Fin n1 → EReal) : arr2 (toArr2 f) = f := rfl

theorem toArr2_arr2 {n0 n1 : ℕ} (v : (⟨2, ![n0, n1]⟩ : Shape).Idx → EReal) : toArr2 (arr2 v) = v := by
  funext i; exact congrArg v (eq_ix2 i).symm

end Cert.Spec

end
-- ==== Proof.KApply1.lean ====
/-
  What the edge layer's second pass (normalise, then x · σ(x)) leaves in its result array, at the extended
  reals: the array is written block by block, 10000 rows at a time, every block a pointwise function of the
  same rows of the two row-aligned inputs and of the small arrays every block shares; so entry (r, j) of the
  whole array is the layer's output at row r, column j, of the arrays the region finds on entry.
-/
import proofs.«412310_j6030134084155_3_alg».proof.Proof.Gen.KernelIdeal.Frame
import proofs.«412310_j6030134084155_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Apply1

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

/-! ## The block product at an entry

The body multiplies a 10000 x 64 block by a 64 x 64 matrix, contracting the block's columns against the matrix's rows.
The four lemmas below name, coordinate by coordinate, the two operand entries that meet at output entry `i` and
contraction position `q`: the left operand at (row of `i`, `q`), the right at (`q`, column of `i`). -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into a zero accumulator, at entry (p, j): the sum over the 64 contraction positions `k` of
    left (p, k) times right (k, j). The contraction positions are re-indexed by their one coordinate. -/
theorem matmul_at {φ₁ φ₂ : FTy} (a : FVec Ideal S10000x64 φ₁) (b : FVec Ideal S64x64 φ₂) (p : Fin 10000) (j : Fin 64) :
    FloatOps.matmul dot_S10000x64_S64x64_S10000x64_1_0_0_1_n_n none a b (constant (F := Ideal) S10000x64 .f32 0x00000000#32) (ix2 p j)
      = ∑ k : Fin 64, a (ix2 p k) * b (ix2 k j) := by
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (rhs_axis0 _ _).trans hk
      | ⟨1, _⟩ => exact rhs_axis1 _ _)
  rw [el, er]

/-! ## The body's arithmetic at an entry -/

/-- The logistic function and the reciprocal square root act entry by entry. -/
theorem logistic_at {s : Shape} {φ : FTy} (a : FVec Ideal s φ) (i : s.Idx) : logistic a i = Ideal.logistic (a i) := rfl
theorem rsqrt_at {s : Shape} {φ : FTy} (a : FVec Ideal s φ) (i : s.Idx) : rsqrt a i = Ideal.rsqrt (a i) := rfl

/-- What the body computes from its nine loaded blocks, at entry (p, j) of the 10000 x 64 block: the layer's output
    at row p, column j, of those blocks. The two products are the sums of `matmul_at` (a change of float format is
    the identity on the extended reals), the five 1 x 64 rows are each repeated down the 10000 rows, and everything
    else acts entry by entry; the two sides are then the same expression. The body loads the variance before the
    mean, which is the order of the arguments here. -/
theorem payload_apply (x0 : Vec Ideal S10000x64 .bf16) (x1 : Vec Ideal S10000x64 .f32) (x2 x3 : Vec Ideal S64x64 .f32)
    (x4 xv xm x7 x8 : Vec Ideal S1x64 .f32) (p : Fin 10000) (j : Fin 64) :
    k1_pay1 (F := Ideal) x0 x1 x2 x3 x4 xv xm x7 x8 (ix2 p j)
      = layer (affine (arr2 (x0 : S10000x64.Idx → EReal)) (arr2 (x1 : S10000x64.Idx → EReal))
            (arr2 (x2 : S64x64.Idx → EReal)) (arr2 (x3 : S64x64.Idx → EReal)) (row0 (x4 : S1x64.Idx → EReal)))
          (row0 (xm : S1x64.Idx → EReal)) (row0 (xv : S1x64.Idx → EReal))
          (row0 (x7 : S1x64.Idx → EReal)) (row0 (x8 : S1x64.Idx → EReal)) p j := by
  unfold k1_pay1
  simp only [shapeCast_self]
  simp only [mulf_apply, addf_apply, subf_apply, logistic_at, rsqrt_at, broadcastTo_1b_ab_apply, broadcast_apply,
    matmul_at, truncf_apply]
  rfl

-- the buffer contents the region finds on entry: a parameter, as in the region's own frame
variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- The layer's output at one entry reads only that one row of the two row-aligned inputs (and all of the small
    arrays): equal rows and equal small arrays give equal outputs, whatever the two row counts. -/
theorem layer_affine_congr {R R' : ℕ} {a b : Fin R → Fin 64 → EReal} {a' b' : Fin R' → Fin 64 → EReal}
    {wa wa' wb wb' : Fin 64 → Fin 64 → EReal} {β β' μ μ' v v' g g' δ δ' : Fin 64 → EReal} {r : Fin R} {r' : Fin R'} (j : Fin 64)
    (ha : ∀ k, a r k = a' r' k) (hb : ∀ k, b r k = b' r' k) (hwa : wa = wa') (hwb : wb = wb') (hβ : β = β')
    (hμ : μ = μ') (hv : v = v') (hg : g = g') (hδ : δ = δ') :
    layer (affine a b wa wb β) μ v g δ r j = layer (affine a' b' wa' wb' β') μ' v' g' δ' r' j := by
  subst hwa hwb hβ hμ hv hg hδ
  unfold layer normalise affine
  simp only [ha, hb]

/-- The whole result array: the layer's output at every row and column of the arrays the region finds on entry. -/
def resultArr (c : Dev nD) : S1000000x64.Idx → EReal :=
  toArr2 (layer (affine (arr2 (V c main_v5 : S1000000x64.Idx → EReal)) (arr2 (V c main_arg1 : S1000000x64.Idx → EReal))
            (arr2 (V c main_v6 : S64x64.Idx → EReal)) (arr2 (V c main_v7 : S64x64.Idx → EReal)) (row0 (V c main_v8 : S1x64.Idx → EReal)))
          (row0 (V c main_v16 : S1x64.Idx → EReal)) (row0 (V c main_v20 : S1x64.Idx → EReal))
          (row0 (V c main_v9 : S1x64.Idx → EReal)) (row0 (V c main_v10 : S1x64.Idx → EReal)))

/-- Where each window's block sits at grid point t: the three row-aligned windows (the two inputs and the result) at
    block row t, each small array at its one block. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- A grid point's number is below 100. -/
theorem point_lt (t : Fin cfg1.N) : t.val < 100 := by
  have hN : cfg1.N = 100 := N_1
  have := t.isLt
  omega

/-- Row p of the first input's block at point t is row 10000 t + p of its array: a block's row coordinate is the
    block row times the 10000 rows of a block plus the row inside the block. -/
theorem blk0_apply (c : Dev nD) (t : Fin cfg1.N) (p : Fin 10000) (k : Fin 64) (r : Fin 1000000)
    (hr : r.val = 10000 * t.val + p.val) :
    (iblk1 V c 0 t : S10000x64.Idx → EReal) (ix2 p k) = (V c main_v5 : S1000000x64.Idx → EReal) (ix2 r k) := by
  obtain ⟨e0, e1, -⟩ := idx_facts t
  unfold iblk1
  rw [View.read_apply]
  show V c main_v5 _ = V c main_v5 _
  congr 1
  funext a
  apply Fin.ext
  match a with
  | ⟨0, _⟩ => show win1_0.index t (0 : Fin 2) * 10000 + 1 * p.val = r.val; omega
  | ⟨1, _⟩ => show win1_0.index t (1 : Fin 2) * 64 + 1 * k.val = k.val; omega

/-- The same for the second input. -/
theorem blk1_apply (c : Dev nD) (t : Fin cfg1.N) (p : Fin 10000) (k : Fin 64) (r : Fin 1000000)
    (hr : r.val = 10000 * t.val + p.val) :
    (iblk1 V c 1 t : S10000x64.Idx → EReal) (ix2 p k) = (V c main_arg1 : S1000000x64.Idx → EReal) (ix2 r k) := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t (0 : Fin 2) * 10000 + 1 * p.val = r.val; omega
  | ⟨1, _⟩ => show win1_1.index t (1 : Fin 2) * 64 + 1 * k.val = k.val; omega

/-! The small arrays every grid point shares: the one block of each is the whole array, so the block read by its
coordinates is the array read by its coordinates. -/

theorem blk2_eq (c : Dev nD) (t : Fin cfg1.N) :
    arr2 (iblk1 V c 2 t : S64x64.Idx → EReal) = arr2 (V c main_v6 : S64x64.Idx → EReal) := by
  obtain ⟨-, -, -, -, e0, e1, -⟩ := idx_facts t
  funext a b
  unfold arr2 iblk1
  rw [View.read_apply]
  show V c main_v6 _ = V c main_v6 _
  congr 1
  funext d
  apply Fin.ext
  match d with
  | ⟨0, _⟩ => show win1_2.index t (0 : Fin 2) * 64 + 1 * a.val = a.val; omega
  | ⟨1, _⟩ => show win1_2.index t (1 : Fin 2) * 64 + 1 * b.val = b.val; omega

theorem blk3_eq (c : Dev nD) (t : Fin cfg1.N) :
    arr2 (iblk1 V c 3 t : S64x64.Idx → EReal) = arr2 (V c main_v7 : S64x64.Idx → EReal) := by
  obtain ⟨-, -, -, -, -, -, e0, e1, -⟩ := idx_facts t
  funext a b
  unfold arr2 iblk1
  rw [View.read_apply]
  show V c main_v7 _ = V c main_v7 _
  congr 1
  funext d
  apply Fin.ext
  match d with
  | ⟨0, _⟩ => show win1_3.index t (0 : Fin 2) * 64 + 1 * a.val = a.val; omega
  | ⟨1, _⟩ => show win1_3.index t (1 : Fin 2) * 64 + 1 * b.val = b.val; omega

theorem blk4_eq (c : Dev nD) (t : Fin cfg1.N) :
    row0 (iblk1 V c 4 t : S1x64.Idx → EReal) = row0 (V c main_v8 : S1x64.Idx → EReal) := by
  obtain ⟨-, -, -, -, -, -, -, -, e0, e1, -⟩ := idx_facts t
  funext b
  unfold row0 iblk1
  rw [View.read_apply]
  show V c main_v8 _ = V c main_v8 _
  congr 1
  funext d
  apply Fin.ext
  match d with
  | ⟨0, _⟩ => show win1_4.index t (0 : Fin 2) * 1 + 1 * 0 = 0; omega
  | ⟨1, _⟩ => show win1_4.index t (1 : Fin 2) * 64 + 1 * b.val = b.val; omega

theorem blk5_eq (c : Dev nD) (t : Fin cfg1.N) :
    row0 (iblk1 V c 5 t : S1x64.Idx → EReal) = row0 (V c main_v16 : S1x64.Idx → EReal) := by
  obtain ⟨-, -, -, -, -, -, -, -, -, -, e0, e1, -⟩ := idx_facts t
  funext b
  unfold row0 iblk1
  rw [View.read_apply]
  show V c main_v16 _ = V c main_v16 _
  congr 1
  funext d
  apply Fin.ext
  match d with
  | ⟨0, _⟩ => show win1_5.index t (0 : Fin 2) * 1 + 1 * 0 = 0; omega
  | ⟨1, _⟩ => show win1_5.index t (1 : Fin 2) * 64 + 1 * b.val = b.val; omega

theorem blk6_eq (c : Dev nD) (t : Fin cfg1.N) :
    row0 (iblk1 V c 6 t : S1x64.Idx → EReal) = row0 (V c main_v20 : S1x64.Idx → EReal) := by
  obtain ⟨-, -, -, -, -, -, -, -, -, -, -, -, e0, e1, -⟩ := idx_facts t
  funext b
  unfold row0 iblk1
  rw [View.read_apply]
  show V c main_v20 _ = V c main_v20 _
  congr 1
  funext d
  apply Fin.ext
  match d with
  | ⟨0, _⟩ => show win1_6.index t (0 : Fin 2) * 1 + 1 * 0 = 0; omega
  | ⟨1, _⟩ => show win1_6.index t (1 : Fin 2) * 64 + 1 * b.val = b.val; omega

theorem blk7_eq (c : Dev nD) (t : Fin cfg1.N) :
    row0 (iblk1 V c 7 t : S1x64.Idx → EReal) = row0 (V c main_v9 : S1x64.Idx → EReal) := by
  obtain ⟨-, -, -, -, -, -, -, -, -, -, -, -, -, -, e0, e1, -⟩ := idx_facts t
  funext b
  unfold row0 iblk1
  rw [View.read_apply]
  show V c main_v9 _ = V c main_v9 _
  congr 1
  funext d
  apply Fin.ext
  match d with
  | ⟨0, _⟩ => show win1_7.index t (0 : Fin 2) * 1 + 1 * 0 = 0; omega
  | ⟨1, _⟩ => show win1_7.index t (1 : Fin 2) * 64 + 1 * b.val = b.val; omega

theorem blk8_eq (c : Dev nD) (t : Fin cfg1.N) :
    row0 (iblk1 V c 8 t : S1x64.Idx → EReal) = row0 (V c main_v10 : S1x64.Idx → EReal) := by
  obtain ⟨-, -, -, -, -, -, -, -, -, -, -, -, -, -, -, -, e0, e1, -⟩ := idx_facts t
  funext b
  unfold row0 iblk1
  rw [View.read_apply]
  show V c main_v10 _ = V c main_v10 _
  congr 1
  funext d
  apply Fin.ext
  match d with
  | ⟨0, _⟩ => show win1_8.index t (0 : Fin 2) * 1 + 1 * 0 = 0; omega
  | ⟨1, _⟩ => show win1_8.index t (1 : Fin 2) * 64 + 1 * b.val = b.val; omega

/-- What grid point t writes back is block t of the whole result array: the body's one store fills the whole block
    with its arithmetic on the loaded blocks; entry (p, q) of it is the layer's output at row p of the blocks, which
    is the layer's output at row 10000 t + p of the arrays, the entry of the whole array that block entry sits at. -/
theorem flushed_eq (c : Dev nD) (t : Fin cfg1.N) :
    (dat1 V c).flushed 9 t = ((cfg1.win 9).blk t).view.read (Elt Ideal) (resultArr V c) := by
  show (cfg1.win 9).cut (grid1.coords t) ((dat1 V c).after 9 t) = _
  rw [after1_9]
  unfold out1_9
  rw [View.canon_unit_zero hz]
  simp only [View.ld_unit_zero (S := S10000x64) hz, View.ld_unit_zero (S := S64x64) hz, View.ld_unit_zero (S := S1x64) hz]
  funext y
  obtain ⟨p, q, rfl⟩ : ∃ (p : Fin 10000) (q : Fin 64), y = ix2 p q := ⟨y 0, y 1, eq_ix2 y⟩
  have ht := point_lt t
  obtain ⟨-, -, -, -, -, -, -, -, -, -, -, -, -, -, -, -, -, -, e0, e1⟩ := idx_facts t
  have hemb : ((cfg1.win 9).blk t).view.emb (ix2 p q)
      = (ix2 (⟨10000 * t.val + p.val, by omega⟩ : Fin 1000000) q : S1000000x64.Idx) := by
    funext a
    apply Fin.ext
    match a with
    | ⟨0, _⟩ => show win1_9.index t (0 : Fin 2) * 10000 + 1 * p.val = 10000 * t.val + p.val; omega
    | ⟨1, _⟩ => show win1_9.index t (1 : Fin 2) * 64 + 1 * q.val = q.val; omega
  refine (payload_apply (iblk1 V c 0 t) (iblk1 V c 1 t) (iblk1 V c 2 t) (iblk1 V c 3 t) (iblk1 V c 4 t) (iblk1 V c 6 t)
    (iblk1 V c 5 t) (iblk1 V c 7 t) (iblk1 V c 8 t) p q).trans ?_
  show _ = resultArr V c (((cfg1.win 9).blk t).view.emb (ix2 p q))
  rw [hemb]
  unfold resultArr toArr2
  exact layer_affine_congr q (fun k => blk0_apply V c t p k _ rfl) (fun k => blk1_apply V c t p k _ rfl)
    (blk2_eq V c t) (blk3_eq V c t) (blk4_eq V c t) (blk5_eq V c t) (blk6_eq V c t) (blk7_eq V c t) (blk8_eq V c t)

/-- An entry of the array lies in point t's block exactly when each coordinate lies in the block's range on its axis. -/
theorem mem_blk (t : Fin cfg1.N) (i : S1000000x64.Idx) :
    i ∈ ((cfg1.win 9).blk t).view.set ↔ ∀ a : Fin 2, win1_9.index t a * S10000x64.size a ≤ (i a).val
      ∧ (i a).val < win1_9.index t a * S10000x64.size a + S10000x64.size a := by
  show i ∈ ((View.whole main_v21).slice (win1_9.rect t)).set ↔ _
  rw [View.set_slice_whole, Rect.mem_set_unit]
  exact Iff.rfl

/-- Every entry of the array is written: row r by grid point r / 10000. -/
theorem covered (i : S1000000x64.Idx) :
    ∃ t : Fin cfg1.N, (cfg1.win 9).flush t = true ∧ i ∈ ((cfg1.win 9).blk t).view.set := by
  have hi0 : (i 0).val < 1000000 := (i 0).isLt
  have hi1 : (i 1).val < 64 := (i 1).isLt
  have hN : cfg1.N = 100 := N_1
  obtain ⟨t, htv⟩ : ∃ t : Fin cfg1.N, t.val = (i 0).val / 10000 := ⟨⟨(i 0).val / 10000, by rw [hN]; omega⟩, rfl⟩
  obtain ⟨-, -, -, -, -, -, -, -, -, -, -, -, -, -, -, -, -, -, e0, e1⟩ := idx_facts t
  refine ⟨t, flush1_9 t, ?_⟩
  rw [mem_blk]
  intro a
  match a with
  | ⟨0, _⟩ =>
    show win1_9.index t (0 : Fin 2) * 10000 ≤ (i 0).val ∧ (i 0).val < win1_9.index t (0 : Fin 2) * 10000 + 10000
    omega
  | ⟨1, _⟩ =>
    show win1_9.index t (1 : Fin 2) * 64 ≤ (i 1).val ∧ (i 1).val < win1_9.index t (1 : Fin 2) * 64 + 64
    omega

/-- The result array after the region is the whole-array function: every grid point writes its block of it, and the
    blocks cover the array. -/
theorem result_array (c : Dev nD) : (dat1 V c).arrAt 9 cfg1.N = resultArr V c :=
  (dat1 V c).arrAt_eq_of_cover 9 (resultArr V c) (fun t _ => flushed_eq V c t) covered

/-- Entry (r, j) of the result array after the region: the layer's output at row r, column j. -/
theorem result_apply (c : Dev nD) (r : Fin 1000000) (j : Fin 64) :
    ((dat1 V c).arrAt 9 cfg1.N : S1000000x64.Idx → EReal) (ix2 r j)
      = layer (affine (arr2 (V c main_v5 : S1000000x64.Idx → EReal)) (arr2 (V c main_arg1 : S1000000x64.Idx → EReal))
            (arr2 (V c main_v6 : S64x64.Idx → EReal)) (arr2 (V c main_v7 : S64x64.Idx → EReal)) (row0 (V c main_v8 : S1x64.Idx → EReal)))
          (row0 (V c main_v16 : S1x64.Idx → EReal)) (row0 (V c main_v20 : S1x64.Idx → EReal))
          (row0 (V c main_v9 : S1x64.Idx → EReal)) (row0 (V c main_v10 : S1x64.Idx → EReal)) r j := by
  rw [result_array]
  rfl

end Cert.KernelIdeal.Apply1

end
-- ==== Proof.KApply3.lean ====
/-
  What the node layer's second pass (normalise, then x · σ(x)) leaves in its result array, at the extended
  reals: the array is written block by block, 10000 rows at a time, every block a pointwise function of the
  same rows of the two row-aligned inputs and of the small arrays every block shares; so entry (r, j) of the
  whole array is the layer's output at row r, column j, of the arrays the region finds on entry.
-/
import proofs.«412310_j6030134084155_3_alg».proof.Proof.Gen.KernelIdeal.Frame
import proofs.«412310_j6030134084155_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Apply3

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

/-! ## The block product at an entry

The body multiplies a 10000 x 64 block by a 64 x 64 matrix, contracting the block's columns against the matrix's rows.
The four lemmas below name, coordinate by coordinate, the two operand entries that meet at output entry `i` and
contraction position `q`: the left operand at (row of `i`, `q`), the right at (`q`, column of `i`). -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into a zero accumulator, at entry (p, j): the sum over the 64 contraction positions `k` of
    left (p, k) times right (k, j). The contraction positions are re-indexed by their one coordinate. -/
theorem matmul_at {φ₁ φ₂ : FTy} (a : FVec Ideal S10000x64 φ₁) (b : FVec Ideal S64x64 φ₂) (p : Fin 10000) (j : Fin 64) :
    FloatOps.matmul dot_S10000x64_S64x64_S10000x64_1_0_0_1_n_n none a b (constant (F := Ideal) S10000x64 .f32 0x00000000#32) (ix2 p j)
      = ∑ k : Fin 64, a (ix2 p k) * b (ix2 k j) := by
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (rhs_axis0 _ _).trans hk
      | ⟨1, _⟩ => exact rhs_axis1 _ _)
  rw [el, er]

/-! ## The body's arithmetic at an entry -/

/-- The logistic function and the reciprocal square root act entry by entry. -/
theorem logistic_at {s : Shape} {φ : FTy} (a : FVec Ideal s φ) (i : s.Idx) : logistic a i = Ideal.logistic (a i) := rfl
theorem rsqrt_at {s : Shape} {φ : FTy} (a : FVec Ideal s φ) (i : s.Idx) : rsqrt a i = Ideal.rsqrt (a i) := rfl

/-- What the body computes from its nine loaded blocks, at entry (p, j) of the 10000 x 64 block: the layer's output
    at row p, column j, of those blocks. The two products are the sums of `matmul_at` (a change of float format is
    the identity on the extended reals), the five 1 x 64 rows are each repeated down the 10000 rows, and everything
    else acts entry by entry; the two sides are then the same expression. The body loads the variance before the
    mean, which is the order of the arguments here. -/
theorem payload_apply (x0 : Vec Ideal S10000x64 .f32) (x1 : Vec Ideal S10000x64 .f32) (x2 x3 : Vec Ideal S64x64 .f32)
    (x4 xv xm x7 x8 : Vec Ideal S1x64 .f32) (p : Fin 10000) (j : Fin 64) :
    k3_pay1 (F := Ideal) (k3_pay2 x0 x1 x2 x3 x4 xv xm x7 x8) (k3_pay3 x0 x1 x2 x3 x4 xv xm x7 x8) (ix2 p j)
      = layer (affine (arr2 (x0 : S10000x64.Idx → EReal)) (arr2 (x1 : S10000x64.Idx → EReal))
            (arr2 (x2 : S64x64.Idx → EReal)) (arr2 (x3 : S64x64.Idx → EReal)) (row0 (x4 : S1x64.Idx → EReal)))
          (row0 (xm : S1x64.Idx → EReal)) (row0 (xv : S1x64.Idx → EReal))
          (row0 (x7 : S1x64.Idx → EReal)) (row0 (x8 : S1x64.Idx → EReal)) p j := by
  unfold k3_pay1 k3_pay3 k3_pay2
  simp only [shapeCast_self]
  simp only [mulf_apply, addf_apply, subf_apply, logistic_at, rsqrt_at, broadcastTo_1b_ab_apply, broadcast_apply,
    matmul_at, truncf_apply]
  rfl

-- the buffer contents the region finds on entry: a parameter, as in the region's own frame
variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- The layer's output at one entry reads only that one row of the two row-aligned inputs (and all of the small
    arrays): equal rows and equal small arrays give equal outputs, whatever the two row counts. -/
theorem layer_affine_congr {R R' : ℕ} {a b : Fin R → Fin 64 → EReal} {a' b' : Fin R' → Fin 64 → EReal}
    {wa wa' wb wb' : Fin 64 → Fin 64 → EReal} {β β' μ μ' v v' g g' δ δ' : Fin 64 → EReal} {r : Fin R} {r' : Fin R'} (j : Fin 64)
    (ha : ∀ k, a r k = a' r' k) (hb : ∀ k, b r k = b' r' k) (hwa : wa = wa') (hwb : wb = wb') (hβ : β = β')
    (hμ : μ = μ') (hv : v = v') (hg : g = g') (hδ : δ = δ') :
    layer (affine a b wa wb β) μ v g δ r j = layer (affine a' b' wa' wb' β') μ' v' g' δ' r' j := by
  subst hwa hwb hβ hμ hv hg hδ
  unfold layer normalise affine
  simp only [ha, hb]

/-- The whole result array: the layer's output at every row and column of the arrays the region finds on entry. -/
def resultArr (c : Dev nD) : S100000x64.Idx → EReal :=
  toArr2 (layer (affine (arr2 (V c main_arg0 : S100000x64.Idx → EReal)) (arr2 (V c main_v33 : S100000x64.Idx → EReal))
            (arr2 (V c main_v34 : S64x64.Idx → EReal)) (arr2 (V c main_v35 : S64x64.Idx → EReal)) (row0 (V c main_v36 : S1x64.Idx → EReal)))
          (row0 (V c main_v44 : S1x64.Idx → EReal)) (row0 (V c main_v48 : S1x64.Idx → EReal))
          (row0 (V c main_v37 : S1x64.Idx → EReal)) (row0 (V c main_v38 : S1x64.Idx → EReal)))

/-- Where each window's block sits at grid point t: the three row-aligned windows (the two inputs and the result) at
    block row t, each small array at its one block. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- A grid point's number is below 10. -/
theorem point_lt (t : Fin cfg3.N) : t.val < 10 := by
  have hN : cfg3.N = 10 := N_3
  have := t.isLt
  omega

/-- Row p of the first input's block at point t is row 10000 t + p of its array: a block's row coordinate is the
    block row times the 10000 rows of a block plus the row inside the block. -/
theorem blk0_apply (c : Dev nD) (t : Fin cfg3.N) (p : Fin 10000) (k : Fin 64) (r : Fin 100000)
    (hr : r.val = 10000 * t.val + p.val) :
    (iblk3 V c 0 t : S10000x64.Idx → EReal) (ix2 p k) = (V c main_arg0 : S100000x64.Idx → EReal) (ix2 r k) := by
  obtain ⟨e0, e1, -⟩ := idx_facts t
  unfold iblk3
  rw [View.read_apply]
  show V c main_arg0 _ = V c main_arg0 _
  congr 1
  funext a
  apply Fin.ext
  match a with
  | ⟨0, _⟩ => show win3_0.index t (0 : Fin 2) * 10000 + 1 * p.val = r.val; omega
  | ⟨1, _⟩ => show win3_0.index t (1 : Fin 2) * 64 + 1 * k.val = k.val; omega

/-- The same for the second input. -/
theorem blk1_apply (c : Dev nD) (t : Fin cfg3.N) (p : Fin 10000) (k : Fin 64) (r : Fin 100000)
    (hr : r.val = 10000 * t.val + p.val) :
    (iblk3 V c 1 t : S10000x64.Idx → EReal) (ix2 p k) = (V c main_v33 : S100000x64.Idx → EReal) (ix2 r k) := by
  obtain ⟨-, -, e0, e1, -⟩ := idx_facts t
  unfold iblk3
  rw [View.read_apply]
  show V c main_v33 _ = V c main_v33 _
  congr 1
  funext a
  apply Fin.ext
  match a with
  | ⟨0, _⟩ => show win3_1.index t (0 : Fin 2) * 10000 + 1 * p.val = r.val; omega
  | ⟨1, _⟩ => show win3_1.index t (1 : Fin 2) * 64 + 1 * k.val = k.val; omega

/-! The small arrays every grid point shares: the one block of each is the whole array, so the block read by its
coordinates is the array read by its coordinates. -/

theorem blk2_eq (c : Dev nD) (t : Fin cfg3.N) :
    arr2 (iblk3 V c 2 t : S64x64.Idx → EReal) = arr2 (V c main_v34 : S64x64.Idx → EReal) := by
  obtain ⟨-, -, -, -, e0, e1, -⟩ := idx_facts t
  funext a b
  unfold arr2 iblk3
  rw [View.read_apply]
  show V c main_v34 _ = V c main_v34 _
  congr 1
  funext d
  apply Fin.ext
  match d with
  | ⟨0, _⟩ => show win3_2.index t (0 : Fin 2) * 64 + 1 * a.val = a.val; omega
  | ⟨1, _⟩ => show win3_2.index t (1 : Fin 2) * 64 + 1 * b.val = b.val; omega

theorem blk3_eq (c : Dev nD) (t : Fin cfg3.N) :
    arr2 (iblk3 V c 3 t : S64x64.Idx → EReal) = arr2 (V c main_v35 : S64x64.Idx → EReal) := by
  obtain ⟨-, -, -, -, -, -, e0, e1, -⟩ := idx_facts t
  funext a b
  unfold arr2 iblk3
  rw [View.read_apply]
  show V c main_v35 _ = V c main_v35 _
  congr 1
  funext d
  apply Fin.ext
  match d with
  | ⟨0, _⟩ => show win3_3.index t (0 : Fin 2) * 64 + 1 * a.val = a.val; omega
  | ⟨1, _⟩ => show win3_3.index t (1 : Fin 2) * 64 + 1 * b.val = b.val; omega

theorem blk4_eq (c : Dev nD) (t : Fin cfg3.N) :
    row0 (iblk3 V c 4 t : S1x64.Idx → EReal) = row0 (V c main_v36 : S1x64.Idx → EReal) := by
  obtain ⟨-, -, -, -, -, -, -, -, e0, e1, -⟩ := idx_facts t
  funext b
  unfold row0 iblk3
  rw [View.read_apply]
  show V c main_v36 _ = V c main_v36 _
  congr 1
  funext d
  apply Fin.ext
  match d with
  | ⟨0, _⟩ => show win3_4.index t (0 : Fin 2) * 1 + 1 * 0 = 0; omega
  | ⟨1, _⟩ => show win3_4.index t (1 : Fin 2) * 64 + 1 * b.val = b.val; omega

theorem blk5_eq (c : Dev nD) (t : Fin cfg3.N) :
    row0 (iblk3 V c 5 t : S1x64.Idx → EReal) = row0 (V c main_v44 : S1x64.Idx → EReal) := by
  obtain ⟨-, -, -, -, -, -, -, -, -, -, e0, e1, -⟩ := idx_facts t
  funext b
  unfold row0 iblk3
  rw [View.read_apply]
  show V c main_v44 _ = V c main_v44 _
  congr 1
  funext d
  apply Fin.ext
  match d with
  | ⟨0, _⟩ => show win3_5.index t (0 : Fin 2) * 1 + 1 * 0 = 0; omega
  | ⟨1, _⟩ => show win3_5.index t (1 : Fin 2) * 64 + 1 * b.val = b.val; omega

theorem blk6_eq (c : Dev nD) (t : Fin cfg3.N) :
    row0 (iblk3 V c 6 t : S1x64.Idx → EReal) = row0 (V c main_v48 : S1x64.Idx → EReal) := by
  obtain ⟨-, -, -, -, -, -, -, -, -, -, -, -, e0, e1, -⟩ := idx_facts t
  funext b
  unfold row0 iblk3
  rw [View.read_apply]
  show V c main_v48 _ = V c main_v48 _
  congr 1
  funext d
  apply Fin.ext
  match d with
  | ⟨0, _⟩ => show win3_6.index t (0 : Fin 2) * 1 + 1 * 0 = 0; omega
  | ⟨1, _⟩ => show win3_6.index t (1 : Fin 2) * 64 + 1 * b.val = b.val; omega

theorem blk7_eq (c : Dev nD) (t : Fin cfg3.N) :
    row0 (iblk3 V c 7 t : S1x64.Idx → EReal) = row0 (V c main_v37 : S1x64.Idx → EReal) := by
  obtain ⟨-, -, -, -, -, -, -, -, -, -, -, -, -, -, e0, e1, -⟩ := idx_facts t
  funext b
  unfold row0 iblk3
  rw [View.read_apply]
  show V c main_v37 _ = V c main_v37 _
  congr 1
  funext d
  apply Fin.ext
  match d with
  | ⟨0, _⟩ => show win3_7.index t (0 : Fin 2) * 1 + 1 * 0 = 0; omega
  | ⟨1, _⟩ => show win3_7.index t (1 : Fin 2) * 64 + 1 * b.val = b.val; omega

theorem blk8_eq (c : Dev nD) (t : Fin cfg3.N) :
    row0 (iblk3 V c 8 t : S1x64.Idx → EReal) = row0 (V c main_v38 : S1x64.Idx → EReal) := by
  obtain ⟨-, -, -, -, -, -, -, -, -, -, -, -, -, -, -, -, e0, e1, -⟩ := idx_facts t
  funext b
  unfold row0 iblk3
  rw [View.read_apply]
  show V c main_v38 _ = V c main_v38 _
  congr 1
  funext d
  apply Fin.ext
  match d with
  | ⟨0, _⟩ => show win3_8.index t (0 : Fin 2) * 1 + 1 * 0 = 0; omega
  | ⟨1, _⟩ => show win3_8.index t (1 : Fin 2) * 64 + 1 * b.val = b.val; omega

/-- What grid point t writes back is block t of the whole result array: the body's one store fills the whole block
    with its arithmetic on the loaded blocks; entry (p, q) of it is the layer's output at row p of the blocks, which
    is the layer's output at row 10000 t + p of the arrays, the entry of the whole array that block entry sits at. -/
theorem flushed_eq (c : Dev nD) (t : Fin cfg3.N) :
    (dat3 V c).flushed 9 t = ((cfg3.win 9).blk t).view.read (Elt Ideal) (resultArr V c) := by
  show (cfg3.win 9).cut (grid3.coords t) ((dat3 V c).after 9 t) = _
  rw [after3_9]
  unfold out3_9
  rw [View.canon_unit_zero hz]
  simp only [View.ld_unit_zero (S := S10000x64) hz, View.ld_unit_zero (S := S64x64) hz, View.ld_unit_zero (S := S1x64) hz]
  funext y
  obtain ⟨p, q, rfl⟩ : ∃ (p : Fin 10000) (q : Fin 64), y = ix2 p q := ⟨y 0, y 1, eq_ix2 y⟩
  have ht := point_lt t
  obtain ⟨-, -, -, -, -, -, -, -, -, -, -, -, -, -, -, -, -, -, e0, e1⟩ := idx_facts t
  have hemb : ((cfg3.win 9).blk t).view.emb (ix2 p q)
      = (ix2 (⟨10000 * t.val + p.val, by omega⟩ : Fin 100000) q : S100000x64.Idx) := by
    funext a
    apply Fin.ext
    match a with
    | ⟨0, _⟩ => show win3_9.index t (0 : Fin 2) * 10000 + 1 * p.val = 10000 * t.val + p.val; omega
    | ⟨1, _⟩ => show win3_9.index t (1 : Fin 2) * 64 + 1 * q.val = q.val; omega
  refine (payload_apply (iblk3 V c 0 t) (iblk3 V c 1 t) (iblk3 V c 2 t) (iblk3 V c 3 t) (iblk3 V c 4 t) (iblk3 V c 6 t)
    (iblk3 V c 5 t) (iblk3 V c 7 t) (iblk3 V c 8 t) p q).trans ?_
  show _ = resultArr V c (((cfg3.win 9).blk t).view.emb (ix2 p q))
  rw [hemb]
  unfold resultArr toArr2
  exact layer_affine_congr q (fun k => blk0_apply V c t p k _ rfl) (fun k => blk1_apply V c t p k _ rfl)
    (blk2_eq V c t) (blk3_eq V c t) (blk4_eq V c t) (blk5_eq V c t) (blk6_eq V c t) (blk7_eq V c t) (blk8_eq V c t)

/-- An entry of the array lies in point t's block exactly when each coordinate lies in the block's range on its axis. -/
theorem mem_blk (t : Fin cfg3.N) (i : S100000x64.Idx) :
    i ∈ ((cfg3.win 9).blk t).view.set ↔ ∀ a : Fin 2, win3_9.index t a * S10000x64.size a ≤ (i a).val
      ∧ (i a).val < win3_9.index t a * S10000x64.size a + S10000x64.size a := by
  show i ∈ ((View.whole main_v49).slice (win3_9.rect t)).set ↔ _
  rw [View.set_slice_whole, Rect.mem_set_unit]
  exact Iff.rfl

/-- Every entry of the array is written: row r by grid point r / 10000. -/
theorem covered (i : S100000x64.Idx) :
    ∃ t : Fin cfg3.N, (cfg3.win 9).flush t = true ∧ i ∈ ((cfg3.win 9).blk t).view.set := by
  have hi0 : (i 0).val < 100000 := (i 0).isLt
  have hi1 : (i 1).val < 64 := (i 1).isLt
  have hN : cfg3.N = 10 := N_3
  obtain ⟨t, htv⟩ : ∃ t : Fin cfg3.N, t.val = (i 0).val / 10000 := ⟨⟨(i 0).val / 10000, by rw [hN]; omega⟩, rfl⟩
  obtain ⟨-, -, -, -, -, -, -, -, -, -, -, -, -, -, -, -, -, -, e0, e1⟩ := idx_facts t
  refine ⟨t, flush3_9 t, ?_⟩
  rw [mem_blk]
  intro a
  match a with
  | ⟨0, _⟩ =>
    show win3_9.index t (0 : Fin 2) * 10000 ≤ (i 0).val ∧ (i 0).val < win3_9.index t (0 : Fin 2) * 10000 + 10000
    omega
  | ⟨1, _⟩ =>
    show win3_9.index t (1 : Fin 2) * 64 ≤ (i 1).val ∧ (i 1).val < win3_9.index t (1 : Fin 2) * 64 + 64
    omega

/-- The result array after the region is the whole-array function: every grid point writes its block of it, and the
    blocks cover the array. -/
theorem result_array (c : Dev nD) : (dat3 V c).arrAt 9 cfg3.N = resultArr V c :=
  (dat3 V c).arrAt_eq_of_cover 9 (resultArr V c) (fun t _ => flushed_eq V c t) covered

/-- Entry (r, j) of the result array after the region: the layer's output at row r, column j. -/
theorem result_apply (c : Dev nD) (r : Fin 100000) (j : Fin 64) :
    ((dat3 V c).arrAt 9 cfg3.N : S100000x64.Idx → EReal) (ix2 r j)
      = layer (affine (arr2 (V c main_arg0 : S100000x64.Idx → EReal)) (arr2 (V c main_v33 : S100000x64.Idx → EReal))
            (arr2 (V c main_v34 : S64x64.Idx → EReal)) (arr2 (V c main_v35 : S64x64.Idx → EReal)) (row0 (V c main_v36 : S1x64.Idx → EReal)))
          (row0 (V c main_v44 : S1x64.Idx → EReal)) (row0 (V c main_v48 : S1x64.Idx → EReal))
          (row0 (V c main_v37 : S1x64.Idx → EReal)) (row0 (V c main_v38 : S1x64.Idx → EReal)) r j := by
  rw [result_array]
  rfl

end Cert.KernelIdeal.Apply3

end
-- ==== Proof.KStats0.lean ====
/-
  What the edge layer's first pass (the column sums of the affine output and of its squares) leaves in its
  result array, at the extended reals. The grid is 2 x 25: half q of the rows is walked in 25 blocks of 20000
  rows; the block of the result array that belongs to half q is reset to zero at the half's first block and has each
  block's two column sums added into it, and is written back after the half's last block. So entry (q, s, j) is the
  sum, over the 25 blocks of half q and the 20000 rows of each, of the affine output (s = 0) or its square (s = 1)
  at column j.
-/
import proofs.«412310_j6030134084155_3_alg».proof.Proof.Gen.KernelIdeal.Frame
import proofs.«412310_j6030134084155_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Stats0

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

/-! ## The block product at an entry

Which coordinates of its two operands entry (i₀, i₁) of the product reads at summation index q: the left operand at
(i₀, q), the right operand at (q, i₁). -/

theorem lhs_row (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl

theorem lhs_col (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q

theorem rhs_row (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q

theorem rhs_col (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- A block of 20000 rows times a 64 x 64 matrix, into the zero block: entry (k, j) is the row-by-column sum. -/
theorem matmul_entry {φ₁ φ₂ : FTy} (a : FVec Ideal S20000x64 φ₁) (w : FVec Ideal S64x64 φ₂) (k : Fin 20000) (j : Fin 64) :
    matmul dot_S20000x64_S64x64_S20000x64_1_0_0_1_n_n none a w (constant S20000x64 .f32 0x00000000#32) (ix2 k j)
      = ∑ l : Fin 64, a (ix2 k l) * w (ix2 l j) := by
  simp only [matmul]
  rw [Ideal.matmul_constant_zero_apply, ← Equiv.sum_comp (contrEquiv1 dot_S20000x64_S64x64_S20000x64_1_0_0_1_n_n 64 rfl rfl).symm]
  refine Finset.sum_congr rfl fun l _ => ?_
  have hl := contrEquiv1_symm_val dot_S20000x64_S64x64_S20000x64_1_0_0_1_n_n 64 rfl rfl l
  have el : dot_S20000x64_S64x64_S20000x64_1_0_0_1_n_n.lhsIdx (ix2 k j) ((contrEquiv1 dot_S20000x64_S64x64_S20000x64_1_0_0_1_n_n 64 rfl rfl).symm l) = ix2 k l :=
    funext fun a => Fin.ext (by
      match a with
      | ⟨0, _⟩ => exact lhs_row _ _
      | ⟨1, _⟩ => exact (lhs_col _ _).trans hl)
  have er : dot_S20000x64_S64x64_S20000x64_1_0_0_1_n_n.rhsIdx (ix2 k j) ((contrEquiv1 dot_S20000x64_S64x64_S20000x64_1_0_0_1_n_n 64 rfl rfl).symm l) = ix2 l j :=
    funext fun a => Fin.ext (by
      match a with
      | ⟨0, _⟩ => exact (rhs_row _ _).trans hl
      | ⟨1, _⟩ => exact rhs_col _ _)
  rw [el, er]

/-! ## One block's affine output and its two column sums -/

/-- The affine output of one block of rows, as the body computes it: the two block products added, plus the bias
    row repeated down the block. -/
def blockAffine (v3 : FVec Ideal S20000x64 .bf16) (v5 : FVec Ideal S20000x64 .f32) (v7 v10 : FVec Ideal S64x64 .f32)
    (v16 : FVec Ideal S1x64 .f32) : FVec Ideal S20000x64 .f32 :=
  addf
    (addf
      (matmul dot_S20000x64_S64x64_S20000x64_1_0_0_1_n_n none (shapeCast S20000x64 v3 shapeCasts_S20000x64_S20000x64)
        (truncf .bf16 (shapeCast S64x64 v7 shapeCasts_S64x64_S64x64) bitsLt_bf16_f32) (constant S20000x64 .f32 0x00000000#32))
      (matmul dot_S20000x64_S64x64_S20000x64_1_0_0_1_n_n none (truncf .bf16 v5 bitsLt_bf16_f32)
        (truncf .bf16 (shapeCast S64x64 v10 shapeCasts_S64x64_S64x64) bitsLt_bf16_f32) (constant S20000x64 .f32 0x00000000#32)))
    (broadcastTo S20000x64 (shapeCast S1x64 v16 shapeCasts_S1x64_S1x64) broadcasts_S1x64_S20000x64)

/-- Entry (k, j) of a block's affine output is the layer's affine map on the block's row k at column j. -/
theorem blockAffine_entry (v3 : FVec Ideal S20000x64 .bf16) (v5 : FVec Ideal S20000x64 .f32) (v7 v10 : FVec Ideal S64x64 .f32)
    (v16 : FVec Ideal S1x64 .f32) (k : Fin 20000) (j : Fin 64) :
    blockAffine v3 v5 v7 v10 v16 (ix2 k j)
      = affine (arr2 (v3 : S20000x64.Idx → EReal)) (arr2 (v5 : S20000x64.Idx → EReal)) (arr2 (v7 : S64x64.Idx → EReal))
          (arr2 (v10 : S64x64.Idx → EReal)) (row0 (v16 : S1x64.Idx → EReal)) k j := by
  unfold blockAffine affine
  rw [addf_apply, addf_apply, matmul_entry, matmul_entry, broadcastTo_1b_ab_apply]
  simp only [shapeCast_self, truncf_apply]
  rfl

/-- The carried block with one block's two rows added: the column sums of the affine output and of its squares. -/
def addMoments (acc : FVec Ideal S1x2x64 .f32) (h : FVec Ideal S20000x64 .f32) : FVec Ideal S1x2x64 .f32 :=
  shapeCast S1x2x64
    (addf (shapeCast S2x64 acc shapeCasts_S1x2x64_S2x64)
      (concatenate S2x64 0
        [⟨S1x64, shapeCast S1x64 (multiReduction .add [0] S64 h 0x00000000#32 reduces_S20000x64_S64 (.inl rfl) rfl) shapeCasts_S64_S1x64⟩,
         ⟨S1x64, shapeCast S1x64 (multiReduction .add [0] S64 (mulf h h) 0x00000000#32 reduces_S20000x64_S64 (.inl rfl) rfl) shapeCasts_S64_S1x64⟩]
        concatenates_S1x64_S1x64_S2x64_d0))
    shapeCasts_S2x64_S1x2x64

/-- The body's arithmetic is exactly that. -/
theorem pay_eq (v3 : FVec Ideal S20000x64 .bf16) (v5 : FVec Ideal S20000x64 .f32) (v7 v10 : FVec Ideal S64x64 .f32)
    (v16 : FVec Ideal S1x64 .f32) (v25 : FVec Ideal S1x2x64 .f32) :
    k0_pay2 v3 v5 v7 v10 v16 v25 = addMoments v25 (blockAffine v3 v5 v7 v10 v16) := rfl

/-- A sum down the 20000 rows of a block, at column j. -/
theorem colSum_entry (h : FVec Ideal S20000x64 .f32) (hr : S20000x64.Reduces [0] S64) (hφ : FKind.Formats .f32)
    (hacc : (0x00000000#32 : BitVec 32) = FKind.add.neutral .f32 hφ) (u : Fin 1) (j : Fin 64) :
    shapeCast S1x64 (multiReduction .add [0] S64 h 0x00000000#32 hr hφ hacc) shapeCasts_S64_S1x64 (ix2 u j)
      = ∑ k : Fin 20000, h (ix2 k j) := by
  refine (shapeCast_a_1a_apply _ _ u j).trans ?_
  refine (Ideal.multiReduction_add_single h 0x00000000#32 hr hφ hacc (ix1 j)).trans ?_
  refine Finset.sum_congr rfl fun k _ => congrArg h ?_
  funext a
  apply Fin.ext
  match a with
  | ⟨0, _⟩ => rfl
  | ⟨1, _⟩ => rfl

theorem addMoments_entry (acc : FVec Ideal S1x2x64 .f32) (h : FVec Ideal S20000x64 .f32) (s : Fin 2) (j : Fin 64) :
    addMoments acc h (ix3 0 s j) = acc (ix3 0 s j) + ∑ k : Fin 20000, moment s (h (ix2 k j)) := by
  unfold addMoments
  refine (shapeCast_ab_1ab_apply _ _ 0 s j).trans ?_
  rw [addf_apply, shapeCast_1ab_ab_apply]
  refine congrArg (fun z => acc (ix3 0 s j) + z) ?_
  match s with
  | ⟨0, _⟩ =>
    refine (concatenate_pair_apply_left (0 : Fin S2x64.rank) _ _ concatenates_S1x64_S1x64_S2x64_d0 (ix2 ⟨0, by decide⟩ j) rfl (ix2 0 j) ?_).trans ?_
    · intro b
      match b with
      | ⟨0, _⟩ => rfl
      | ⟨1, _⟩ => rfl
    · refine (colSum_entry h _ _ _ 0 j).trans ?_
      rfl
  | ⟨1, _⟩ =>
    refine (concatenate_pair_apply_right (0 : Fin S2x64.rank) _ _ concatenates_S1x64_S1x64_S2x64_d0 (ix2 ⟨1, by decide⟩ j) rfl rfl (ix2 0 j) ?_ ?_).trans ?_
    · intro b hb
      match b with
      | ⟨0, _⟩ => exact absurd rfl hb
      | ⟨1, _⟩ => rfl
    · rfl
    · refine (colSum_entry (mulf h h) _ _ _ 0 j).trans ?_
      rfl

/-! ## What each of the body's two control cases leaves in the result block's buffer -/

theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 400000 in
/-- Away from a half's first block the body leaves the carried block with this block's two rows added. -/
theorem piece_step (c : Dev nD) (i : grid0.Coords) (a2 : Memref sig .tc .vmem S20000x64 .bf16) (h2 : a2.IsWhole) (a3 : Memref sig .tc .vmem S20000x64 .f32) (h3 : a3.IsWhole) (a4 : Memref sig .tc .vmem S64x64 .f32) (h4 : a4.IsWhole) (a5 : Memref sig .tc .vmem S64x64 .f32) (h5 : a5.IsWhole) (a6 : Memref sig .tc .vmem S1x64 .f32) (h6 : a6.IsWhole) (a7 : Memref sig .tc .vmem S1x2x64 .f32) (h7 : a7.IsWhole) (hc : ¬cond0_0 i)
    (x0 : Vec Ideal S20000x64 .bf16) (x1 : Vec Ideal S20000x64 .f32) (x2 x3 : Vec Ideal S64x64 .f32) (x4 : Vec Ideal S1x64 .f32) (xo : Vec Ideal S1x2x64 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero zeros3]
  simp only [View.readAt_eq_ld, h2.read_unread, h3.read_unread, h4.read_unread, h5.read_unread, h6.read_unread, h7.read_unread,
    View.ld_unit_zero (S := S20000x64) zeros2, View.ld_unit_zero (S := S64x64) zeros2, View.ld_unit_zero (S := S1x64) zeros2,
    View.ld_unit_zero (S := S1x2x64) zeros3]

set_option maxHeartbeats 400000 in
/-- At a half's first block the body first stores the zero block, reads it back, and adds this block's two rows. -/
theorem piece_reset (c : Dev nD) (i : grid0.Coords) (a2 : Memref sig .tc .vmem S20000x64 .bf16) (h2 : a2.IsWhole) (a3 : Memref sig .tc .vmem S20000x64 .f32) (h3 : a3.IsWhole) (a4 : Memref sig .tc .vmem S64x64 .f32) (h4 : a4.IsWhole) (a5 : Memref sig .tc .vmem S64x64 .f32) (h5 : a5.IsWhole) (a6 : Memref sig .tc .vmem S1x64 .f32) (h6 : a6.IsWhole) (a7 : Memref sig .tc .vmem S1x2x64 .f32) (h7 : a7.IsWhole) (hc : cond0_0 i)
    (x0 : Vec Ideal S20000x64 .bf16) (x1 : Vec Ideal S20000x64 .f32) (x2 x3 : Vec Ideal S64x64 .f32) (x4 : Vec Ideal S1x64 .f32) :
    out0_A_5 c i a2 h2 a3 h3 a4 h4 a5 h5 a6 h6 a7 h7 hc x0 x1 x2 x3 x4 = k0_pay2 x0 x1 x2 x3 x4 (k0_pay1 (F := Ideal)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x2x64) zeros3]
  simp only [View.readAt_eq_ld, h2.read_unread, h3.read_unread, h4.read_unread, h5.read_unread, h6.read_unread,
    View.ld_unit_zero (S := S20000x64) zeros2, View.ld_unit_zero (S := S64x64) zeros2, View.ld_unit_zero (S := S1x64) zeros2,
    View.readCov_unit_zero (S := S1x2x64) _ zeros3]

-- the buffer contents the region finds on entry: a parameter, as in the region's own frame
variable (V : (c : Dev nD) → (b : Ref sig .tc) → Buf (Elt Ideal) ((c : Thread nD τ).loc b))

/-! ## The blocks the body finds at a point, read through the whole arrays -/

/-- The five input blocks at point `t`, by their shapes: block `t` of the two row arrays, and the two weight matrices
    and the bias row whole. -/
abbrev rowsA (c : Dev nD) (t : Fin cfg0.N) : FVec Ideal S20000x64 .bf16 := iblk0 V c 0 t
abbrev rowsB (c : Dev nD) (t : Fin cfg0.N) : FVec Ideal S20000x64 .f32 := iblk0 V c 1 t
abbrev weightA (c : Dev nD) (t : Fin cfg0.N) : FVec Ideal S64x64 .f32 := iblk0 V c 2 t
abbrev weightB (c : Dev nD) (t : Fin cfg0.N) : FVec Ideal S64x64 .f32 := iblk0 V c 3 t
abbrev biasRow (c : Dev nD) (t : Fin cfg0.N) : FVec Ideal S1x64 .f32 := iblk0 V c 4 t

/-- The layer's affine map on the whole arrays as the region finds them. -/
abbrev aff (c : Dev nD) : Fin 1000000 → Fin 64 → EReal :=
  affine (arr2 (V c main_v5 : S1000000x64.Idx → EReal)) (arr2 (V c main_arg1 : S1000000x64.Idx → EReal))
    (arr2 (V c main_v6 : S64x64.Idx → EReal)) (arr2 (V c main_v7 : S64x64.Idx → EReal)) (row0 (V c main_v8 : S1x64.Idx → EReal))

/-- Where each window's block sits at point `t`: the row windows on block `t`, the weights and the bias on their one
    block, the result window on half `t / 25`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 25 ∧ win0_5.index t (1 : Fin 3) = 0 ∧ win0_5.index t (2 : Fin 3) = 0 :=
  (by decide +kernel : ∀ t : Fin grid0.N, _)

/-- Row `k` of block `t` of the first row array is row `20000 t + k` of the array. -/
theorem rowsA_entry (c : Dev nD) (t : Fin cfg0.N) (k : Fin 20000) (l : Fin 64) (r : Fin 1000000)
    (hr : r.val = 20000 * t.val + k.val) :
    rowsA V c t (ix2 k l) = (V c main_v5 : S1000000x64.Idx → EReal) (ix2 r l) := by
  obtain ⟨e0, e1, -⟩ := block_index t
  unfold rowsA iblk0
  rw [View.read_apply]
  show V c main_v5 _ = V c main_v5 _
  refine congrArg (V c main_v5 : S1000000x64.Idx → EReal) (funext fun a => Fin.ext ?_)
  match a with
  | ⟨0, _⟩ => show win0_0.index t 0 * 20000 + 1 * k.val = r.val; rw [e0, hr]; omega
  | ⟨1, _⟩ => show win0_0.index t 1 * 64 + 1 * l.val = l.val; rw [e1]; omega

/-- The same for the second row array. -/
theorem rowsB_entry (c : Dev nD) (t : Fin cfg0.N) (k : Fin 20000) (l : Fin 64) (r : Fin 1000000)
    (hr : r.val = 20000 * t.val + k.val) :
    rowsB V c t (ix2 k l) = (V c main_arg1 : S1000000x64.Idx → EReal) (ix2 r l) := by
  obtain ⟨-, -, e0, e1, -⟩ := block_index t
  unfold rowsB iblk0
  rw [View.read_apply]
  show V c main_arg1 _ = V c main_arg1 _
  refine congrArg (V c main_arg1 : S1000000x64.Idx → EReal) (funext fun a => Fin.ext ?_)
  match a with
  | ⟨0, _⟩ => show win0_1.index t 0 * 20000 + 1 * k.val = r.val; rw [e0, hr]; omega
  | ⟨1, _⟩ => show win0_1.index t 1 * 64 + 1 * l.val = l.val; rw [e1]; omega

/-- The weight blocks and the bias block are the whole arrays. -/
theorem weightA_entry (c : Dev nD) (t : Fin cfg0.N) (l j : Fin 64) :
    weightA V c t (ix2 l j) = (V c main_v6 : S64x64.Idx → EReal) (ix2 l j) := by
  obtain ⟨-, -, -, -, e0, e1, -⟩ := block_index t
  unfold weightA iblk0
  rw [View.read_apply]
  show V c main_v6 _ = V c main_v6 _
  refine congrArg (V c main_v6 : S64x64.Idx → EReal) (funext fun a => Fin.ext ?_)
  match a with
  | ⟨0, _⟩ => show win0_2.index t 0 * 64 + 1 * l.val = l.val; rw [e0]; omega
  | ⟨1, _⟩ => show win0_2.index t 1 * 64 + 1 * j.val = j.val; rw [e1]; omega

theorem weightB_entry (c : Dev nD) (t : Fin cfg0.N) (l j : Fin 64) :
    weightB V c t (ix2 l j) = (V c main_v7 : S64x64.Idx → EReal) (ix2 l j) := by
  obtain ⟨-, -, -, -, -, -, e0, e1, -⟩ := block_index t
  unfold weightB iblk0
  rw [View.read_apply]
  show V c main_v7 _ = V c main_v7 _
  refine congrArg (V c main_v7 : S64x64.Idx → EReal) (funext fun a => Fin.ext ?_)
  match a with
  | ⟨0, _⟩ => show win0_3.index t 0 * 64 + 1 * l.val = l.val; rw [e0]; omega
  | ⟨1, _⟩ => show win0_3.index t 1 * 64 + 1 * j.val = j.val; rw [e1]; omega

theorem biasRow_entry (c : Dev nD) (t : Fin cfg0.N) (j : Fin 64) :
    biasRow V c t (ix2 0 j) = (V c main_v8 : S1x64.Idx → EReal) (ix2 0 j) := by
  obtain ⟨-, -, -, -, -, -, -, -, e0, e1, -⟩ := block_index t
  unfold biasRow iblk0
  rw [View.read_apply]
  show V c main_v8 _ = V c main_v8 _
  refine congrArg (V c main_v8 : S1x64.Idx → EReal) (funext fun a => Fin.ext ?_)
  match a with
  | ⟨0, _⟩ => show win0_4.index t 0 * 1 + 1 * 0 = 0; rw [e0]
  | ⟨1, _⟩ => show win0_4.index t 1 * 64 + 1 * j.val = j.val; rw [e1]; omega

/-- So the affine map on block `t`'s row `k` is the affine map on the whole arrays' row `20000 t + k`. -/
theorem block_affine (c : Dev nD) (t : Fin cfg0.N) (k : Fin 20000) (j : Fin 64) :
    affine (arr2 (rowsA V c t)) (arr2 (rowsB V c t)) (arr2 (weightA V c t)) (arr2 (weightB V c t)) (row0 (biasRow V c t)) k j
      = onNat (aff V c) (20000 * t.val + k.val) j := by
  have hN : t.val < 50 := lt_of_lt_of_eq t.isLt N_0
  have hk : k.val < 20000 := k.isLt
  have hlt : 20000 * t.val + k.val < 1000000 := by omega
  unfold onNat
  rw [dif_pos hlt]
  unfold aff affine arr2 row0
  refine congrArg₂ (· + ·) (congrArg₂ (· + ·) (Finset.sum_congr rfl fun l _ => ?_) (Finset.sum_congr rfl fun l _ => ?_)) ?_
  · rw [rowsA_entry V c t k l ⟨_, hlt⟩ rfl, weightA_entry V c t l j]
  · rw [rowsB_entry V c t k l ⟨_, hlt⟩ rfl, weightB_entry V c t l j]
  · exact biasRow_entry V c t j

/-! ## The carried block as a fold over a half's blocks -/

/-- Block `n`'s two column sums: over its 20000 rows, of the affine output (`s = 0`) or of its square (`s = 1`) at
    column `j`. Rows are counted through the whole array: row `k` of block `n` is row `20000 n + k`. -/
def blockSum (c : Dev nD) (n : ℕ) (s : Fin 2) (j : Fin 64) : EReal :=
  ∑ k : Fin 20000, moment s (onNat (aff V c) (20000 * n + k.val) j)

/-- The zero block reads zero. -/
theorem zero_entry (s : Fin 2) (j : Fin 64) : k0_pay1 (F := Ideal) (ix3 0 s j) = 0 := by
  unfold k0_pay1
  refine (shapeCast_ab_1ab_apply _ _ 0 s j).trans ?_
  exact Ideal.ofBits_zero_f32

/-- The body's arithmetic at point `t`, on a carried block `acc`, adds block `t`'s two column sums to it. -/
theorem step_entry (c : Dev nD) (t : Fin cfg0.N) (acc : FVec Ideal S1x2x64 .f32) (s : Fin 2) (j : Fin 64) :
    k0_pay2 (rowsA V c t) (rowsB V c t) (weightA V c t) (weightB V c t) (biasRow V c t) acc (ix3 0 s j) = acc (ix3 0 s j) + blockSum V c t.val s j := by
  refine (congrFun (pay_eq (rowsA V c t) (rowsB V c t) (weightA V c t) (weightB V c t) (biasRow V c t) acc) (ix3 0 s j)).trans ?_
  refine (addMoments_entry acc (blockAffine (rowsA V c t) (rowsB V c t) (weightA V c t) (weightB V c t) (biasRow V c t)) s j).trans ?_
  refine congrArg (fun z => acc (ix3 0 s j) + z) (Finset.sum_congr rfl fun k _ => congrArg (moment s) ?_)
  exact (blockAffine_entry (rowsA V c t) (rowsB V c t) (weightA V c t) (weightB V c t) (biasRow V c t) k j).trans (block_affine V c t k j)

/-- What a half's first point leaves, and what every other point makes of what the point before left. -/
def resetAt (c : Dev nD) : (n : ℕ) → n < cfg0.N → FVec Ideal S1x2x64 .f32 :=
  fun n h => k0_pay2 (rowsA V c ⟨n, h⟩) (rowsB V c ⟨n, h⟩) (weightA V c ⟨n, h⟩) (weightB V c ⟨n, h⟩) (biasRow V c ⟨n, h⟩) (k0_pay1 (F := Ideal))
def stepAt (c : Dev nD) : (n : ℕ) → n < cfg0.N → FVec Ideal S1x2x64 .f32 → FVec Ideal S1x2x64 .f32 :=
  fun n h acc => k0_pay2 (rowsA V c ⟨n, h⟩) (rowsB V c ⟨n, h⟩) (weightA V c ⟨n, h⟩) (weightB V c ⟨n, h⟩) (biasRow V c ⟨n, h⟩) acc

theorem outsAt_reset (c : Dev nD) (n : ℕ) (h : n < cfg0.N) (hm : n % 25 = 0) : outsAt0 V c n h = resetAt V c n h :=
  (outsAt0_A V c ⟨n, h⟩ hm).trans
    (piece_reset c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr hm) (iblk0 V c 0 ⟨n, h⟩) (iblk0 V c 1 ⟨n, h⟩) (iblk0 V c 2 ⟨n, h⟩) (iblk0 V c 3 ⟨n, h⟩) (iblk0 V c 4 ⟨n, h⟩))

theorem outsAt_step (c : Dev nD) (n : ℕ) (h : n + 1 < cfg0.N) (hm : ¬(n + 1) % 25 = 0) :
    outsAt0 V c (n + 1) h = stepAt V c (n + 1) h (outsAt0 V c n (Nat.lt_of_succ_lt h)) :=
  (outsAt0_B V c ⟨n + 1, h⟩ hm).trans
    (piece_step c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hm ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (outsAt0 V c n (Nat.lt_of_succ_lt h)))

/-- After the `i`-th block of a half (counted from 0, `i ≤ 24`) the carried block holds the sum of the column sums of
    the half's blocks `0 … i`. -/
theorem outsAt_entry (c : Dev nD) (t : ℕ) (ht : t < cfg0.N) (s : Fin 2) (j : Fin 64) :
    outsAt0 V c t ht (ix3 0 s j) = ∑ n ∈ Finset.range (t % 25 + 1), blockSum V c (25 * (t / 25) + n) s j := by
  have h' : 25 * (t / 25) + t % 25 < cfg0.N := by rw [Nat.div_add_mod]; exact ht
  rw [Pipeline.eq_accAt_of_mod (outsAt0 V c) 25 (resetAt V c) (stepAt V c) (outsAt_reset V c) (outsAt_step V c) (by decide) t ht h']
  have key := Pipeline.accAt_add_apply (resetAt V c) (stepAt V c) (fun _ => (0 : EReal))
    (fun n (i : S1x2x64.Idx) => blockSum V c n (i 1) (i 2)) (25 * (t / 25)) 24
    (fun h i => by
      obtain ⟨u, s', j', rfl⟩ : ∃ (u : Fin 1) (s' : Fin 2) (j' : Fin 64), i = ix3 u s' j' := ⟨i 0, i 1, i 2, eq_ix3 i⟩
      obtain rfl : u = 0 := Subsingleton.elim _ _
      show resetAt V c _ h (ix3 0 s' j') = 0 + blockSum V c _ s' j'
      refine (step_entry V c ⟨_, h⟩ (k0_pay1 (F := Ideal)) s' j').trans ?_
      rw [zero_entry])
    (fun n h acc i _ _ => by
      obtain ⟨u, s', j', rfl⟩ : ∃ (u : Fin 1) (s' : Fin 2) (j' : Fin 64), i = ix3 u s' j' := ⟨i 0, i 1, i 2, eq_ix3 i⟩
      obtain rfl : u = 0 := Subsingleton.elim _ _
      exact step_entry V c ⟨n, h⟩ acc s' j')
    (t % 25) (by have := Nat.mod_lt t (show 0 < 25 by decide); omega) h' (ix3 0 s j)
  exact key.trans (zero_add _)

/-! ## The result array -/

/-- The result array's entry (q, s, j): the sum over half `q`'s 25 blocks of their column sums. -/
def total (c : Dev nD) : S2x2x64.Idx → EReal :=
  fun i => ∑ n ∈ Finset.range 25, blockSum V c (25 * (i 0).val + n) (i 1) (i 2)

/-- What a half's last point writes back is that half's block of `total`. -/
theorem flushed_eq (c : Dev nD) (t : Fin cfg0.N) (hf : (cfg0.win 5).flush t = true) :
    (dat0 V c).flushed 5 t = ((cfg0.win 5).blk t).view.read (Elt Ideal) (total V c) := by
  have h24 : t.val % 25 = 24 := (flush0_5 t).mp hf
  obtain ⟨-, -, -, -, -, -, -, -, -, -, e0, e1, e2⟩ := block_index t
  show (cfg0.win 5).cut (grid0.coords t) ((dat0 V c).after 5 t) = _
  rw [after0_5]
  funext y
  obtain ⟨u, s, j, rfl⟩ : ∃ (u : Fin 1) (s : Fin 2) (j : Fin 64), y = ix3 u s j := ⟨y 0, y 1, y 2, eq_ix3 y⟩
  obtain rfl : u = 0 := Subsingleton.elim _ _
  rw [View.read_apply]
  show outsAt0 V c t.val t.isLt (ix3 0 s j) = total V c _
  rw [outsAt_entry V c t.val t.isLt s j, h24]
  have hN : t.val < 50 := lt_of_lt_of_eq t.isLt N_0
  have hq : t.val / 25 < 2 := by omega
  refine Eq.trans ?_ (congrArg (total V c) (show ix3 (⟨t.val / 25, hq⟩ : Fin 2) s j = _ from funext fun a => Fin.ext ?_))
  · rfl
  · match a with
    | ⟨0, _⟩ => show t.val / 25 = win0_5.index t 0 * 1 + 1 * 0; rw [e0]; omega
    | ⟨1, _⟩ => show s.val = win0_5.index t 1 * 2 + 1 * s.val; rw [e1]; omega
    | ⟨2, _⟩ => show j.val = win0_5.index t 2 * 64 + 1 * j.val; rw [e2]; omega

/-- Every entry of the result array lies in the block some half's last point writes back. -/
theorem covered (i : S2x2x64.Idx) : ∃ t : Fin cfg0.N, (cfg0.win 5).flush t = true ∧ i ∈ ((cfg0.win 5).blk t).view.set := by
  have h0 : (i 0).val < 2 := (i 0).isLt
  have h1 : (i 1).val < 2 := (i 1).isLt
  have h2 : (i 2).val < 64 := (i 2).isLt
  have hN : cfg0.N = 50 := N_0
  let t : Fin cfg0.N := ⟨25 * (i 0).val + 24, by rw [hN]; omega⟩
  have ht : t.val = 25 * (i 0).val + 24 := rfl
  obtain ⟨-, -, -, -, -, -, -, -, -, -, e0, e1, e2⟩ := block_index t
  refine ⟨t, (flush0_5 t).mpr (by rw [ht]; omega), ?_⟩
  show i ∈ ((View.whole main_v11).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [e0, ht]; omega
  | ⟨1, _⟩ =>
    show win0_5.index t 1 * 2 ≤ (i 1).val ∧ (i 1).val < win0_5.index t 1 * 2 + 2
    rw [e1]; omega
  | ⟨2, _⟩ =>
    show win0_5.index t 2 * 64 ≤ (i 2).val ∧ (i 2).val < win0_5.index t 2 * 64 + 64
    rw [e2]; omega

/-- So the result array ends holding `total`. -/
theorem result_eq (c : Dev nD) : (dat0 V c).arrAt 5 cfg0.N = total V c :=
  (dat0 V c).arrAt_eq_of_cover 5 (total V c) (flushed_eq V c) covered

/-- Entry (q, s, j) of the result array after the region: the sum over half q's rows, block by block, of the affine
    output's entry at column j (s = 0) or of its square (s = 1). Row `20000 * (25 * q + t) + k` is row k of block t of half q. -/
theorem result_apply (c : Dev nD) (q s : Fin 2) (j : Fin 64) :
    ((dat0 V c).arrAt 5 cfg0.N : S2x2x64.Idx → EReal) (ix3 q s j)
      = ∑ t ∈ Finset.range 25, ∑ k : Fin 20000,
          moment s (onNat (affine (arr2 (V c main_v5 : S1000000x64.Idx → EReal)) (arr2 (V c main_arg1 : S1000000x64.Idx → EReal))
            (arr2 (V c main_v6 : S64x64.Idx → EReal)) (arr2 (V c main_v7 : S64x64.Idx → EReal)) (row0 (V c main_v8 : S1x64.Idx → EReal)))
            (20000 * (25 * q.val + t) + k.val) j) := by
  exact congrFun (result_eq V c) (ix3 q s j)

end Cert.KernelIdeal.Stats0

end
-- ==== Proof.KStats2.lean ====
/-
  What the node layer's first pass (the column sums of the affine output and of its squares) leaves in its
  result array, at the extended reals. The grid is 2 x 5: half q of the rows is walked in 5 blocks of 10000
  rows; the block of the result array that belongs to half q is reset to zero at the half's first block and has each
  block's two column sums added into it, and is written back after the half's last block. So entry (q, s, j) is the
  sum, over the 5 blocks of half q and the 10000 rows of each, of the affine output (s = 0) or its square (s = 1)
  at column j.
-/
import proofs.«412310_j6030134084155_3_alg».proof.Proof.Gen.KernelIdeal.Frame
import proofs.«412310_j6030134084155_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Stats2

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

/-! ## A block of rows times a weight matrix, at an entry -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block of 10000 rows times a 64 x 64 matrix, added into the zero block: entry (k, j) is row k of the block
    against column j of the matrix. -/
theorem matmul_entry {φ₁ φ₂ : FTy} (a : FVec Ideal S10000x64 φ₁) (w : FVec Ideal S64x64 φ₂) (k : Fin 10000) (j : Fin 64) :
    matmul dot_S10000x64_S64x64_S10000x64_1_0_0_1_n_n none a w (constant S10000x64 .f32 0x00000000#32) (ix2 k j)
      = ∑ l : Fin 64, a (ix2 k l) * w (ix2 l j) := by
  simp only [matmul]
  rw [Ideal.matmul_constant_zero_apply, ← Equiv.sum_comp (contrEquiv1 dot_S10000x64_S64x64_S10000x64_1_0_0_1_n_n 64 rfl rfl).symm]
  refine Finset.sum_congr rfl fun l _ => ?_
  have hl := contrEquiv1_symm_val dot_S10000x64_S64x64_S10000x64_1_0_0_1_n_n 64 rfl rfl l
  have el : dot_S10000x64_S64x64_S10000x64_1_0_0_1_n_n.lhsIdx (ix2 k j) ((contrEquiv1 dot_S10000x64_S64x64_S10000x64_1_0_0_1_n_n 64 rfl rfl).symm l) = ix2 k l :=
    funext fun a => Fin.ext (by
      match a with
      | ⟨0, _⟩ => exact lhs_row _ _
      | ⟨1, _⟩ => exact (lhs_col _ _).trans hl)
  have er : dot_S10000x64_S64x64_S10000x64_1_0_0_1_n_n.rhsIdx (ix2 k j) ((contrEquiv1 dot_S10000x64_S64x64_S10000x64_1_0_0_1_n_n 64 rfl rfl).symm l) = ix2 l j :=
    funext fun a => Fin.ext (by
      match a with
      | ⟨0, _⟩ => exact (rhs_row _ _).trans hl
      | ⟨1, _⟩ => exact rhs_col _ _)
  rw [el, er]

/-! ## One block's affine output and its two column sums -/

/-- The affine output of one block of rows, as the body computes it: the node rows' product and the aggregated rows'
    product added (a change of float format is the identity on extended reals), plus the bias row repeated down the
    block. -/
def blockAffine (v3 v5 : FVec Ideal S10000x64 .f32) (v8 v11 : FVec Ideal S64x64 .f32) (v17 : FVec Ideal S1x64 .f32) :
    FVec Ideal S10000x64 .f32 :=
  addf
    (addf
      (matmul dot_S10000x64_S64x64_S10000x64_1_0_0_1_n_n none (truncf .bf16 v3 bitsLt_bf16_f32)
        (truncf .bf16 (shapeCast S64x64 v8 shapeCasts_S64x64_S64x64) bitsLt_bf16_f32) (constant S10000x64 .f32 0x00000000#32))
      (matmul dot_S10000x64_S64x64_S10000x64_1_0_0_1_n_n none
        (truncf .bf16 (shapeCast S10000x64 v5 shapeCasts_S10000x64_S10000x64) bitsLt_bf16_f32)
        (truncf .bf16 (shapeCast S64x64 v11 shapeCasts_S64x64_S64x64) bitsLt_bf16_f32) (constant S10000x64 .f32 0x00000000#32)))
    (broadcastTo S10000x64 (shapeCast S1x64 v17 shapeCasts_S1x64_S1x64) broadcasts_S1x64_S10000x64)

/-- Entry (k, j) of a block's affine output is the layer's affine map on the block's row k at column j. -/
theorem blockAffine_entry (v3 v5 : FVec Ideal S10000x64 .f32) (v8 v11 : FVec Ideal S64x64 .f32) (v17 : FVec Ideal S1x64 .f32)
    (k : Fin 10000) (j : Fin 64) :
    blockAffine v3 v5 v8 v11 v17 (ix2 k j)
      = affine (arr2 (v3 : S10000x64.Idx → EReal)) (arr2 (v5 : S10000x64.Idx → EReal)) (arr2 (v8 : S64x64.Idx → EReal))
          (arr2 (v11 : S64x64.Idx → EReal)) (row0 (v17 : S1x64.Idx → EReal)) k j := by
  unfold blockAffine affine
  rw [addf_apply, addf_apply, matmul_entry, matmul_entry, broadcastTo_1b_ab_apply]
  simp only [shapeCast_self, truncf_apply]
  rfl

/-- The carried block with one block's two rows added: the column sums of the affine output and of its squares. -/
def addMoments (acc : FVec Ideal S1x2x64 .f32) (h : FVec Ideal S10000x64 .f32) : FVec Ideal S1x2x64 .f32 :=
  shapeCast S1x2x64
    (addf (shapeCast S2x64 acc shapeCasts_S1x2x64_S2x64)
      (concatenate S2x64 0
        [⟨S1x64, shapeCast S1x64 (multiReduction .add [0] S64 h 0x00000000#32 reduces_S10000x64_S64 (.inl rfl) rfl) shapeCasts_S64_S1x64⟩,
         ⟨S1x64, shapeCast S1x64 (multiReduction .add [0] S64 (mulf h h) 0x00000000#32 reduces_S10000x64_S64 (.inl rfl) rfl) shapeCasts_S64_S1x64⟩]
        concatenates_S1x64_S1x64_S2x64_d0))
    shapeCasts_S2x64_S1x2x64

/-- The body's arithmetic is exactly that. -/
theorem pay_eq (v3 v5 : FVec Ideal S10000x64 .f32) (v8 v11 : FVec Ideal S64x64 .f32) (v17 : FVec Ideal S1x64 .f32)
    (v26 : FVec Ideal S1x2x64 .f32) :
    k2_pay2 v3 v5 v8 v11 v17 v26 = addMoments v26 (blockAffine v3 v5 v8 v11 v17) := rfl

/-- A sum down the 10000 rows of a block, at column j. -/
theorem colSum_entry (h : FVec Ideal S10000x64 .f32) (hr : S10000x64.Reduces [0] S64) (hφ : FKind.Formats .f32)
    (hacc : (0x00000000#32 : BitVec 32) = FKind.add.neutral .f32 hφ) (u : Fin 1) (j : Fin 64) :
    shapeCast S1x64 (multiReduction .add [0] S64 h 0x00000000#32 hr hφ hacc) shapeCasts_S64_S1x64 (ix2 u j)
      = ∑ k : Fin 10000, h (ix2 k j) := by
  refine (shapeCast_a_1a_apply _ _ u j).trans ?_
  refine (Ideal.multiReduction_add_single h 0x00000000#32 hr hφ hacc (ix1 j)).trans ?_
  refine Finset.sum_congr rfl fun k _ => congrArg h ?_
  funext a
  apply Fin.ext
  match a with
  | ⟨0, _⟩ => rfl
  | ⟨1, _⟩ => rfl

/-- Row s of the carried block gains the column sum of the entries (s = 0) or of their squares (s = 1). -/
theorem addMoments_entry (acc : FVec Ideal S1x2x64 .f32) (h : FVec Ideal S10000x64 .f32) (s : Fin 2) (j : Fin 64) :
    addMoments acc h (ix3 0 s j) = acc (ix3 0 s j) + ∑ k : Fin 10000, moment s (h (ix2 k j)) := by
  unfold addMoments
  refine (shapeCast_ab_1ab_apply _ _ 0 s j).trans ?_
  rw [addf_apply, shapeCast_1ab_ab_apply]
  refine congrArg (fun z => acc (ix3 0 s j) + z) ?_
  match s with
  | ⟨0, _⟩ =>
    refine (concatenate_pair_apply_left (0 : Fin S2x64.rank) _ _ concatenates_S1x64_S1x64_S2x64_d0 (ix2 ⟨0, by decide⟩ j) rfl (ix2 0 j) ?_).trans ?_
    · intro b
      match b with
      | ⟨0, _⟩ => rfl
      | ⟨1, _⟩ => rfl
    · refine (colSum_entry h _ _ _ 0 j).trans ?_
      rfl
  | ⟨1, _⟩ =>
    refine (concatenate_pair_apply_right (0 : Fin S2x64.rank) _ _ concatenates_S1x64_S1x64_S2x64_d0 (ix2 ⟨1, by decide⟩ j) rfl rfl (ix2 0 j) ?_ ?_).trans ?_
    · intro b hb
      match b with
      | ⟨0, _⟩ => exact absurd rfl hb
      | ⟨1, _⟩ => rfl
    · rfl
    · refine (colSum_entry (mulf h h) _ _ _ 0 j).trans ?_
      rfl

/-- The block a half starts from is zero everywhere. -/
theorem zeroBlock_entry (i : S1x2x64.Idx) : (k2_pay1 (F := Ideal)) i = 0 :=
  (show (k2_pay1 (F := Ideal)) i = Ideal.ofBits .f32 0x00000000#32 from rfl).trans Ideal.ofBits_zero_f32

/-! ## What each of the body's two control cases leaves in the result block's buffer -/

theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 400000 in
/-- Away from a half's first block the body leaves the carried block with this block's two rows added. -/
theorem piece_step (c : Dev nD) (i : grid2.Coords) (a2 : Memref sig .tc .vmem S10000x64 .f32) (h2 : a2.IsWhole) (a3 : Memref sig .tc .vmem S10000x64 .f32) (h3 : a3.IsWhole) (a4 : Memref sig .tc .vmem S64x64 .f32) (h4 : a4.IsWhole) (a5 : Memref sig .tc .vmem S64x64 .f32) (h5 : a5.IsWhole) (a6 : Memref sig .tc .vmem S1x64 .f32) (h6 : a6.IsWhole) (a7 : Memref sig .tc .vmem S1x2x64 .f32) (h7 : a7.IsWhole) (hc : ¬cond2_0 i)
    (x0 x1 : Vec Ideal S10000x64 .f32) (x2 x3 : Vec Ideal S64x64 .f32) (x4 : Vec Ideal S1x64 .f32) (xo : Vec Ideal S1x2x64 .f32) :
    out2_B_5 c i a2 h2 a3 h3 a4 h4 a5 h5 a6 h6 a7 h7 hc x0 x1 x2 x3 x4 xo = k2_pay2 x0 x1 x2 x3 x4 xo := by
  unfold out2_B_5
  rw [View.read_writes_eq_canon _ _ _ (cover2_B_5 c i a2 h2 a3 h3 a4 h4 a5 h5 a6 h6 a7 h7 hc x0 x1 x2 x3 x4 xo)]
  unfold kernelRun2_B
  dsimp only
  sl_unfold_words
  rw [View.canon_unit_zero zeros3]
  simp only [View.readAt_eq_ld, h2.read_unread, h3.read_unread, h4.read_unread, h5.read_unread, h6.read_unread, h7.read_unread,
    View.ld_unit_zero (S := S10000x64) zeros2, View.ld_unit_zero (S := S64x64) zeros2, View.ld_unit_zero (S := S1x64) zeros2,
    View.ld_unit_zero (S := S1x2x64) zeros3]

set_option maxHeartbeats 400000 in
/-- At a half's first block the body first stores the zero block, reads it back, and adds this block's two rows. -/
theorem piece_reset (c : Dev nD) (i : grid2.Coords) (a2 : Memref sig .tc .vmem S10000x64 .f32) (h2 : a2.IsWhole) (a3 : Memref sig .tc .vmem S10000x64 .f32) (h3 : a3.IsWhole) (a4 : Memref sig .tc .vmem S64x64 .f32) (h4 : a4.IsWhole) (a5 : Memref sig .tc .vmem S64x64 .f32) (h5 : a5.IsWhole) (a6 : Memref sig .tc .vmem S1x64 .f32) (h6 : a6.IsWhole) (a7 : Memref sig .tc .vmem S1x2x64 .f32) (h7 : a7.IsWhole) (hc : cond2_0 i)
    (x0 x1 : Vec Ideal S10000x64 .f32) (x2 x3 : Vec Ideal S64x64 .f32) (x4 : Vec Ideal S1x64 .f32) :
    out2_A_5 c i a2 h2 a3 h3 a4 h4 a5 h5 a6 h6 a7 h7 hc x0 x1 x2 x3 x4 = k2_pay2 x0 x1 x2 x3 x4 (k2_pay1 (F := Ideal)) := by
  unfold out2_A_5
  rw [View.read_writes_eq_canon _ _ _ (cover2_A_5 c i a2 h2 a3 h3 a4 h4 a5 h5 a6 h6 a7 h7 hc x0 x1 x2 x3 x4)]
  unfold kernelRun2_A
  dsimp only
  sl_unfold_words
  rw [View.canon_cons_unit_zero (S := S1x2x64) zeros3]
  simp only [View.readAt_eq_ld, h2.read_unread, h3.read_unread, h4.read_unread, h5.read_unread, h6.read_unread,
    View.ld_unit_zero (S := S10000x64) zeros2, View.ld_unit_zero (S := S64x64) zeros2, View.ld_unit_zero (S := S1x64) zeros2,
    View.readCov_unit_zero (S := S1x2x64) _ zeros3]

-- the buffer contents the region finds on entry: a parameter, as in the region's own frame
variable (V : (c : Dev nD) → (b : Ref sig .tc) → Buf (Elt Ideal) ((c : Thread nD τ).loc b))

/-! ## The blocks the body finds at a point, read through the whole arrays -/

/-- The five input blocks at point `t`, by their shapes: block `t` of the node rows and of the aggregated rows, and the
    two weight matrices and the bias row whole. -/
abbrev rowsA (c : Dev nD) (t : Fin cfg2.N) : FVec Ideal S10000x64 .f32 := iblk2 V c 0 t
abbrev rowsB (c : Dev nD) (t : Fin cfg2.N) : FVec Ideal S10000x64 .f32 := iblk2 V c 1 t
abbrev weightA (c : Dev nD) (t : Fin cfg2.N) : FVec Ideal S64x64 .f32 := iblk2 V c 2 t
abbrev weightB (c : Dev nD) (t : Fin cfg2.N) : FVec Ideal S64x64 .f32 := iblk2 V c 3 t
abbrev biasRow (c : Dev nD) (t : Fin cfg2.N) : FVec Ideal S1x64 .f32 := iblk2 V c 4 t

/-- The layer's affine map on the whole arrays as the region finds them. -/
abbrev aff (c : Dev nD) : Fin 100000 → Fin 64 → EReal :=
  affine (arr2 (V c main_arg0 : S100000x64.Idx → EReal)) (arr2 (V c main_v33 : S100000x64.Idx → EReal))
    (arr2 (V c main_v34 : S64x64.Idx → EReal)) (arr2 (V c main_v35 : S64x64.Idx → EReal)) (row0 (V c main_v36 : S1x64.Idx → EReal))

/-- Where each window's block sits at point `t`: the row windows on block `t`, the weights and the bias on their one
    block, the result window on half `t / 5`. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val / 5 ∧ win2_5.index t (1 : Fin 3) = 0 ∧ win2_5.index t (2 : Fin 3) = 0 :=
  (by decide +kernel : ∀ t : Fin grid2.N, _)

/-- Row `k` of block `t` of the node rows is row `10000 t + k` of the array. -/
theorem rowsA_entry (c : Dev nD) (t : Fin cfg2.N) (k : Fin 10000) (l : Fin 64) (r : Fin 100000)
    (hr : r.val = 10000 * t.val + k.val) :
    rowsA V c t (ix2 k l) = (V c main_arg0 : S100000x64.Idx → EReal) (ix2 r l) := by
  obtain ⟨e0, e1, -⟩ := block_index t
  unfold rowsA iblk2
  rw [View.read_apply]
  show V c main_arg0 _ = V c main_arg0 _
  refine congrArg (V c main_arg0 : S100000x64.Idx → EReal) (funext fun a => Fin.ext ?_)
  match a with
  | ⟨0, _⟩ => show win2_0.index t 0 * 10000 + 1 * k.val = r.val; rw [e0, hr]; omega
  | ⟨1, _⟩ => show win2_0.index t 1 * 64 + 1 * l.val = l.val; rw [e1]; omega

/-- The same for the aggregated rows. -/
theorem rowsB_entry (c : Dev nD) (t : Fin cfg2.N) (k : Fin 10000) (l : Fin 64) (r : Fin 100000)
    (hr : r.val = 10000 * t.val + k.val) :
    rowsB V c t (ix2 k l) = (V c main_v33 : S100000x64.Idx → EReal) (ix2 r l) := by
  obtain ⟨-, -, e0, e1, -⟩ := block_index t
  unfold rowsB iblk2
  rw [View.read_apply]
  show V c main_v33 _ = V c main_v33 _
  refine congrArg (V c main_v33 : S100000x64.Idx → EReal) (funext fun a => Fin.ext ?_)
  match a with
  | ⟨0, _⟩ => show win2_1.index t 0 * 10000 + 1 * k.val = r.val; rw [e0, hr]; omega
  | ⟨1, _⟩ => show win2_1.index t 1 * 64 + 1 * l.val = l.val; rw [e1]; omega

/-- The weight blocks and the bias block are the whole arrays. -/
theorem weightA_entry (c : Dev nD) (t : Fin cfg2.N) (l j : Fin 64) :
    weightA V c t (ix2 l j) = (V c main_v34 : S64x64.Idx → EReal) (ix2 l j) := by
  obtain ⟨-, -, -, -, e0, e1, -⟩ := block_index t
  unfold weightA iblk2
  rw [View.read_apply]
  show V c main_v34 _ = V c main_v34 _
  refine congrArg (V c main_v34 : S64x64.Idx → EReal) (funext fun a => Fin.ext ?_)
  match a with
  | ⟨0, _⟩ => show win2_2.index t 0 * 64 + 1 * l.val = l.val; rw [e0]; omega
  | ⟨1, _⟩ => show win2_2.index t 1 * 64 + 1 * j.val = j.val; rw [e1]; omega

theorem weightB_entry (c : Dev nD) (t : Fin cfg2.N) (l j : Fin 64) :
    weightB V c t (ix2 l j) = (V c main_v35 : S64x64.Idx → EReal) (ix2 l j) := by
  obtain ⟨-, -, -, -, -, -, e0, e1, -⟩ := block_index t
  unfold weightB iblk2
  rw [View.read_apply]
  show V c main_v35 _ = V c main_v35 _
  refine congrArg (V c main_v35 : S64x64.Idx → EReal) (funext fun a => Fin.ext ?_)
  match a with
  | ⟨0, _⟩ => show win2_3.index t 0 * 64 + 1 * l.val = l.val; rw [e0]; omega
  | ⟨1, _⟩ => show win2_3.index t 1 * 64 + 1 * j.val = j.val; rw [e1]; omega

theorem biasRow_entry (c : Dev nD) (t : Fin cfg2.N) (j : Fin 64) :
    biasRow V c t (ix2 0 j) = (V c main_v36 : S1x64.Idx → EReal) (ix2 0 j) := by
  obtain ⟨-, -, -, -, -, -, -, -, e0, e1, -⟩ := block_index t
  unfold biasRow iblk2
  rw [View.read_apply]
  show V c main_v36 _ = V c main_v36 _
  refine congrArg (V c main_v36 : S1x64.Idx → EReal) (funext fun a => Fin.ext ?_)
  match a with
  | ⟨0, _⟩ => show win2_4.index t 0 * 1 + 1 * 0 = 0; rw [e0]
  | ⟨1, _⟩ => show win2_4.index t 1 * 64 + 1 * j.val = j.val; rw [e1]; omega

/-- So the affine map on block `t`'s row `k` is the affine map on the whole arrays' row `10000 t + k`. -/
theorem block_affine (c : Dev nD) (t : Fin cfg2.N) (k : Fin 10000) (j : Fin 64) :
    affine (arr2 (rowsA V c t)) (arr2 (rowsB V c t)) (arr2 (weightA V c t)) (arr2 (weightB V c t)) (row0 (biasRow V c t)) k j
      = onNat (aff V c) (10000 * t.val + k.val) j := by
  have hN : t.val < 10 := lt_of_lt_of_eq t.isLt N_2
  have hk : k.val < 10000 := k.isLt
  have hlt : 10000 * t.val + k.val < 100000 := by omega
  unfold onNat
  rw [dif_pos hlt]
  unfold aff affine arr2 row0
  refine congrArg₂ (· + ·) (congrArg₂ (· + ·) (Finset.sum_congr rfl fun l _ => ?_) (Finset.sum_congr rfl fun l _ => ?_)) ?_
  · rw [rowsA_entry V c t k l ⟨_, hlt⟩ rfl, weightA_entry V c t l j]
  · rw [rowsB_entry V c t k l ⟨_, hlt⟩ rfl, weightB_entry V c t l j]
  · exact biasRow_entry V c t j

/-! ## The result block's buffer after a point: a half's running sums -/

/-- What point `n` adds to row s, column j of the carried block: the sum over the block's 10000 rows of the affine
    output (s = 0) or of its square (s = 1). -/
def addend (c : Dev nD) (n : ℕ) (i : S1x2x64.Idx) : EReal :=
  ∑ k : Fin 10000, moment (i 1) (onNat (aff V c) (10000 * n + k.val) (i 2))

/-- The body's arithmetic at point `t` adds that point's addend to the carried block. -/
theorem pay_entry (c : Dev nD) (t : Fin cfg2.N) (acc : FVec Ideal S1x2x64 .f32) (i : S1x2x64.Idx) :
    k2_pay2 (rowsA V c t) (rowsB V c t) (weightA V c t) (weightB V c t) (biasRow V c t) acc i = acc i + addend V c t.val i := by
  obtain ⟨u, s, j, rfl⟩ : ∃ (u : Fin 1) (s : Fin 2) (j : Fin 64), i = ix3 u s j := ⟨i 0, i 1, i 2, eq_ix3 i⟩
  obtain rfl : u = 0 := Subsingleton.elim _ _
  rw [pay_eq, addMoments_entry]
  refine congrArg (fun z => acc (ix3 0 s j) + z) (Finset.sum_congr rfl fun k _ => ?_)
  show moment s _ = moment s _
  rw [blockAffine_entry, block_affine V c t k j]

/-- The buffer at a point that starts a half, and the step from the point before at any other point. -/
def resetAt (c : Dev nD) (n : ℕ) (h : n < cfg2.N) : FVec Ideal S1x2x64 .f32 :=
  k2_pay2 (rowsA V c ⟨n, h⟩) (rowsB V c ⟨n, h⟩) (weightA V c ⟨n, h⟩) (weightB V c ⟨n, h⟩) (biasRow V c ⟨n, h⟩) (k2_pay1 (F := Ideal))
def stepAt (c : Dev nD) (n : ℕ) (h : n < cfg2.N) (acc : FVec Ideal S1x2x64 .f32) : FVec Ideal S1x2x64 .f32 :=
  k2_pay2 (rowsA V c ⟨n, h⟩) (rowsB V c ⟨n, h⟩) (weightA V c ⟨n, h⟩) (weightB V c ⟨n, h⟩) (biasRow V c ⟨n, h⟩) acc

theorem outs_reset (c : Dev nD) (n : ℕ) (h : n < cfg2.N) (h0 : n % 5 = 0) : outsAt2 V c n h = resetAt V c n h :=
  (outsAt2_A V c ⟨n, h⟩ h0).trans
    (piece_reset c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩)
      (ms2_3 ⟨n, h⟩) (hs2_3 ⟨n, h⟩) (ms2_4 ⟨n, h⟩) (hs2_4 ⟨n, h⟩) (ms2_5 ⟨n, h⟩) (hs2_5 ⟨n, h⟩) ((hcond2_0 ⟨n, h⟩).mpr h0)
      (iblk2 V c 0 ⟨n, h⟩) (iblk2 V c 1 ⟨n, h⟩) (iblk2 V c 2 ⟨n, h⟩) (iblk2 V c 3 ⟨n, h⟩) (iblk2 V c 4 ⟨n, h⟩))

theorem outs_step (c : Dev nD) (n : ℕ) (h : n + 1 < cfg2.N) (hne : ¬(n + 1) % 5 = 0) :
    outsAt2 V c (n + 1) h = stepAt V c (n + 1) h (outsAt2 V c n (Nat.lt_of_succ_lt h)) :=
  (outsAt2_B V c ⟨n + 1, h⟩ hne).trans
    (piece_step c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
      (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩)
      (fun hh => hne ((hcond2_0 ⟨n + 1, h⟩).mp hh))
      (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      (outsAt2 V c n (Nat.lt_of_succ_lt h)))

/-- After point `t` the buffer holds the zero block plus the addends of the points of `t`'s half up to `t`. -/
theorem outs_entry (c : Dev nD) (t : Fin cfg2.N) (i : S1x2x64.Idx) :
    outsAt2 V c t.val t.isLt i
      = (k2_pay1 (F := Ideal)) i + ∑ s ∈ Finset.range (t.val % 5 + 1), addend V c (5 * (t.val / 5) + s) i := by
  have h' : 5 * (t.val / 5) + t.val % 5 < cfg2.N := by rw [Nat.div_add_mod]; exact t.isLt
  rw [Pipeline.eq_accAt_of_mod (outsAt2 V c) 5 (resetAt V c) (stepAt V c) (outs_reset V c) (outs_step V c) (by decide) t.val t.isLt h']
  exact Pipeline.accAt_add_apply (β := EReal) (resetAt V c) (stepAt V c) (k2_pay1 (F := Ideal)) (addend V c) (5 * (t.val / 5)) (t.val % 5)
    (fun h i => pay_entry V c ⟨_, h⟩ _ i) (fun n h acc i _ _ => pay_entry V c ⟨n, h⟩ acc i) (t.val % 5) le_rfl h' i

/-- At a half's last point the buffer's row s, column j is the sum over the half's five blocks. -/
theorem flush_entry (c : Dev nD) (t : Fin cfg2.N) (ht : t.val % 5 = 4) (s : Fin 2) (j : Fin 64) :
    outsAt2 V c t.val t.isLt (ix3 0 s j)
      = ∑ t' ∈ Finset.range 5, ∑ k : Fin 10000, moment s (onNat (aff V c) (10000 * (5 * (t.val / 5) + t') + k.val) j) := by
  rw [outs_entry V c t (ix3 0 s j), ht, zeroBlock_entry, zero_add]
  rfl

/-! ## The result array -/

/-- The result array's entry (q, s, j): the sum over half `q`'s five blocks, and over the 10000 rows of each, of the
    affine output (s = 0) or of its square (s = 1) at column j. -/
def stats (c : Dev nD) : S2x2x64.Idx → EReal :=
  fun i => ∑ t' ∈ Finset.range 5, ∑ k : Fin 10000, moment (i 1) (onNat (aff V c) (10000 * (5 * (i 0).val + t') + k.val) (i 2))

/-- What a half's last point writes back is that half's block of `stats`: the block sits at row `t / 5` of the array's
    first axis and spans the other two. -/
theorem flushed_eq (c : Dev nD) (t : Fin cfg2.N) (hf : (cfg2.win 5).flush t = true) :
    (dat2 V c).flushed 5 t = ((cfg2.win 5).blk t).view.read (Elt Ideal) (stats V c) := by
  have h4 : t.val % 5 = 4 := (flush2_5 t).mp hf
  obtain ⟨-, -, -, -, -, -, -, -, -, -, e0, e1, e2⟩ := block_index t
  show (cfg2.win 5).cut (grid2.coords t) ((dat2 V c).after 5 t) = _
  rw [after2_5]
  funext y
  obtain ⟨u, s, j, rfl⟩ : ∃ (u : Fin 1) (s : Fin 2) (j : Fin 64), y = ix3 u s j := ⟨y 0, y 1, y 2, eq_ix3 y⟩
  obtain rfl : u = 0 := Subsingleton.elim _ _
  rw [View.read_apply]
  show outsAt2 V c t.val t.isLt (ix3 0 s j) = stats V c _
  rw [flush_entry V c t h4 s j]
  have hN : t.val < 10 := lt_of_lt_of_eq t.isLt N_2
  have hq : t.val / 5 < 2 := by omega
  refine Eq.trans ?_ (congrArg (stats V c) (show ix3 (⟨t.val / 5, hq⟩ : Fin 2) s j = _ from funext fun a => Fin.ext ?_))
  · rfl
  · match a with
    | ⟨0, _⟩ => show t.val / 5 = win2_5.index t 0 * 1 + 1 * 0; rw [e0]; omega
    | ⟨1, _⟩ => show s.val = win2_5.index t 1 * 2 + 1 * s.val; rw [e1]; omega
    | ⟨2, _⟩ => show j.val = win2_5.index t 2 * 64 + 1 * j.val; rw [e2]; omega

/-- Every entry of the result array lies in the block its half's last point writes back. -/
theorem covered (i : S2x2x64.Idx) : ∃ t : Fin cfg2.N, (cfg2.win 5).flush t = true ∧ i ∈ ((cfg2.win 5).blk t).view.set := by
  have h0 : (i 0).val < 2 := (i 0).isLt
  have h1 : (i 1).val < 2 := (i 1).isLt
  have h2 : (i 2).val < 64 := (i 2).isLt
  have hN : cfg2.N = 10 := N_2
  let t : Fin cfg2.N := ⟨5 * (i 0).val + 4, by rw [hN]; omega⟩
  have ht : t.val = 5 * (i 0).val + 4 := rfl
  obtain ⟨-, -, -, -, -, -, -, -, -, -, e0, e1, e2⟩ := block_index t
  refine ⟨t, (flush2_5 t).mpr (by rw [ht]; omega), ?_⟩
  show i ∈ ((View.whole main_v39).slice (win2_5.rect t)).set
  rw [View.set_slice_whole, Rect.mem_set_unit]
  intro a
  match a with
  | ⟨0, _⟩ =>
    show win2_5.index t 0 * 1 ≤ (i 0).val ∧ (i 0).val < win2_5.index t 0 * 1 + 1
    rw [e0, ht]; omega
  | ⟨1, _⟩ =>
    show win2_5.index t 1 * 2 ≤ (i 1).val ∧ (i 1).val < win2_5.index t 1 * 2 + 2
    rw [e1]; omega
  | ⟨2, _⟩ =>
    show win2_5.index t 2 * 64 ≤ (i 2).val ∧ (i 2).val < win2_5.index t 2 * 64 + 64
    rw [e2]; omega

/-- So the result array ends holding `stats`. -/
theorem result_eq (c : Dev nD) : (dat2 V c).arrAt 5 cfg2.N = stats V c :=
  (dat2 V c).arrAt_eq_of_cover 5 (stats V c) (flushed_eq V c) covered

/-- Entry (q, s, j) of the result array after the region: the sum over half q's rows, block by block, of the affine
    output's entry at column j (s = 0) or of its square (s = 1). Row `10000 * (5 * q + t) + k` is row k of block t of half q. -/
theorem result_apply (c : Dev nD) (q s : Fin 2) (j : Fin 64) :
    ((dat2 V c).arrAt 5 cfg2.N : S2x2x64.Idx → EReal) (ix3 q s j)
      = ∑ t ∈ Finset.range 5, ∑ k : Fin 10000,
          moment s (onNat (affine (arr2 (V c main_arg0 : S100000x64.Idx → EReal)) (arr2 (V c main_v33 : S100000x64.Idx → EReal))
            (arr2 (V c main_v34 : S64x64.Idx → EReal)) (arr2 (V c main_v35 : S64x64.Idx → EReal)) (row0 (V c main_v36 : S1x64.Idx → EReal)))
            (10000 * (5 * q.val + t) + k.val) j) := by
  exact congrFun (result_eq V c) (ix3 q s j)

end Cert.KernelIdeal.Stats2

end
-- ==== Proof.Terms.lean ====
/-
  The pieces both programs are made of, named once over the printed shapes: the two index columns cut from the
  connectivity array, the reading of a negative index as counting back from the last node, the row gather, the mean aggregation of edge rows onto
  their destination nodes, and the two halves of a 128 x 64 weight matrix.
-/
import proofs.«412310_j6030134084155_3_alg».proof.Proof.Gen.KernelIdeal
import proofs.«412310_j6030134084155_3_alg».proof.Proof.Gen.ReferenceIdeal
import proofs.«412310_j6030134084155_3_alg».proof.Proof.Spec

noncomputable section

namespace Cert.Terms

open Idealize.ShloMosaic Idealize.ShloMosaic.ValueIdx Cert.Spec
open Cert.KernelIdeal Cert.KernelIdeal.Facts₀

/-- Row `k` (0: source nodes, 1: destination nodes) of the connectivity array, as a vector of node indices. -/
def srcRow (ei : IVec S2x1000000 32) : IVec S1000000 32 :=
  shapeCast S1000000 (extractStridedSlice S1x1000000 ![0, 0] ei slices_S2x1000000_S1x1000000_0_0) shapeCasts_S1x1000000_S1000000

def dstRow (ei : IVec S2x1000000 32) : IVec S1000000 32 :=
  shapeCast S1000000 (extractStridedSlice S1x1000000 ![1, 0] ei slices_S2x1000000_S1x1000000_1_0) shapeCasts_S1x1000000_S1000000

/-- A vector of indices as the column of start indices a gather or scatter reads. -/
def asColumn (row : IVec S1000000 32) : IVec S1000000x1 32 :=
  broadcastInDim S1000000x1 ![0] bcast_S1000000_S1000000x1_0 row

/-- The reading of an index that may be negative as counting back from the last node: a negative entry has the
    node count added. -/
def wrapNeg (row : IVec S1000000 32) : IVec S1000000 32 :=
  select (cmpi .slt row (broadcastInDim S1000000 ![] bcast_S_S1000000 (constantI S_ 32 0#32)))
    (addi row (broadcastInDim S1000000 ![] bcast_S_S1000000 (constantI S_ 32 100000#32))) row

/-- One node row per edge: row `idx e` of `x`, the index clamped into the array. -/
def gatherRows (x : S100000x64.Idx → EReal) (idx : IVec S1000000x1 32) : S1000000x64.Idx → EReal :=
  Host.gather gather_S100000x64_S1000000x1_S1000000x64_1_0_n_n_0_1_164 x idx

/-- The mean of the edge rows that arrive at each node (an index outside the nodes drops its row; a node no edge
    reaches keeps zero: the count is taken as at least one). -/
def aggregate (msg : FVec Ideal S1000000x64 .f32) (col : IVec S1000000 32) : FVec Ideal S100000x64 .f32 :=
  Host.divf
    (Host.scatterAdd scatter_S100000x64_S1000000x1_S1000000x64_1_0_0_1
      (broadcastInDim S100000x64 ![] bcast_S_S100000x64 (constant S_ .f32 0x00000000#32)) (asColumn col) msg)
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32)) (asColumn col)
            (broadcastInDim S1000000 ![] bcast_S_S1000000 (constant S_ .f32 0x3F800000#32)))
          (broadcastInDim S100000 ![] bcast_S_S100000 (constant S_ .f32 0x3F800000#32)))))

/-- The aggregation as a map on functions of (edge, column). -/
def aggregate2 (col : IVec S1000000 32) (msg : Fin 1000000 → Fin 64 → EReal) : Fin 100000 → Fin 64 → EReal :=
  arr2 (aggregate (toArr2 msg) col)

/-- Rows 0 … 63 of a 128 x 64 matrix. -/
def topHalf (w : S128x64.Idx → EReal) (k j : Fin 64) : EReal := w (ix2 ⟨k.val, by omega⟩ j)

/-- Rows 64 … 127 of a 128 x 64 matrix. -/
def botHalf (w : S128x64.Idx → EReal) (k j : Fin 64) : EReal := w (ix2 ⟨64 + k.val, by omega⟩ j)

/-- The row count of the edge arrays, and of the node arrays, as the programs' divisors. -/
def nEdges : EReal := Ideal.ofBits .f32 0x49742400#32
def nNodes : EReal := Ideal.ofBits .f32 0x47C35000#32

/-- The whole computation on the thirteen argument arrays' relevant ones, with the variance spelt `var` and the
    source index read by `rd` (as it stands, or wrapped). -/
def result (var : {R : ℕ} → EReal → (Fin R → Fin 64 → EReal) → Fin 64 → EReal) (rd : IVec S1000000 32 → IVec S1000000 32)
    (x : S100000x64.Idx → EReal) (ea : S1000000x64.Idx → EReal) (w1 : S128x64.Idx → EReal) (b1 g1 be1 : S64.Idx → EReal)
    (w2 : S128x64.Idx → EReal) (b2 g2 be2 : S64.Idx → EReal) (ei : IVec S2x1000000 32) : Fin 100000 → Fin 64 → EReal :=
  network var nEdges nNodes (arr2 (gatherRows x (asColumn (rd (srcRow ei))))) (arr2 ea) (arr2 x) (aggregate2 (dstRow ei))
    (topHalf w1) (botHalf w1) (vec1 b1) (vec1 g1) (vec1 be1) (topHalf w2) (botHalf w2) (vec1 b2) (vec1 g2) (vec1 be2)

/-! The reference program's records of the same operations are the same records. -/

theorem gatherDims_eq : Cert.ReferenceIdeal.gather_S100000x64_S1000000x1_S1000000x64_1_0_n_n_0_1_164
    = gather_S100000x64_S1000000x1_S1000000x64_1_0_n_n_0_1_164 := rfl
theorem scatterRows_eq : Cert.ReferenceIdeal.scatter_S100000x64_S1000000x1_S1000000x64_1_0_0_1
    = scatter_S100000x64_S1000000x1_S1000000x64_1_0_0_1 := rfl
theorem scatterCount_eq : Cert.ReferenceIdeal.scatter_S100000_S1000000x1_S1000000_n_0_0_1
    = scatter_S100000_S1000000x1_S1000000_n_0_0_1 := rfl

end Cert.Terms

end
-- ==== Proof.KEntryEdge.lean ====
/-
  What the edge layer's two regions find on entry, in terms of the launch memory.

  Before the first region the host cuts the two index rows out of the connectivity array, gathers one node row per
  edge (the cast to a narrower float format is the identity on extended reals), cuts the first weight matrix in its
  two halves and reshapes the bias, scale and shift vectors to single rows. No later operation writes any of these
  buffers, and a region leaves its input arrays as it found them, so the second region finds the same contents,
  beside the mean and variance rows the host computed from the first region's column sums.
-/
import proofs.«412310_j6030134084155_3_alg».proof.Proof.Gen.KernelIdeal.Frame
import proofs.«412310_j6030134084155_3_alg».proof.Proof.Terms
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.EntryEdge

open Cert.KernelIdeal Cert.KernelIdeal.Gen Cert.Spec Cert.Terms
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A line of host operations leaves a buffer none of them writes as it was. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## On entry to the statistics pass -/

set_option maxHeartbeats 400000 in
theorem stats_rowsA : (V3 m ρ c main_v5 : S1000000x64.Idx → EReal) = gatherRows (m ((c.tc : Thread nD τ).loc main_arg0) : S100000x64.Idx → EReal) (asColumn (srcRow (m ((c.tc : Thread nD τ).loc main_arg11) : IVec S2x1000000 32))) := by
  show StableHlo.after hostOps0_2 (W2 m ρ c) (Proc.devRef .tc main_v5) = _
  after_results
  simp only [StableHlo.TRef.ofBuf, StableHlo.TRef.toBuf, cast_eq]
  rfl

set_option maxHeartbeats 400000 in
theorem stats_rowsB : (V3 m ρ c main_arg1 : S1000000x64.Idx → EReal) = (m ((c.tc : Thread nD τ).loc main_arg1) : S1000000x64.Idx → EReal) := by
  show StableHlo.after hostOps0_2 (W2 m ρ c) (Proc.devRef .tc main_arg1) = _
  after_results

set_option maxHeartbeats 400000 in
/-- The two halves of the first weight matrix, the bias, scale and shift rows, each as the host's cut or reshape of its
    launch array. -/
private theorem W3_v6 : (V3 m ρ c main_v6 : S64x64.Idx → EReal)
    = extractStridedSlice S64x64 ![0, 0] (m ((c.tc : Thread nD τ).loc main_arg3) : S128x64.Idx → EReal) slices_S128x64_S64x64_0_0 := by
  show StableHlo.after hostOps0_2 (W2 m ρ c) (Proc.devRef .tc main_v6) = _
  after_results

set_option maxHeartbeats 400000 in
private theorem W3_v7 : (V3 m ρ c main_v7 : S64x64.Idx → EReal)
    = extractStridedSlice S64x64 ![64, 0] (m ((c.tc : Thread nD τ).loc main_arg3) : S128x64.Idx → EReal) slices_S128x64_S64x64_64_0 := by
  show StableHlo.after hostOps0_2 (W2 m ρ c) (Proc.devRef .tc main_v7) = _
  after_results

set_option maxHeartbeats 400000 in
private theorem W3_v8 : (V3 m ρ c main_v8 : S1x64.Idx → EReal)
    = shapeCast S1x64 (m ((c.tc : Thread nD τ).loc main_arg4) : S64.Idx → EReal) shapeCasts_S64_S1x64 := by
  show StableHlo.after hostOps0_2 (W2 m ρ c) (Proc.devRef .tc main_v8) = _
  after_results
  rfl

set_option maxHeartbeats 400000 in
private theorem W3_v9 : (V3 m ρ c main_v9 : S1x64.Idx → EReal)
    = shapeCast S1x64 (m ((c.tc : Thread nD τ).loc main_arg5) : S64.Idx → EReal) shapeCasts_S64_S1x64 := by
  show StableHlo.after hostOps0_2 (W2 m ρ c) (Proc.devRef .tc main_v9) = _
  after_results
  rfl

set_option maxHeartbeats 400000 in
private theorem W3_v10 : (V3 m ρ c main_v10 : S1x64.Idx → EReal)
    = shapeCast S1x64 (m ((c.tc : Thread nD τ).loc main_arg6) : S64.Idx → EReal) shapeCasts_S64_S1x64 := by
  show StableHlo.after hostOps0_2 (W2 m ρ c) (Proc.devRef .tc main_v10) = _
  after_results
  rfl

theorem stats_wTop : arr2 (V3 m ρ c main_v6 : S64x64.Idx → EReal) = topHalf (m ((c.tc : Thread nD τ).loc main_arg3) : S128x64.Idx → EReal) := by
  funext k j
  exact (congrFun (W3_v6 m ρ c) (ix2 k j)).trans
    (slice2_axis0_apply 0 _ slices_S128x64_S64x64_0_0 k j ⟨k.val, by omega⟩ (Nat.zero_add _).symm)

theorem stats_wBot : arr2 (V3 m ρ c main_v7 : S64x64.Idx → EReal) = botHalf (m ((c.tc : Thread nD τ).loc main_arg3) : S128x64.Idx → EReal) := by
  funext k j
  exact (congrFun (W3_v7 m ρ c) (ix2 k j)).trans
    (slice2_axis0_apply 64 _ slices_S128x64_S64x64_64_0 k j ⟨64 + k.val, by omega⟩ rfl)

theorem stats_bias : row0 (V3 m ρ c main_v8 : S1x64.Idx → EReal) = vec1 (m ((c.tc : Thread nD τ).loc main_arg4) : S64.Idx → EReal) := by
  funext j
  exact (congrFun (W3_v8 m ρ c) (ix2 0 j)).trans (shapeCast_a_1a_apply _ shapeCasts_S64_S1x64 0 j)

/-! ## On entry to the second pass -/

set_option maxHeartbeats 400000 in
/-- What the statistics pass read through an input window, and what it did not touch, the second pass finds as the
    statistics pass found it: no host operation between the two writes any of these buffers. -/
private theorem V5_v5 : (V5 m ρ c main_v5 : S1000000x64.Idx → EReal) = (V3 m ρ c main_v5 : S1000000x64.Idx → EReal) :=
  calc W5 m ρ c (Proc.devRef .tc main_v5)
    _ = W4 m ρ c (Proc.devRef .tc main_v5) := by unwritten hostOps1
    _ = W3 m ρ c (Proc.devRef .tc main_v5) := (W4_arr m ρ c 0).trans (((dat0 (V3 m ρ) c).arrAt_in 0 rfl _).trans (A_eq0 (V3 m ρ) c 0))

set_option maxHeartbeats 400000 in
private theorem V5_arg1 : (V5 m ρ c main_arg1 : S1000000x64.Idx → EReal) = (V3 m ρ c main_arg1 : S1000000x64.Idx → EReal) :=
  calc W5 m ρ c (Proc.devRef .tc main_arg1)
    _ = W4 m ρ c (Proc.devRef .tc main_arg1) := by unwritten hostOps1
    _ = W3 m ρ c (Proc.devRef .tc main_arg1) := (W4_arr m ρ c 1).trans (((dat0 (V3 m ρ) c).arrAt_in 1 rfl _).trans (A_eq0 (V3 m ρ) c 1))

set_option maxHeartbeats 400000 in
private theorem V5_v6 : (V5 m ρ c main_v6 : S64x64.Idx → EReal) = (V3 m ρ c main_v6 : S64x64.Idx → EReal) :=
  calc W5 m ρ c (Proc.devRef .tc main_v6)
    _ = W4 m ρ c (Proc.devRef .tc main_v6) := by unwritten hostOps1
    _ = W3 m ρ c (Proc.devRef .tc main_v6) := (W4_arr m ρ c 2).trans (((dat0 (V3 m ρ) c).arrAt_in 2 rfl _).trans (A_eq0 (V3 m ρ) c 2))

set_option maxHeartbeats 400000 in
private theorem V5_v7 : (V5 m ρ c main_v7 : S64x64.Idx → EReal) = (V3 m ρ c main_v7 : S64x64.Idx → EReal) :=
  calc W5 m ρ c (Proc.devRef .tc main_v7)
    _ = W4 m ρ c (Proc.devRef .tc main_v7) := by unwritten hostOps1
    _ = W3 m ρ c (Proc.devRef .tc main_v7) := (W4_arr m ρ c 3).trans (((dat0 (V3 m ρ) c).arrAt_in 3 rfl _).trans (A_eq0 (V3 m ρ) c 3))

set_option maxHeartbeats 400000 in
private theorem V5_v8 : (V5 m ρ c main_v8 : S1x64.Idx → EReal) = (V3 m ρ c main_v8 : S1x64.Idx → EReal) :=
  calc W5 m ρ c (Proc.devRef .tc main_v8)
    _ = W4 m ρ c (Proc.devRef .tc main_v8) := by unwritten hostOps1
    _ = W3 m ρ c (Proc.devRef .tc main_v8) := (W4_arr m ρ c 4).trans (((dat0 (V3 m ρ) c).arrAt_in 4 rfl _).trans (A_eq0 (V3 m ρ) c 4))

set_option maxHeartbeats 400000 in
private theorem V5_v9 : (V5 m ρ c main_v9 : S1x64.Idx → EReal) = (V3 m ρ c main_v9 : S1x64.Idx → EReal) :=
  calc W5 m ρ c (Proc.devRef .tc main_v9)
    _ = W4 m ρ c (Proc.devRef .tc main_v9) := by unwritten hostOps1
    _ = W3 m ρ c (Proc.devRef .tc main_v9) := W4_of_ne m ρ c main_v9 (by decide)

set_option maxHeartbeats 400000 in
private theorem V5_v10 : (V5 m ρ c main_v10 : S1x64.Idx → EReal) = (V3 m ρ c main_v10 : S1x64.Idx → EReal) :=
  calc W5 m ρ c (Proc.devRef .tc main_v10)
    _ = W4 m ρ c (Proc.devRef .tc main_v10) := by unwritten hostOps1
    _ = W3 m ρ c (Proc.devRef .tc main_v10) := W4_of_ne m ρ c main_v10 (by decide)

theorem apply_rowsA : (V5 m ρ c main_v5 : S1000000x64.Idx → EReal) = gatherRows (m ((c.tc : Thread nD τ).loc main_arg0) : S100000x64.Idx → EReal) (asColumn (srcRow (m ((c.tc : Thread nD τ).loc main_arg11) : IVec S2x1000000 32))) :=
  (V5_v5 m ρ c).trans (stats_rowsA m ρ c)
theorem apply_rowsB : (V5 m ρ c main_arg1 : S1000000x64.Idx → EReal) = (m ((c.tc : Thread nD τ).loc main_arg1) : S1000000x64.Idx → EReal) :=
  (V5_arg1 m ρ c).trans (stats_rowsB m ρ c)
theorem apply_wTop : arr2 (V5 m ρ c main_v6 : S64x64.Idx → EReal) = topHalf (m ((c.tc : Thread nD τ).loc main_arg3) : S128x64.Idx → EReal) :=
  (congrArg (fun x : S64x64.Idx → EReal => arr2 x) (V5_v6 m ρ c)).trans (stats_wTop m ρ c)
theorem apply_wBot : arr2 (V5 m ρ c main_v7 : S64x64.Idx → EReal) = botHalf (m ((c.tc : Thread nD τ).loc main_arg3) : S128x64.Idx → EReal) :=
  (congrArg (fun x : S64x64.Idx → EReal => arr2 x) (V5_v7 m ρ c)).trans (stats_wBot m ρ c)
theorem apply_bias : row0 (V5 m ρ c main_v8 : S1x64.Idx → EReal) = vec1 (m ((c.tc : Thread nD τ).loc main_arg4) : S64.Idx → EReal) :=
  (congrArg (fun x : S1x64.Idx → EReal => row0 x) (V5_v8 m ρ c)).trans (stats_bias m ρ c)

/-- The two halves' column sums the statistics pass left (entry (q, s, j): half q, moment s, column j). -/
abbrev apply_stats : S2x2x64.Idx → EReal := ((dat0 (V3 m ρ) c).arrAt 5 cfg0.N : S2x2x64.Idx → EReal)

theorem apply_scale : row0 (V5 m ρ c main_v9 : S1x64.Idx → EReal) = vec1 (m ((c.tc : Thread nD τ).loc main_arg5) : S64.Idx → EReal) := by
  funext j
  exact (congrFun ((V5_v9 m ρ c).trans (W3_v9 m ρ c)) (ix2 0 j)).trans (shapeCast_a_1a_apply _ shapeCasts_S64_S1x64 0 j)
theorem apply_shift : row0 (V5 m ρ c main_v10 : S1x64.Idx → EReal) = vec1 (m ((c.tc : Thread nD τ).loc main_arg6) : S64.Idx → EReal) := by
  funext j
  exact (congrFun ((V5_v10 m ρ c).trans (W3_v10 m ρ c)) (ix2 0 j)).trans (shapeCast_a_1a_apply _ shapeCasts_S64_S1x64 0 j)

/-- The host's sum over the two halves, from zero, at (s, j): the two halves' entries added. -/
private theorem colSums_apply (x : FVec Ideal S2x2x64 .f32) (s : Fin 2) (j : Fin 64) :
    Host.reduceAdd x (constant (F := Ideal) S_ .f32 0x00000000#32) reducesTo_S2x2x64_S2x64_d0 h_S_ (ix2 s j) = x (ix3 0 s j) + x (ix3 1 s j) := by
  have h : S2x2x64.Reduces [0] S2x64 := by decide
  show Ideal.hostReduceAdd reducesTo_S2x2x64_S2x64_d0 x (Ideal.ofBits .f32 0x00000000#32) (ix2 s j) = _
  rw [Ideal.hostReduceAdd_single reducesTo_S2x2x64_S2x64_d0 h x _ (ix2 s j), Ideal.ofBits_zero_f32, zero_add]
  show ∑ k : Fin 2, x (h.lift (ix2 s j) k) = _
  have e (k : Fin 2) : h.lift (ix2 s j) k = ix3 k s j := by
    funext a
    match a with
    | ⟨0, _⟩ => exact Fin.ext rfl
    | ⟨1, _⟩ => exact Fin.ext rfl
    | ⟨2, _⟩ => exact Fin.ext rfl
  rw [Fin.sum_univ_two, e 0, e 1]

/-- Row `s` of the summed array, over the row count `n` given by its bit pattern, at column `j`. -/
private theorem moment_row (x : FVec Ideal S2x2x64 .f32) (o : ℕ) (hs : S2x64.Slices ![o, 0] S1x64) (s : Fin 2) (hso : s.val = o)
    (n : BitVec 32) (j : Fin 64) :
    Host.divf
        (extractStridedSlice S1x64 ![o, 0]
          (Host.reduceAdd x (constant (F := Ideal) S_ .f32 0x00000000#32) reducesTo_S2x2x64_S2x64_d0 h_S_) hs)
        (broadcastInDim S1x64 ![] bcast_S_S1x64 (constant (F := Ideal) S_ .f32 n)) (ix2 0 j)
      = Ideal.div (x (ix3 0 s j) + x (ix3 1 s j)) (Ideal.ofBits .f32 n) := by
  show Ideal.div
      (extractStridedSlice S1x64 ![o, 0]
        (Host.reduceAdd x (constant (F := Ideal) S_ .f32 0x00000000#32) reducesTo_S2x2x64_S2x64_d0 h_S_) hs (ix2 0 j))
      (Ideal.ofBits .f32 n) = _
  rw [slice2_axis0_apply o _ hs 0 j s (by rw [hso]; rfl), colSums_apply]

set_option maxHeartbeats 400000 in
/-- The mean and variance rows as the host's terms over the statistics pass's column sums. -/
private theorem W5_v16 : (V5 m ρ c main_v16 : S1x64.Idx → EReal)
    = Host.divf
        (extractStridedSlice S1x64 ![0, 0]
          (Host.reduceAdd (apply_stats m ρ c) (constant (F := Ideal) S_ .f32 0x00000000#32) reducesTo_S2x2x64_S2x64_d0 h_S_) slices_S2x64_S1x64_0_0)
        (broadcastInDim S1x64 ![] bcast_S_S1x64 (constant (F := Ideal) S_ .f32 0x49742400#32)) := by
  show StableHlo.after hostOps1 (W4 m ρ c) (Proc.devRef .tc main_v16) = _
  after_results
  rw [show W4 m ρ c (Proc.devRef .tc main_v11) = apply_stats m ρ c from W4_arr m ρ c 5]

set_option maxHeartbeats 400000 in
private theorem W5_v20 : (V5 m ρ c main_v20 : S1x64.Idx → EReal)
    = subf
        (Host.divf
          (extractStridedSlice S1x64 ![1, 0]
            (Host.reduceAdd (apply_stats m ρ c) (constant (F := Ideal) S_ .f32 0x00000000#32) reducesTo_S2x2x64_S2x64_d0 h_S_) slices_S2x64_S1x64_1_0)
          (broadcastInDim S1x64 ![] bcast_S_S1x64 (constant (F := Ideal) S_ .f32 0x49742400#32)))
        (mulf
          (Host.divf
            (extractStridedSlice S1x64 ![0, 0]
              (Host.reduceAdd (apply_stats m ρ c) (constant (F := Ideal) S_ .f32 0x00000000#32) reducesTo_S2x2x64_S2x64_d0 h_S_) slices_S2x64_S1x64_0_0)
            (broadcastInDim S1x64 ![] bcast_S_S1x64 (constant (F := Ideal) S_ .f32 0x49742400#32)))
          (Host.divf
            (extractStridedSlice S1x64 ![0, 0]
              (Host.reduceAdd (apply_stats m ρ c) (constant (F := Ideal) S_ .f32 0x00000000#32) reducesTo_S2x2x64_S2x64_d0 h_S_) slices_S2x64_S1x64_0_0)
            (broadcastInDim S1x64 ![] bcast_S_S1x64 (constant (F := Ideal) S_ .f32 0x49742400#32)))) := by
  show StableHlo.after hostOps1 (W4 m ρ c) (Proc.devRef .tc main_v20) = _
  after_results
  rw [show W4 m ρ c (Proc.devRef .tc main_v11) = apply_stats m ρ c from W4_arr m ρ c 5]

/-- The mean row: the two halves' sums, added, over the row count. -/
theorem apply_mean (j : Fin 64) : row0 (V5 m ρ c main_v16 : S1x64.Idx → EReal) j
    = Ideal.div (apply_stats m ρ c (ix3 0 0 j) + apply_stats m ρ c (ix3 1 0 j)) nEdges :=
  (congrFun (W5_v16 m ρ c) (ix2 0 j)).trans
    (moment_row (apply_stats m ρ c) 0 slices_S2x64_S1x64_0_0 0 rfl 0x49742400#32 j)
/-- The variance row: the two halves' sums of squares, added, over the row count, minus the squared mean. -/
theorem apply_var (j : Fin 64) : row0 (V5 m ρ c main_v20 : S1x64.Idx → EReal) j
    = Ideal.div (apply_stats m ρ c (ix3 0 1 j) + apply_stats m ρ c (ix3 1 1 j)) nEdges
      - Ideal.div (apply_stats m ρ c (ix3 0 0 j) + apply_stats m ρ c (ix3 1 0 j)) nEdges
        * Ideal.div (apply_stats m ρ c (ix3 0 0 j) + apply_stats m ρ c (ix3 1 0 j)) nEdges :=
  (congrFun (W5_v20 m ρ c) (ix2 0 j)).trans
    (congrArg₂ (fun a b : EReal => a - b * b)
      (moment_row (apply_stats m ρ c) 1 slices_S2x64_S1x64_1_0 1 rfl 0x49742400#32 j)
      (moment_row (apply_stats m ρ c) 0 slices_S2x64_S1x64_0_0 0 rfl 0x49742400#32 j))

end Cert.KernelIdeal.EntryEdge

end
-- ==== Proof.KEntryNode.lean ====
/-
  What the node layer's two regions find on entry, in terms of the launch memory and of the edge layer's result.

  Between the edge layer's second pass and the node layer's first the host aggregates the edge layer's result array
  onto the destination nodes (the mean of the rows arriving at each node), cuts the second weight matrix in its two
  halves and reshapes the second bias, scale and shift vectors to single rows. The node array itself is an argument,
  never written. As for the edge layer, the second pass finds the same contents as the first, beside the mean and
  variance rows computed from the first pass's column sums.
-/
import proofs.«412310_j6030134084155_3_alg».proof.Proof.Gen.KernelIdeal.Frame
import proofs.«412310_j6030134084155_3_alg».proof.Proof.Terms
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.KernelIdeal.EntryNode

open Cert.KernelIdeal Cert.KernelIdeal.Gen Cert.Spec Cert.Terms
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A host stretch leaves a buffer none of its operations writes as it was. -/
local macro "host_skip" : tactic => `(tactic| (
  refine StableHlo.after_of_forall_not_mem _ _ (List.forall_iff_forall_mem.mp ?_)
  simp only [hostOps0, hostOps0_1, hostOps0_2, hostOps1, hostOps2, hostOps3, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Reading a buffer back to the launch -/

/-- A buffer that neither edge-layer region has a window on and that no host stretch up to the edge layer's second pass
    writes holds, at that pass's exit, what the launch put there. -/
private theorem launch_of_W6 (b : Ref sig .tc)
    (h6 : ∀ w, Pipeline.arrRef spec1 w ≠ b) (h4 : ∀ w, Pipeline.arrRef spec0 w ≠ b)
    (e5 : W5 m ρ c (Proc.devRef .tc b) = W4 m ρ c (Proc.devRef .tc b))
    (e3 : W3 m ρ c (Proc.devRef .tc b) = W2 m ρ c (Proc.devRef .tc b))
    (e2 : W2 m ρ c (Proc.devRef .tc b) = W1 m ρ c (Proc.devRef .tc b))
    (e1 : W1 m ρ c (Proc.devRef .tc b) = W0 m ρ c (Proc.devRef .tc b)) :
    W6 m ρ c (Proc.devRef .tc b) = m ((c.tc : Thread nD τ).loc b) :=
  (W6_of_ne m ρ c b h6).trans (e5.trans ((W4_of_ne m ρ c b h4).trans (e3.trans (e2.trans e1))))

set_option maxHeartbeats 400000 in
private theorem W6_arg0 : W6 m ρ c (Proc.devRef .tc main_arg0) = m ((c.tc : Thread nD τ).loc main_arg0) :=
  launch_of_W6 m ρ c main_arg0 (by decide) (by decide) (by host_skip) (by host_skip) (by host_skip) (by host_skip)
set_option maxHeartbeats 400000 in
private theorem W6_arg7 : W6 m ρ c (Proc.devRef .tc main_arg7) = m ((c.tc : Thread nD τ).loc main_arg7) :=
  launch_of_W6 m ρ c main_arg7 (by decide) (by decide) (by host_skip) (by host_skip) (by host_skip) (by host_skip)
set_option maxHeartbeats 400000 in
private theorem W6_arg8 : W6 m ρ c (Proc.devRef .tc main_arg8) = m ((c.tc : Thread nD τ).loc main_arg8) :=
  launch_of_W6 m ρ c main_arg8 (by decide) (by decide) (by host_skip) (by host_skip) (by host_skip) (by host_skip)
set_option maxHeartbeats 400000 in
private theorem W6_arg9 : W6 m ρ c (Proc.devRef .tc main_arg9) = m ((c.tc : Thread nD τ).loc main_arg9) :=
  launch_of_W6 m ρ c main_arg9 (by decide) (by decide) (by host_skip) (by host_skip) (by host_skip) (by host_skip)
set_option maxHeartbeats 400000 in
private theorem W6_arg10 : W6 m ρ c (Proc.devRef .tc main_arg10) = m ((c.tc : Thread nD τ).loc main_arg10) :=
  launch_of_W6 m ρ c main_arg10 (by decide) (by decide) (by host_skip) (by host_skip) (by host_skip) (by host_skip)

set_option maxHeartbeats 400000 in
/-- The destination-index row is cut from the connectivity array before the first region and never written again. -/
private theorem W6_v3 : (W6 m ρ c (Proc.devRef .tc main_v3) : IVec S1000000 32)
    = dstRow (m ((c.tc : Thread nD τ).loc main_arg11) : IVec S2x1000000 32) :=
  calc W6 m ρ c (Proc.devRef .tc main_v3)
    _ = W5 m ρ c (Proc.devRef .tc main_v3) := W6_of_ne m ρ c main_v3 (by decide)
    _ = W4 m ρ c (Proc.devRef .tc main_v3) := by host_skip
    _ = W3 m ρ c (Proc.devRef .tc main_v3) := W4_of_ne m ρ c main_v3 (by decide)
    _ = W2 m ρ c (Proc.devRef .tc main_v3) := by host_skip
    _ = W1 m ρ c (Proc.devRef .tc main_v3) := by host_skip
    _ = dstRow (m ((c.tc : Thread nD τ).loc main_arg11) : IVec S2x1000000 32) := by
      show StableHlo.after hostOps0 (W0 m ρ c) (Proc.devRef .tc main_v3) = _
      after_results
      rfl

/-! ## What the host stretch before the statistics pass writes -/

set_option maxHeartbeats 400000 in
private theorem W7_v33 : (W7 m ρ c (Proc.devRef .tc main_v33) : S100000x64.Idx → EReal)
    = aggregate (W6 m ρ c (Proc.devRef .tc main_v21) : S1000000x64.Idx → EReal)
        (W6 m ρ c (Proc.devRef .tc main_v3) : IVec S1000000 32) := by
  show StableHlo.after hostOps2 (W6 m ρ c) (Proc.devRef .tc main_v33) = _
  after_results
  rfl

set_option maxHeartbeats 400000 in
private theorem W7_v34 : (W7 m ρ c (Proc.devRef .tc main_v34) : S64x64.Idx → EReal)
    = extractStridedSlice S64x64 ![0, 0] (m ((c.tc : Thread nD τ).loc main_arg7) : S128x64.Idx → EReal) slices_S128x64_S64x64_0_0 := by
  rw [← W6_arg7 m ρ c]
  show StableHlo.after hostOps2 (W6 m ρ c) (Proc.devRef .tc main_v34) = _
  after_results

set_option maxHeartbeats 400000 in
private theorem W7_v35 : (W7 m ρ c (Proc.devRef .tc main_v35) : S64x64.Idx → EReal)
    = extractStridedSlice S64x64 ![64, 0] (m ((c.tc : Thread nD τ).loc main_arg7) : S128x64.Idx → EReal) slices_S128x64_S64x64_64_0 := by
  rw [← W6_arg7 m ρ c]
  show StableHlo.after hostOps2 (W6 m ρ c) (Proc.devRef .tc main_v35) = _
  after_results

set_option maxHeartbeats 400000 in
private theorem W7_v36 : (W7 m ρ c (Proc.devRef .tc main_v36) : S1x64.Idx → EReal)
    = shapeCast S1x64 (m ((c.tc : Thread nD τ).loc main_arg8) : S64.Idx → EReal) shapeCasts_S64_S1x64 := by
  rw [← W6_arg8 m ρ c]
  show StableHlo.after hostOps2 (W6 m ρ c) (Proc.devRef .tc main_v36) = _
  after_results
  rfl
set_option maxHeartbeats 400000 in
private theorem W7_v37 : (W7 m ρ c (Proc.devRef .tc main_v37) : S1x64.Idx → EReal)
    = shapeCast S1x64 (m ((c.tc : Thread nD τ).loc main_arg9) : S64.Idx → EReal) shapeCasts_S64_S1x64 := by
  rw [← W6_arg9 m ρ c]
  show StableHlo.after hostOps2 (W6 m ρ c) (Proc.devRef .tc main_v37) = _
  after_results
  rfl
set_option maxHeartbeats 400000 in
private theorem W7_v38 : (W7 m ρ c (Proc.devRef .tc main_v38) : S1x64.Idx → EReal)
    = shapeCast S1x64 (m ((c.tc : Thread nD τ).loc main_arg10) : S64.Idx → EReal) shapeCasts_S64_S1x64 := by
  rw [← W6_arg10 m ρ c]
  show StableHlo.after hostOps2 (W6 m ρ c) (Proc.devRef .tc main_v38) = _
  after_results
  rfl

/-! ## Slices and reshapes read by coordinates -/

/-- The slice at row offset 0 of a 128 x 64 matrix is its top half. -/
private theorem arr2_slice_top (w : S128x64.Idx → EReal) :
    arr2 (extractStridedSlice S64x64 ![0, 0] w slices_S128x64_S64x64_0_0 : S64x64.Idx → EReal) = topHalf w := by
  funext k j
  refine extractStridedSlice_apply _ w _ (ix2 k j) (ix2 ⟨k.val, by omega⟩ j) fun a => ?_
  fin_cases a
  · exact (Nat.zero_add _).symm
  · exact (Nat.zero_add _).symm

/-- The slice at row offset 64 of a 128 x 64 matrix is its bottom half. -/
private theorem arr2_slice_bot (w : S128x64.Idx → EReal) :
    arr2 (extractStridedSlice S64x64 ![64, 0] w slices_S128x64_S64x64_64_0 : S64x64.Idx → EReal) = botHalf w := by
  funext k j
  refine extractStridedSlice_apply _ w _ (ix2 k j) (ix2 ⟨64 + k.val, by omega⟩ j) fun a => ?_
  fin_cases a
  · rfl
  · exact (Nat.zero_add _).symm

/-- A vector of 64 entries reshaped to a single row is read, in that row, at the same coordinate. -/
private theorem row0_reshape (v : S64.Idx → EReal) :
    row0 (shapeCast S1x64 v shapeCasts_S64_S1x64 : S1x64.Idx → EReal) = vec1 v := by
  funext j
  exact shapeCast_a_1a_apply v shapeCasts_S64_S1x64 0 j

/-! ## On entry to the statistics pass -/

set_option maxHeartbeats 400000 in
theorem stats_rowsA : (V7 m ρ c main_arg0 : S100000x64.Idx → EReal) = (m ((c.tc : Thread nD τ).loc main_arg0) : S100000x64.Idx → EReal) := by
  refine Eq.trans ?_ (W6_arg0 m ρ c)
  show W7 m ρ c (Proc.devRef .tc main_arg0) = W6 m ρ c (Proc.devRef .tc main_arg0)
  host_skip
theorem stats_rowsB : (V7 m ρ c main_v33 : S100000x64.Idx → EReal) = aggregate ((dat1 (V5 m ρ) c).arrAt 9 cfg1.N : S1000000x64.Idx → EReal) (dstRow (m ((c.tc : Thread nD τ).loc main_arg11) : IVec S2x1000000 32)) :=
  (W7_v33 m ρ c).trans (congrArg₂ aggregate (W6_arr m ρ c 9) (W6_v3 m ρ c))
theorem stats_wTop : arr2 (V7 m ρ c main_v34 : S64x64.Idx → EReal) = topHalf (m ((c.tc : Thread nD τ).loc main_arg7) : S128x64.Idx → EReal) :=
  (congrArg arr2 (W7_v34 m ρ c)).trans (arr2_slice_top _)
theorem stats_wBot : arr2 (V7 m ρ c main_v35 : S64x64.Idx → EReal) = botHalf (m ((c.tc : Thread nD τ).loc main_arg7) : S128x64.Idx → EReal) :=
  (congrArg arr2 (W7_v35 m ρ c)).trans (arr2_slice_bot _)
theorem stats_bias : row0 (V7 m ρ c main_v36 : S1x64.Idx → EReal) = vec1 (m ((c.tc : Thread nD τ).loc main_arg8) : S64.Idx → EReal) :=
  (congrArg row0 (W7_v36 m ρ c)).trans (row0_reshape _)

/-! ## Through the statistics pass and the host stretch after it

The statistics pass reads the node rows, the aggregated rows, the two weight halves and the bias through input windows,
which it leaves as it found them; the scale and shift rows it has no window on; and the host stretch between the two
passes writes none of these. -/

set_option maxHeartbeats 400000 in
private theorem W9_arg0 : W9 m ρ c (Proc.devRef .tc main_arg0) = W7 m ρ c (Proc.devRef .tc main_arg0) :=
  (by host_skip : W9 m ρ c (Proc.devRef .tc main_arg0) = W8 m ρ c (Proc.devRef .tc main_arg0)).trans
    ((W8_arr m ρ c 0).trans (((dat2 (V7 m ρ) c).arrAt_in 0 rfl _).trans (A_eq2 (V7 m ρ) c 0)))
set_option maxHeartbeats 400000 in
private theorem W9_v33 : W9 m ρ c (Proc.devRef .tc main_v33) = W7 m ρ c (Proc.devRef .tc main_v33) :=
  (by host_skip : W9 m ρ c (Proc.devRef .tc main_v33) = W8 m ρ c (Proc.devRef .tc main_v33)).trans
    ((W8_arr m ρ c 1).trans (((dat2 (V7 m ρ) c).arrAt_in 1 rfl _).trans (A_eq2 (V7 m ρ) c 1)))
set_option maxHeartbeats 400000 in
private theorem W9_v34 : W9 m ρ c (Proc.devRef .tc main_v34) = W7 m ρ c (Proc.devRef .tc main_v34) :=
  (by host_skip : W9 m ρ c (Proc.devRef .tc main_v34) = W8 m ρ c (Proc.devRef .tc main_v34)).trans
    ((W8_arr m ρ c 2).trans (((dat2 (V7 m ρ) c).arrAt_in 2 rfl _).trans (A_eq2 (V7 m ρ) c 2)))
set_option maxHeartbeats 400000 in
private theorem W9_v35 : W9 m ρ c (Proc.devRef .tc main_v35) = W7 m ρ c (Proc.devRef .tc main_v35) :=
  (by host_skip : W9 m ρ c (Proc.devRef .tc main_v35) = W8 m ρ c (Proc.devRef .tc main_v35)).trans
    ((W8_arr m ρ c 3).trans (((dat2 (V7 m ρ) c).arrAt_in 3 rfl _).trans (A_eq2 (V7 m ρ) c 3)))
set_option maxHeartbeats 400000 in
private theorem W9_v36 : W9 m ρ c (Proc.devRef .tc main_v36) = W7 m ρ c (Proc.devRef .tc main_v36) :=
  (by host_skip : W9 m ρ c (Proc.devRef .tc main_v36) = W8 m ρ c (Proc.devRef .tc main_v36)).trans
    ((W8_arr m ρ c 4).trans (((dat2 (V7 m ρ) c).arrAt_in 4 rfl _).trans (A_eq2 (V7 m ρ) c 4)))
set_option maxHeartbeats 400000 in
private theorem W9_v37 : W9 m ρ c (Proc.devRef .tc main_v37) = W7 m ρ c (Proc.devRef .tc main_v37) :=
  (by host_skip : W9 m ρ c (Proc.devRef .tc main_v37) = W8 m ρ c (Proc.devRef .tc main_v37)).trans
    (W8_of_ne m ρ c main_v37 (by decide))
set_option maxHeartbeats 400000 in
private theorem W9_v38 : W9 m ρ c (Proc.devRef .tc main_v38) = W7 m ρ c (Proc.devRef .tc main_v38) :=
  (by host_skip : W9 m ρ c (Proc.devRef .tc main_v38) = W8 m ρ c (Proc.devRef .tc main_v38)).trans
    (W8_of_ne m ρ c main_v38 (by decide))

/-! ## On entry to the second pass -/

theorem apply_rowsA : (V9 m ρ c main_arg0 : S100000x64.Idx → EReal) = (m ((c.tc : Thread nD τ).loc main_arg0) : S100000x64.Idx → EReal) :=
  (W9_arg0 m ρ c).trans (stats_rowsA m ρ c)
theorem apply_rowsB : (V9 m ρ c main_v33 : S100000x64.Idx → EReal) = aggregate ((dat1 (V5 m ρ) c).arrAt 9 cfg1.N : S1000000x64.Idx → EReal) (dstRow (m ((c.tc : Thread nD τ).loc main_arg11) : IVec S2x1000000 32)) :=
  (W9_v33 m ρ c).trans (stats_rowsB m ρ c)
theorem apply_wTop : arr2 (V9 m ρ c main_v34 : S64x64.Idx → EReal) = topHalf (m ((c.tc : Thread nD τ).loc main_arg7) : S128x64.Idx → EReal) :=
  (congrArg arr2 (W9_v34 m ρ c)).trans (stats_wTop m ρ c)
theorem apply_wBot : arr2 (V9 m ρ c main_v35 : S64x64.Idx → EReal) = botHalf (m ((c.tc : Thread nD τ).loc main_arg7) : S128x64.Idx → EReal) :=
  (congrArg arr2 (W9_v35 m ρ c)).trans (stats_wBot m ρ c)
theorem apply_bias : row0 (V9 m ρ c main_v36 : S1x64.Idx → EReal) = vec1 (m ((c.tc : Thread nD τ).loc main_arg8) : S64.Idx → EReal) :=
  (congrArg row0 (W9_v36 m ρ c)).trans (stats_bias m ρ c)

/-- The two halves' column sums the statistics pass left (entry (q, s, j): half q, moment s, column j). -/
abbrev apply_stats : S2x2x64.Idx → EReal := ((dat2 (V7 m ρ) c).arrAt 5 cfg2.N : S2x2x64.Idx → EReal)

theorem apply_scale : row0 (V9 m ρ c main_v37 : S1x64.Idx → EReal) = vec1 (m ((c.tc : Thread nD τ).loc main_arg9) : S64.Idx → EReal) :=
  (congrArg row0 ((W9_v37 m ρ c).trans (W7_v37 m ρ c))).trans (row0_reshape _)
theorem apply_shift : row0 (V9 m ρ c main_v38 : S1x64.Idx → EReal) = vec1 (m ((c.tc : Thread nD τ).loc main_arg10) : S64.Idx → EReal) :=
  (congrArg row0 ((W9_v38 m ρ c).trans (W7_v38 m ρ c))).trans (row0_reshape _)

/-! ## The mean and variance rows the host makes of the statistics pass's sums -/

/-- The column sums of moment `s` over both halves, as the host takes them: the sum over the first axis, then row `s`
    cut out. -/
private theorem halves_sum (x : S2x2x64.Idx → EReal) (s : Fin 2) (j : Fin 64) :
    (Host.reduceAdd x (constant (F := Ideal) S_ .f32 0x00000000#32) reducesTo_S2x2x64_S2x64_d0 h_S_ : S2x64.Idx → EReal) (ix2 s j)
      = x (ix3 0 s j) + x (ix3 1 s j) := by
  have h : Shape.Reduces S2x2x64 [0] S2x64 := by decide
  show Ideal.hostReduceAdd reducesTo_S2x2x64_S2x64_d0 x (Ideal.ofBits .f32 0x00000000#32) (ix2 s j) = _
  rw [Ideal.hostReduceAdd_single _ h, Ideal.ofBits_zero_f32, zero_add]
  show ∑ k : Fin 2, x (h.lift (ix2 s j) k) = _
  rw [Fin.sum_univ_two]
  refine congrArg₂ (· + ·) (congrArg x (funext fun a => ?_)) (congrArg x (funext fun a => ?_))
  · fin_cases a <;> exact Fin.ext rfl
  · fin_cases a <;> exact Fin.ext rfl

/-- The mean row: row 0 of the halves' sums over the row count. -/
private def meanRow (x : S2x2x64.Idx → EReal) : S1x64.Idx → EReal :=
  Host.divf
    (extractStridedSlice S1x64 ![0, 0]
      (Host.reduceAdd x (constant (F := Ideal) S_ .f32 0x00000000#32) reducesTo_S2x2x64_S2x64_d0 h_S_ : S2x64.Idx → EReal)
      slices_S2x64_S1x64_0_0)
    (broadcastInDim S1x64 ![] bcast_S_S1x64 (constant (F := Ideal) S_ .f32 0x47C35000#32))

/-- The mean-of-squares row: row 1 of the halves' sums over the row count. -/
private def sqMeanRow (x : S2x2x64.Idx → EReal) : S1x64.Idx → EReal :=
  Host.divf
    (extractStridedSlice S1x64 ![1, 0]
      (Host.reduceAdd x (constant (F := Ideal) S_ .f32 0x00000000#32) reducesTo_S2x2x64_S2x64_d0 h_S_ : S2x64.Idx → EReal)
      slices_S2x64_S1x64_1_0)
    (broadcastInDim S1x64 ![] bcast_S_S1x64 (constant (F := Ideal) S_ .f32 0x47C35000#32))

private theorem meanRow_apply (x : S2x2x64.Idx → EReal) (j : Fin 64) :
    row0 (meanRow x) j = Ideal.div (x (ix3 0 0 j) + x (ix3 1 0 j)) nNodes := by
  rw [← halves_sum x 0 j]
  refine congrArg₂ Ideal.div ?_ rfl
  refine extractStridedSlice_apply _ _ _ (ix2 0 j) (ix2 0 j) fun a => ?_
  fin_cases a
  · rfl
  · exact (Nat.zero_add _).symm

private theorem sqMeanRow_apply (x : S2x2x64.Idx → EReal) (j : Fin 64) :
    row0 (sqMeanRow x) j = Ideal.div (x (ix3 0 1 j) + x (ix3 1 1 j)) nNodes := by
  rw [← halves_sum x 1 j]
  refine congrArg₂ Ideal.div ?_ rfl
  refine extractStridedSlice_apply _ _ _ (ix2 0 j) (ix2 1 j) fun a => ?_
  fin_cases a
  · rfl
  · exact (Nat.zero_add _).symm

set_option maxHeartbeats 400000 in
private theorem W9_v44 : (W9 m ρ c (Proc.devRef .tc main_v44) : S1x64.Idx → EReal) = meanRow (apply_stats m ρ c) := by
  rw [apply_stats, ← W8_arr m ρ c 5]
  show StableHlo.after hostOps3 (W8 m ρ c) (Proc.devRef .tc main_v44) = _
  after_results
  rfl

set_option maxHeartbeats 400000 in
private theorem W9_v48 : (W9 m ρ c (Proc.devRef .tc main_v48) : S1x64.Idx → EReal)
    = (subf (sqMeanRow (apply_stats m ρ c) : FVec Ideal S1x64 .f32)
        (mulf (meanRow (apply_stats m ρ c) : FVec Ideal S1x64 .f32) (meanRow (apply_stats m ρ c) : FVec Ideal S1x64 .f32))
        : FVec Ideal S1x64 .f32) := by
  rw [apply_stats, ← W8_arr m ρ c 5]
  show StableHlo.after hostOps3 (W8 m ρ c) (Proc.devRef .tc main_v48) = _
  after_results
  rfl

/-- The mean row: the two halves' sums, added, over the row count. -/
theorem apply_mean (j : Fin 64) : row0 (V9 m ρ c main_v44 : S1x64.Idx → EReal) j
    = Ideal.div (apply_stats m ρ c (ix3 0 0 j) + apply_stats m ρ c (ix3 1 0 j)) nNodes :=
  (congrFun (congrArg row0 (W9_v44 m ρ c)) j).trans (meanRow_apply _ j)
/-- The variance row: the two halves' sums of squares, added, over the row count, minus the squared mean. -/
theorem apply_var (j : Fin 64) : row0 (V9 m ρ c main_v48 : S1x64.Idx → EReal) j
    = Ideal.div (apply_stats m ρ c (ix3 0 1 j) + apply_stats m ρ c (ix3 1 1 j)) nNodes
      - Ideal.div (apply_stats m ρ c (ix3 0 0 j) + apply_stats m ρ c (ix3 1 0 j)) nNodes
        * Ideal.div (apply_stats m ρ c (ix3 0 0 j) + apply_stats m ρ c (ix3 1 0 j)) nNodes := by
  refine (congrFun (congrArg row0 (W9_v48 m ρ c)) j).trans ?_
  show row0 (sqMeanRow (apply_stats m ρ c)) j - row0 (meanRow (apply_stats m ρ c)) j * row0 (meanRow (apply_stats m ρ c)) j = _
  rw [sqMeanRow_apply, meanRow_apply]

end Cert.KernelIdeal.EntryNode

end
-- ==== Proof.Sums.lean ====
/-
  Re-indexing of finite sums: a run of naturals cut into equal blocks, a row function read at naturals, and a sum
  over 128 indices as its two halves. Nothing here is about extended reals in particular: only that addition is
  commutative and associative.
-/
import Mathlib.Algebra.BigOperators.Intervals
import Mathlib.Algebra.BigOperators.Fin
import proofs.«412310_j6030134084155_3_alg».proof.Proof.Spec

noncomputable section

namespace Cert.Spec

open scoped BigOperators

/-- `a` consecutive blocks of `b` naturals each, starting at block `base`, make one run of `a * b` naturals
    starting at `b * base`. -/
theorem sum_blocks {M : Type*} [AddCommMonoid M] (f : ℕ → M) (a b base : ℕ) :
    ∑ t ∈ Finset.range a, ∑ k : Fin b, f (b * (base + t) + k.val) = ∑ e ∈ Finset.range (a * b), f (b * base + e) := by
  induction a with
  | zero => simp
  | succ n ih =>
    -- peel the last block; the earlier blocks are the induction hypothesis, and a run of length n * b + b
    -- splits into its first n * b terms and its last b terms
    rw [Finset.sum_range_succ, ih, Nat.succ_mul, Finset.sum_range_add]
    congr 1
    rw [Fin.sum_univ_eq_sum_range (fun k => f (b * (base + n) + k)) b]
    refine Finset.sum_congr rfl (fun x _ => ?_)
    -- b * (base + n) + x = b * base + (n * b + x) by distributivity and commutativity
    rw [Nat.mul_add, Nat.mul_comm b n, Nat.add_assoc]

/-- Summing a row function read at the naturals `0 … R - 1` is summing over its rows. -/
theorem sum_range_onNat {R : ℕ} (h : Fin R → Fin 64 → EReal) (g : EReal → EReal) (j : Fin 64) :
    ∑ e ∈ Finset.range R, g (onNat h e j) = ∑ r : Fin R, g (h r j) := by
  -- a sum over the naturals below R is a sum over Fin R, and below R the natural reading is the row itself
  rw [← Fin.sum_univ_eq_sum_range (fun n => g (onNat h n j)) R]
  refine Finset.sum_congr rfl (fun r _ => ?_)
  simp only [onNat, dif_pos r.isLt]

/-- A sum over 128 indices is the sum over the first 64 plus the sum over the last 64. -/
theorem sum_fin128 {M : Type*} [AddCommMonoid M] (f : Fin 128 → M) :
    ∑ k : Fin 128, f k = (∑ k : Fin 64, f ⟨k.val, by omega⟩) + ∑ k : Fin 64, f ⟨64 + k.val, by omega⟩ := by
  -- 128 = 64 + 64, and a sum over Fin (64 + 64) is the sum over the left copy plus the sum over the right copy
  exact Fin.sum_univ_add (a := 64) (b := 64) f

end Cert.Spec

end
-- ==== Proof.KValue.lean ====
/-
  The idealized kernel's result as one function of its argument arrays.

  The program is four pipelined regions among stretches of host operations. Reading the buffer contents at each
  boundary forwards from the launch memory: the host gathers one node row per edge and cuts the weights in halves;
  the first region leaves the two halves' column sums of the edge layer's affine output and of its squares, which the
  host adds and turns into the mean and the variance (mean of squares minus squared mean); the second region leaves
  the edge layer's output; the host aggregates it onto the destination nodes; the third and fourth regions do for the
  node layer what the first two did for the edge layer. Composed, the result buffer holds `Terms.result` with the
  variance spelt by moments and the source index as it stands.
-/
import proofs.«412310_j6030134084155_3_alg».proof.Proof.KRun
import proofs.«412310_j6030134084155_3_alg».proof.Proof.KApply1
import proofs.«412310_j6030134084155_3_alg».proof.Proof.KApply3
import proofs.«412310_j6030134084155_3_alg».proof.Proof.KStats0
import proofs.«412310_j6030134084155_3_alg».proof.Proof.KStats2
import proofs.«412310_j6030134084155_3_alg».proof.Proof.KEntryEdge
import proofs.«412310_j6030134084155_3_alg».proof.Proof.KEntryNode
import proofs.«412310_j6030134084155_3_alg».proof.Proof.Terms
import proofs.«412310_j6030134084155_3_alg».proof.Proof.Sums
import Idealize.ShloMosaic.Lib.StableHlo.Run
import Idealize.ShloMosaic.Lib.ValueLayout

set_option maxRecDepth 16384

noncomputable section

namespace Cert.KernelIdeal.Value

open Cert.KernelIdeal Cert.KernelIdeal.Gen Cert.Spec Cert.Terms
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- The result as a function of the launch memory's argument arrays (on device `c`). -/
def out (c : Dev nD) : Fin 100000 → Fin 64 → EReal :=
  result @varMoments id
    (m ((c.tc : Thread nD τ).loc main_arg0) : S100000x64.Idx → EReal) (m ((c.tc : Thread nD τ).loc main_arg1) : S1000000x64.Idx → EReal)
    (m ((c.tc : Thread nD τ).loc main_arg3) : S128x64.Idx → EReal) (m ((c.tc : Thread nD τ).loc main_arg4) : S64.Idx → EReal)
    (m ((c.tc : Thread nD τ).loc main_arg5) : S64.Idx → EReal) (m ((c.tc : Thread nD τ).loc main_arg6) : S64.Idx → EReal)
    (m ((c.tc : Thread nD τ).loc main_arg7) : S128x64.Idx → EReal) (m ((c.tc : Thread nD τ).loc main_arg8) : S64.Idx → EReal)
    (m ((c.tc : Thread nD τ).loc main_arg9) : S64.Idx → EReal) (m ((c.tc : Thread nD τ).loc main_arg10) : S64.Idx → EReal)
    (m ((c.tc : Thread nD τ).loc main_arg11) : IVec S2x1000000 32)

/-! ## Column sums kept as two halves

  A statistics pass walks each half of the rows in `a` blocks of `b` rows and keeps, per half, the column sum of a
  quantity of the entry. The two halves' sums added are the sum over all `2 · a · b` rows: the blocks of a half are one
  run of `a · b` consecutive rows, the second half's run starts where the first one's ends, and a row function read at
  the naturals below the row count is the row function itself. -/

theorem halves_sum {R : ℕ} (h : Fin R → Fin 64 → EReal) (a b : ℕ) (hR : R = a * b + a * b) (s : Fin 2) (j : Fin 64) :
    (∑ t ∈ Finset.range a, ∑ k : Fin b, moment s (onNat h (b * (a * (0 : Fin 2).val + t) + k.val) j))
      + (∑ t ∈ Finset.range a, ∑ k : Fin b, moment s (onNat h (b * (a * (1 : Fin 2).val + t) + k.val) j))
      = ∑ r : Fin R, moment s (h r j) := by
  subst hR
  have e0 : ((0 : Fin 2).val) = 0 := rfl
  have e1 : ((1 : Fin 2).val) = 1 := rfl
  -- each half's blocks are one run of a * b rows, starting at row 0 and at row a * b
  rw [e0, e1, sum_blocks (fun n => moment s (onNat h n j)) a b (a * 0),
    sum_blocks (fun n => moment s (onNat h n j)) a b (a * 1), Nat.mul_zero, Nat.mul_zero, Nat.mul_one, Nat.mul_comm b a]
  simp only [Nat.zero_add]
  -- the two runs end to end are the run of all rows
  rw [← Finset.sum_range_add (fun n => moment s (onNat h n j)) (a * b) (a * b)]
  exact sum_range_onNat h (moment s) j

/-- The column sum of the entries themselves, over the row count, is the column's mean. -/
theorem mean_of_sum {R : ℕ} (h : Fin R → Fin 64 → EReal) (n : EReal) (j : Fin 64) (S0 : EReal)
    (h0 : S0 = ∑ r : Fin R, moment 0 (h r j)) : Ideal.div S0 n = mean n h j := by
  rw [h0]
  unfold mean colSum moment
  simp only [if_pos]

/-- The column sum of the squares over the row count, minus the squared mean, is the variance spelt by moments. -/
theorem var_of_sums {R : ℕ} (h : Fin R → Fin 64 → EReal) (n : EReal) (j : Fin 64) (S0 S1 : EReal)
    (h0 : S0 = ∑ r : Fin R, moment 0 (h r j)) (h1 : S1 = ∑ r : Fin R, moment 1 (h r j)) :
    Ideal.div S1 n - Ideal.div S0 n * Ideal.div S0 n = varMoments n h j := by
  rw [h0, h1]
  unfold varMoments mean colSum colSumSq moment
  simp only [if_pos, if_neg (show ¬ ((1 : Fin 2) = 0) by decide)]

/-! ## The two layers' pieces, named over the launch memory -/

/-- The edge layer's affine output: one gathered node row per edge beside the edge's own row. -/
def edgeAffine (c : Dev nD) : Fin 1000000 → Fin 64 → EReal :=
  affine
    (arr2 (gatherRows (m ((c.tc : Thread nD τ).loc main_arg0) : S100000x64.Idx → EReal)
      (asColumn (srcRow (m ((c.tc : Thread nD τ).loc main_arg11) : IVec S2x1000000 32)))))
    (arr2 (m ((c.tc : Thread nD τ).loc main_arg1) : S1000000x64.Idx → EReal))
    (topHalf (m ((c.tc : Thread nD τ).loc main_arg3) : S128x64.Idx → EReal))
    (botHalf (m ((c.tc : Thread nD τ).loc main_arg3) : S128x64.Idx → EReal))
    (vec1 (m ((c.tc : Thread nD τ).loc main_arg4) : S64.Idx → EReal))

/-- The edge layer's output: the message every edge carries. -/
def edgeMsg (c : Dev nD) : Fin 1000000 → Fin 64 → EReal :=
  layer (edgeAffine m c) (mean nEdges (edgeAffine m c)) (varMoments nEdges (edgeAffine m c))
    (vec1 (m ((c.tc : Thread nD τ).loc main_arg5) : S64.Idx → EReal))
    (vec1 (m ((c.tc : Thread nD τ).loc main_arg6) : S64.Idx → EReal))

/-- The node layer's affine output: a node's own row beside the mean of the messages arriving at it. -/
def nodeAffine (c : Dev nD) : Fin 100000 → Fin 64 → EReal :=
  affine
    (arr2 (m ((c.tc : Thread nD τ).loc main_arg0) : S100000x64.Idx → EReal))
    (aggregate2 (dstRow (m ((c.tc : Thread nD τ).loc main_arg11) : IVec S2x1000000 32)) (edgeMsg m c))
    (topHalf (m ((c.tc : Thread nD τ).loc main_arg7) : S128x64.Idx → EReal))
    (botHalf (m ((c.tc : Thread nD τ).loc main_arg7) : S128x64.Idx → EReal))
    (vec1 (m ((c.tc : Thread nD τ).loc main_arg8) : S64.Idx → EReal))

/-- The whole computation is the node layer over those pieces: the definitions unfold to this. -/
theorem out_eq (c : Dev nD) :
    out m c = layer (nodeAffine m c) (mean nNodes (nodeAffine m c)) (varMoments nNodes (nodeAffine m c))
      (vec1 (m ((c.tc : Thread nD τ).loc main_arg9) : S64.Idx → EReal))
      (vec1 (m ((c.tc : Thread nD τ).loc main_arg10) : S64.Idx → EReal)) := rfl

/-! ## The edge layer -/

/-- What the edge layer's statistics pass sums is the edge layer's affine output. -/
theorem edge_affine_stats (c : Dev nD) :
    affine (arr2 (V3 m ρ c main_v5 : S1000000x64.Idx → EReal)) (arr2 (V3 m ρ c main_arg1 : S1000000x64.Idx → EReal))
      (arr2 (V3 m ρ c main_v6 : S64x64.Idx → EReal)) (arr2 (V3 m ρ c main_v7 : S64x64.Idx → EReal))
      (row0 (V3 m ρ c main_v8 : S1x64.Idx → EReal)) = edgeAffine m c := by
  rw [EntryEdge.stats_rowsA m ρ c, EntryEdge.stats_rowsB m ρ c, EntryEdge.stats_wTop m ρ c, EntryEdge.stats_wBot m ρ c,
    EntryEdge.stats_bias m ρ c]
  rfl

/-- The second pass normalises the same affine output. -/
theorem edge_affine_apply (c : Dev nD) :
    affine (arr2 (V5 m ρ c main_v5 : S1000000x64.Idx → EReal)) (arr2 (V5 m ρ c main_arg1 : S1000000x64.Idx → EReal))
      (arr2 (V5 m ρ c main_v6 : S64x64.Idx → EReal)) (arr2 (V5 m ρ c main_v7 : S64x64.Idx → EReal))
      (row0 (V5 m ρ c main_v8 : S1x64.Idx → EReal)) = edgeAffine m c := by
  rw [EntryEdge.apply_rowsA m ρ c, EntryEdge.apply_rowsB m ρ c, EntryEdge.apply_wTop m ρ c, EntryEdge.apply_wBot m ρ c,
    EntryEdge.apply_bias m ρ c]
  rfl

/-- The two halves' sums of moment `s`, added, are the sum over all edges: 25 blocks of 20000 rows per half. -/
theorem edge_stats_sum (c : Dev nD) (s : Fin 2) (j : Fin 64) :
    EntryEdge.apply_stats m ρ c (ix3 0 s j) + EntryEdge.apply_stats m ρ c (ix3 1 s j)
      = ∑ r : Fin 1000000, moment s (edgeAffine m c r j) := by
  unfold EntryEdge.apply_stats
  rw [Stats0.result_apply (V3 m ρ) c 0 s j, Stats0.result_apply (V3 m ρ) c 1 s j, edge_affine_stats m ρ c]
  exact halves_sum (edgeAffine m c) 25 20000 (by norm_num) s j

theorem edge_mean (c : Dev nD) : row0 (V5 m ρ c main_v16 : S1x64.Idx → EReal) = mean nEdges (edgeAffine m c) := by
  funext j
  rw [EntryEdge.apply_mean m ρ c j]
  exact mean_of_sum (edgeAffine m c) nEdges j _ (edge_stats_sum m ρ c 0 j)

theorem edge_var (c : Dev nD) : row0 (V5 m ρ c main_v20 : S1x64.Idx → EReal) = varMoments nEdges (edgeAffine m c) := by
  funext j
  rw [EntryEdge.apply_var m ρ c j]
  exact var_of_sums (edgeAffine m c) nEdges j _ _ (edge_stats_sum m ρ c 0 j) (edge_stats_sum m ρ c 1 j)

/-- Entry (r, j) of the second pass's result array is the message of edge r at column j. -/
theorem edge_msg_entries (c : Dev nD) :
    arr2 ((dat1 (V5 m ρ) c).arrAt 9 cfg1.N : S1000000x64.Idx → EReal) = edgeMsg m c := by
  funext r j
  refine (Apply1.result_apply (V5 m ρ) c r j).trans ?_
  rw [edge_affine_apply m ρ c, edge_mean m ρ c, edge_var m ρ c, EntryEdge.apply_scale m ρ c, EntryEdge.apply_shift m ρ c]
  rfl

/-- The second pass's result array holds the message of every edge. -/
theorem edge_msg (c : Dev nD) :
    ((dat1 (V5 m ρ) c).arrAt 9 cfg1.N : S1000000x64.Idx → EReal) = toArr2 (edgeMsg m c) :=
  -- an array is the array of its own entries
  (toArr2_arr2 (n0 := 1000000) (n1 := 64) _).symm.trans (congrArg toArr2 (edge_msg_entries m ρ c))

/-! ## The node layer -/

/-- The aggregated rows the node layer's statistics pass finds are the mean of the arriving messages. -/
theorem node_rows_stats (c : Dev nD) :
    arr2 (V7 m ρ c main_v33 : S100000x64.Idx → EReal)
      = aggregate2 (dstRow (m ((c.tc : Thread nD τ).loc main_arg11) : IVec S2x1000000 32)) (edgeMsg m c) := by
  rw [EntryNode.stats_rowsB m ρ c, edge_msg m ρ c]
  rfl

theorem node_rows_apply (c : Dev nD) :
    arr2 (V9 m ρ c main_v33 : S100000x64.Idx → EReal)
      = aggregate2 (dstRow (m ((c.tc : Thread nD τ).loc main_arg11) : IVec S2x1000000 32)) (edgeMsg m c) := by
  rw [EntryNode.apply_rowsB m ρ c, edge_msg m ρ c]
  rfl

theorem node_affine_stats (c : Dev nD) :
    affine (arr2 (V7 m ρ c main_arg0 : S100000x64.Idx → EReal)) (arr2 (V7 m ρ c main_v33 : S100000x64.Idx → EReal))
      (arr2 (V7 m ρ c main_v34 : S64x64.Idx → EReal)) (arr2 (V7 m ρ c main_v35 : S64x64.Idx → EReal))
      (row0 (V7 m ρ c main_v36 : S1x64.Idx → EReal)) = nodeAffine m c := by
  rw [node_rows_stats m ρ c, EntryNode.stats_rowsA m ρ c, EntryNode.stats_wTop m ρ c, EntryNode.stats_wBot m ρ c,
    EntryNode.stats_bias m ρ c]
  rfl

theorem node_affine_apply (c : Dev nD) :
    affine (arr2 (V9 m ρ c main_arg0 : S100000x64.Idx → EReal)) (arr2 (V9 m ρ c main_v33 : S100000x64.Idx → EReal))
      (arr2 (V9 m ρ c main_v34 : S64x64.Idx → EReal)) (arr2 (V9 m ρ c main_v35 : S64x64.Idx → EReal))
      (row0 (V9 m ρ c main_v36 : S1x64.Idx → EReal)) = nodeAffine m c := by
  rw [node_rows_apply m ρ c, EntryNode.apply_rowsA m ρ c, EntryNode.apply_wTop m ρ c, EntryNode.apply_wBot m ρ c,
    EntryNode.apply_bias m ρ c]
  rfl

/-- The two halves' sums of moment `s`, added, are the sum over all nodes: 5 blocks of 10000 rows per half. -/
theorem node_stats_sum (c : Dev nD) (s : Fin 2) (j : Fin 64) :
    EntryNode.apply_stats m ρ c (ix3 0 s j) + EntryNode.apply_stats m ρ c (ix3 1 s j)
      = ∑ r : Fin 100000, moment s (nodeAffine m c r j) := by
  unfold EntryNode.apply_stats
  rw [Stats2.result_apply (V7 m ρ) c 0 s j, Stats2.result_apply (V7 m ρ) c 1 s j, node_affine_stats m ρ c]
  exact halves_sum (nodeAffine m c) 5 10000 (by norm_num) s j

theorem node_mean (c : Dev nD) : row0 (V9 m ρ c main_v44 : S1x64.Idx → EReal) = mean nNodes (nodeAffine m c) := by
  funext j
  rw [EntryNode.apply_mean m ρ c j]
  exact mean_of_sum (nodeAffine m c) nNodes j _ (node_stats_sum m ρ c 0 j)

theorem node_var (c : Dev nD) : row0 (V9 m ρ c main_v48 : S1x64.Idx → EReal) = varMoments nNodes (nodeAffine m c) := by
  funext j
  rw [EntryNode.apply_var m ρ c j]
  exact var_of_sums (nodeAffine m c) nNodes j _ _ (node_stats_sum m ρ c 0 j) (node_stats_sum m ρ c 1 j)

/-- Entry (r, j) of the last region's result array is the whole computation's value at node r, column j. -/
theorem node_out_entries (c : Dev nD) :
    arr2 ((dat3 (V9 m ρ) c).arrAt 9 cfg3.N : S100000x64.Idx → EReal) = out m c := by
  funext r j
  refine (Apply3.result_apply (V9 m ρ) c r j).trans ?_
  rw [node_affine_apply m ρ c, node_mean m ρ c, node_var m ρ c, EntryNode.apply_scale m ρ c, EntryNode.apply_shift m ρ c,
    out_eq m c]

/-- The last boundary's contents at the result buffer are that function. -/
theorem final_eq (c : Dev nD) :
    (W10 m ρ c (Proc.devRef .tc main_v49) : S100000x64.Idx → EReal) = toArr2 (out m c) := by
  -- the result buffer is the last region's result array, and an array is the array of its own entries
  refine (W10_arr m ρ c 9).trans ?_
  exact (toArr2_arr2 (n0 := 100000) (n1 := 64) _).symm.trans (congrArg toArr2 (node_out_entries m ρ c))

end Cert.KernelIdeal.Value

end
-- ==== Proof.RTerm.lean ====
/-
  The reference program's @main as one pure term of its argument arrays, at the extended reals: each operation of
  @main, in order, as a `let` over the values before it, the two outlined variance functions and the selection they
  call written out where they are called, cut into stages by what each computes.
-/
import proofs.«412310_j6030134084155_3_alg».proof.Proof.Gen.ReferenceIdeal
import Idealize.ShloMosaic.PureOps.Ideal

noncomputable section

namespace Cert.ReferenceIdeal.Term

open Idealize.ShloMosaic Cert.ReferenceIdeal Cert.ReferenceIdeal.Facts₀

/-- The destination-node index of every edge (row 1 of the connectivity array). -/
def dstIdx (main_arg11 : IVec S2x1000000 32) : IVec S1000000 32 :=
  let main_v2 : IVec S1x1000000 32 := (extractStridedSlice S1x1000000 ![1, 0] · slices_S2x1000000_S1x1000000_1_0) main_arg11
  let main_v3 : IVec S1000000 32 := shapeCast S1000000 main_v2 shapeCasts_S1x1000000_S1000000
  main_v3

/-- One node row per edge: the source index (row 0 of the connectivity array), a negative entry wrapped by the node count, then the row gather. -/
def gathered (main_arg0 : FVec Ideal S100000x64 .f32) (main_arg11 : IVec S2x1000000 32) : FVec Ideal S1000000x64 .f32 :=
  let main_v0 : IVec S1x1000000 32 := (extractStridedSlice S1x1000000 ![0, 0] · slices_S2x1000000_S1x1000000_0_0) main_arg11
  let main_v1 : IVec S1000000 32 := shapeCast S1000000 main_v0 shapeCasts_S1x1000000_S1000000
  let main_c : IVec S_ 32 := constantI S_ 32 0#32
  let main_v4 : IVec S1000000 32 := broadcastInDim S1000000 ![] bcast_S_S1000000 main_c
  let main_v5 : IVec S1000000 1 := cmpi .slt main_v1 main_v4
  let main_c_0 : IVec S_ 32 := constantI S_ 32 100000#32
  let main_v6 : IVec S1000000 32 := broadcastInDim S1000000 ![] bcast_S_S1000000 main_c_0
  let main_v7 : IVec S1000000 32 := addi main_v1 main_v6
  let main_v8 : IVec S1000000 32 := select main_v5 main_v7 main_v1
  let main_v9 : IVec S1000000x1 32 := broadcastInDim S1000000x1 ![0] bcast_S1000000_S1000000x1_0 main_v8
  let main_v10 : FVec Ideal S1000000x64 .f32 := (fun x i => Host.gather gather_S100000x64_S1000000x1_S1000000x64_1_0_n_n_0_1_164 x i) main_arg0 main_v9
  main_v10

/-- The edge layer's affine output: the gathered rows beside the edge rows, times the weight matrix, plus the bias. -/
def affineEdge (main_v10 : FVec Ideal S1000000x64 .f32) (main_arg1 : FVec Ideal S1000000x64 .f32) (main_arg3 : FVec Ideal S128x64 .f32) (main_arg4 : FVec Ideal S64 .f32) : FVec Ideal S1000000x64 .f32 :=
  let main_v11 : FVec Ideal S1000000x128 .f32 := (fun a b => concatenate S1000000x128 1 [⟨S1000000x64, a⟩, ⟨S1000000x64, b⟩] concatenates_S1000000x64_S1000000x64_S1000000x128_d1) main_v10 main_arg1
  let main_v12 : FVec Ideal S1000000x64 .f32 := (fun l r => Host.dotGeneral dot_S1000000x128_S128x64_S1000000x64_1_0_0_1_n_n none l r) main_v11 main_arg3
  let main_v13 : FVec Ideal S1x64 .f32 := broadcastInDim S1x64 ![1] bcast_S64_S1x64_1 main_arg4
  let main_v14 : FVec Ideal S1000000x64 .f32 := broadcastInDim S1000000x64 ![0, 1] bcast_S1x64_S1000000x64_0_1 main_v13
  let main_v15 : FVec Ideal S1000000x64 .f32 := addf main_v12 main_v14
  main_v15

/-- Its column means. -/
def meanEdge (main_v15 : FVec Ideal S1000000x64 .f32) : FVec Ideal S64 .f32 :=
  let main_cst : FVec Ideal S_ .f32 := constant S_ .f32 0x00000000#32
  let main_v16 : FVec Ideal S64 .f32 := (fun x v => Host.reduceAdd x v reducesTo_S1000000x64_S64_d0 h_S_) main_v15 main_cst
  let main_cst_1 : FVec Ideal S_ .f32 := constant S_ .f32 0x49742400#32
  let main_v17 : FVec Ideal S64 .f32 := broadcastInDim S64 ![] bcast_S_S64 main_cst_1
  let main_v18 : FVec Ideal S64 .f32 := Host.divf main_v16 main_v17
  main_v18

/-- Its column variances: the mean of the squared deviations from the column mean (the guard on the divisor's sign picks this branch, never the other). -/
def varEdge (main_v15 : FVec Ideal S1000000x64 .f32) : FVec Ideal S64 .f32 :=
  let main_c_2 : IVec S_ 32 := constantI S_ 32 0#32
  let main_call0_cst : FVec Ideal S_ .f32 := constant S_ .f32 0x00000000#32
  let main_call0_v0 : FVec Ideal S64 .f32 := (fun x v => Host.reduceAdd x v reducesTo_S1000000x64_S64_d0 h_S_) main_v15 main_call0_cst
  let main_call0_v1 : FVec Ideal S1x64 .f32 := (broadcastInDim S1x64 ![1] bcast_S64_S1x64_1) main_call0_v0
  let main_call0_cst_0 : FVec Ideal S_ .f32 := constant S_ .f32 0x49742400#32
  let main_call0_v2 : FVec Ideal S1x64 .f32 := (broadcastInDim S1x64 ![] bcast_S_S1x64) main_call0_cst_0
  let main_call0_v3 : FVec Ideal S1x64 .f32 := Host.divf main_call0_v1 main_call0_v2
  let main_call0_v4 : FVec Ideal S1000000x64 .f32 := (broadcastInDim S1000000x64 ![0, 1] bcast_S1x64_S1000000x64_0_1) main_call0_v3
  let main_call0_v5 : FVec Ideal S1000000x64 .f32 := subf main_v15 main_call0_v4
  let main_call0_v6 : FVec Ideal S1000000x64 .f32 := mulf main_call0_v5 main_call0_v5
  let main_call0_v7 : FVec Ideal S_ .f32 := (sitofp .f32) main_c_2
  let main_call0_cst_1 : FVec Ideal S_ .f32 := constant S_ .f32 0x49742400#32
  let main_call0_v8 : FVec Ideal S_ .f32 := subf main_call0_cst_1 main_call0_v7
  let main_call0_cst_2 : FVec Ideal S_ .f32 := constant S_ .f32 0x00000000#32
  let main_call0_v9 : FVec Ideal S64 .f32 := (fun x v => Host.reduceAdd x v reducesTo_S1000000x64_S64_d0 h_S_) main_call0_v6 main_call0_cst_2
  let main_call0_v10 : FVec Ideal S64 .f32 := (broadcastInDim S64 ![] bcast_S_S64) main_call0_v8
  let main_call0_v11 : FVec Ideal S64 .f32 := Host.divf main_call0_v9 main_call0_v10
  let main_call0_cst_3 : FVec Ideal S_ .f32 := constant S_ .f32 0x00000000#32
  let main_call0_v12 : IVec S_ 1 := (cmpf .ogt) main_call0_v8 main_call0_cst_3
  let main_call0_cst_4 : FVec Ideal S_ .f32 := constant S_ .f32 0x7FC00000#32
  let main_call0_call0_v0 : FVec Ideal S_ .f32 := id main_call0_cst_4
  let main_call0_call0_v1 : FVec Ideal S64 .f32 := (broadcastInDim S64 ![] bcast_S_S64) main_call0_call0_v0
  let main_v19 : FVec Ideal S64 .f32 := (fun p a b => select (broadcastInDim S64 ![] bcast_S_S64 p) a b) main_call0_v12 main_call0_v11 main_call0_call0_v1
  main_v19

/-- The edge layer's output: normalise, scale, shift, then x · σ(x) with σ spelt out as 1 / (1 + exp(-x)). -/
def msgEdge (main_v15 : FVec Ideal S1000000x64 .f32) (main_v18 : FVec Ideal S64 .f32) (main_v19 : FVec Ideal S64 .f32) (main_arg5 : FVec Ideal S64 .f32) (main_arg6 : FVec Ideal S64 .f32) : FVec Ideal S1000000x64 .f32 :=
  let main_v20 : FVec Ideal S1x64 .f32 := broadcastInDim S1x64 ![1] bcast_S64_S1x64_1 main_v18
  let main_v21 : FVec Ideal S1000000x64 .f32 := broadcastInDim S1000000x64 ![0, 1] bcast_S1x64_S1000000x64_0_1 main_v20
  let main_v22 : FVec Ideal S1000000x64 .f32 := subf main_v15 main_v21
  let main_cst_3 : FVec Ideal S_ .f32 := constant S_ .f32 0x3727C5AC#32
  let main_v23 : FVec Ideal S64 .f32 := broadcastInDim S64 ![] bcast_S_S64 main_cst_3
  let main_v24 : FVec Ideal S64 .f32 := addf main_v19 main_v23
  let main_v25 : FVec Ideal S64 .f32 := Host.rsqrt main_v24
  let main_v26 : FVec Ideal S1x64 .f32 := broadcastInDim S1x64 ![1] bcast_S64_S1x64_1 main_v25
  let main_v27 : FVec Ideal S1000000x64 .f32 := broadcastInDim S1000000x64 ![0, 1] bcast_S1x64_S1000000x64_0_1 main_v26
  let main_v28 : FVec Ideal S1000000x64 .f32 := mulf main_v22 main_v27
  let main_v29 : FVec Ideal S1x64 .f32 := broadcastInDim S1x64 ![1] bcast_S64_S1x64_1 main_arg5
  let main_v30 : FVec Ideal S1000000x64 .f32 := broadcastInDim S1000000x64 ![0, 1] bcast_S1x64_S1000000x64_0_1 main_v29
  let main_v31 : FVec Ideal S1000000x64 .f32 := mulf main_v28 main_v30
  let main_v32 : FVec Ideal S1x64 .f32 := broadcastInDim S1x64 ![1] bcast_S64_S1x64_1 main_arg6
  let main_v33 : FVec Ideal S1000000x64 .f32 := broadcastInDim S1000000x64 ![0, 1] bcast_S1x64_S1000000x64_0_1 main_v32
  let main_v34 : FVec Ideal S1000000x64 .f32 := addf main_v31 main_v33
  let main_v35 : FVec Ideal S1000000x64 .f32 := Host.negf main_v34
  let main_v36 : FVec Ideal S1000000x64 .f32 := Host.exp main_v35
  let main_cst_4 : FVec Ideal S_ .f32 := constant S_ .f32 0x3F800000#32
  let main_v37 : FVec Ideal S1000000x64 .f32 := broadcastInDim S1000000x64 ![] bcast_S_S1000000x64 main_cst_4
  let main_v38 : FVec Ideal S1000000x64 .f32 := addf main_v37 main_v36
  let main_cst_5 : FVec Ideal S_ .f32 := constant S_ .f32 0x3F800000#32
  let main_v39 : FVec Ideal S1000000x64 .f32 := broadcastInDim S1000000x64 ![] bcast_S_S1000000x64 main_cst_5
  let main_v40 : FVec Ideal S1000000x64 .f32 := Host.divf main_v39 main_v38
  let main_v41 : FVec Ideal S1000000x64 .f32 := mulf main_v34 main_v40
  main_v41

/-- The mean of the edge rows arriving at each node. -/
def aggregated (main_v41 : FVec Ideal S1000000x64 .f32) (main_v3 : IVec S1000000 32) : FVec Ideal S100000x64 .f32 :=
  let main_cst_6 : FVec Ideal S_ .f32 := constant S_ .f32 0x00000000#32
  let main_v42 : FVec Ideal S100000x64 .f32 := broadcastInDim S100000x64 ![] bcast_S_S100000x64 main_cst_6
  let main_v43 : IVec S1000000x1 32 := broadcastInDim S1000000x1 ![0] bcast_S1000000_S1000000x1_0 main_v3
  let main_v44 : FVec Ideal S100000x64 .f32 := (fun x i u => Host.scatterAdd scatter_S100000x64_S1000000x1_S1000000x64_1_0_0_1 x i u) main_v42 main_v43 main_v41
  let main_cst_7 : FVec Ideal S_ .f32 := constant S_ .f32 0x3F800000#32
  let main_v45 : FVec Ideal S1000000 .f32 := broadcastInDim S1000000 ![] bcast_S_S1000000 main_cst_7
  let main_cst_8 : FVec Ideal S_ .f32 := constant S_ .f32 0x00000000#32
  let main_v46 : FVec Ideal S100000 .f32 := broadcastInDim S100000 ![] bcast_S_S100000 main_cst_8
  let main_v47 : IVec S1000000x1 32 := broadcastInDim S1000000x1 ![0] bcast_S1000000_S1000000x1_0 main_v3
  let main_v48 : FVec Ideal S100000 .f32 := (fun x i u => Host.scatterAdd scatter_S100000_S1000000x1_S1000000_n_0_0_1 x i u) main_v46 main_v47 main_v45
  let main_cst_9 : FVec Ideal S_ .f32 := constant S_ .f32 0x3F800000#32
  let main_v49 : FVec Ideal S100000 .f32 := broadcastInDim S100000 ![] bcast_S_S100000 main_cst_9
  let main_v50 : FVec Ideal S100000 .f32 := maximumf main_v48 main_v49
  let main_v51 : FVec Ideal S100000x1 .f32 := broadcastInDim S100000x1 ![0] bcast_S100000_S100000x1_0 main_v50
  let main_v52 : FVec Ideal S100000x64 .f32 := broadcastInDim S100000x64 ![0, 1] bcast_S100000x1_S100000x64_0_1 main_v51
  let main_v53 : FVec Ideal S100000x64 .f32 := Host.divf main_v44 main_v52
  main_v53

/-- The node layer's affine output: the node rows beside the aggregated rows. -/
def affineNode (main_arg0 : FVec Ideal S100000x64 .f32) (main_v53 : FVec Ideal S100000x64 .f32) (main_arg7 : FVec Ideal S128x64 .f32) (main_arg8 : FVec Ideal S64 .f32) : FVec Ideal S100000x64 .f32 :=
  let main_v54 : FVec Ideal S100000x128 .f32 := (fun a b => concatenate S100000x128 1 [⟨S100000x64, a⟩, ⟨S100000x64, b⟩] concatenates_S100000x64_S100000x64_S100000x128_d1) main_arg0 main_v53
  let main_v55 : FVec Ideal S100000x64 .f32 := (fun l r => Host.dotGeneral dot_S100000x128_S128x64_S100000x64_1_0_0_1_n_n none l r) main_v54 main_arg7
  let main_v56 : FVec Ideal S1x64 .f32 := broadcastInDim S1x64 ![1] bcast_S64_S1x64_1 main_arg8
  let main_v57 : FVec Ideal S100000x64 .f32 := broadcastInDim S100000x64 ![0, 1] bcast_S1x64_S100000x64_0_1 main_v56
  let main_v58 : FVec Ideal S100000x64 .f32 := addf main_v55 main_v57
  main_v58

/-- Its column means. -/
def meanNode (main_v58 : FVec Ideal S100000x64 .f32) : FVec Ideal S64 .f32 :=
  let main_cst_10 : FVec Ideal S_ .f32 := constant S_ .f32 0x00000000#32
  let main_v59 : FVec Ideal S64 .f32 := (fun x v => Host.reduceAdd x v reducesTo_S100000x64_S64_d0 h_S_) main_v58 main_cst_10
  let main_cst_11 : FVec Ideal S_ .f32 := constant S_ .f32 0x47C35000#32
  let main_v60 : FVec Ideal S64 .f32 := broadcastInDim S64 ![] bcast_S_S64 main_cst_11
  let main_v61 : FVec Ideal S64 .f32 := Host.divf main_v59 main_v60
  main_v61

/-- Its column variances, as for the edge layer. -/
def varNode (main_v58 : FVec Ideal S100000x64 .f32) : FVec Ideal S64 .f32 :=
  let main_c_12 : IVec S_ 32 := constantI S_ 32 0#32
  let main_call1_cst : FVec Ideal S_ .f32 := constant S_ .f32 0x00000000#32
  let main_call1_v0 : FVec Ideal S64 .f32 := (fun x v => Host.reduceAdd x v reducesTo_S100000x64_S64_d0 h_S_) main_v58 main_call1_cst
  let main_call1_v1 : FVec Ideal S1x64 .f32 := (broadcastInDim S1x64 ![1] bcast_S64_S1x64_1) main_call1_v0
  let main_call1_cst_0 : FVec Ideal S_ .f32 := constant S_ .f32 0x47C35000#32
  let main_call1_v2 : FVec Ideal S1x64 .f32 := (broadcastInDim S1x64 ![] bcast_S_S1x64) main_call1_cst_0
  let main_call1_v3 : FVec Ideal S1x64 .f32 := Host.divf main_call1_v1 main_call1_v2
  let main_call1_v4 : FVec Ideal S100000x64 .f32 := (broadcastInDim S100000x64 ![0, 1] bcast_S1x64_S100000x64_0_1) main_call1_v3
  let main_call1_v5 : FVec Ideal S100000x64 .f32 := subf main_v58 main_call1_v4
  let main_call1_v6 : FVec Ideal S100000x64 .f32 := mulf main_call1_v5 main_call1_v5
  let main_call1_v7 : FVec Ideal S_ .f32 := (sitofp .f32) main_c_12
  let main_call1_cst_1 : FVec Ideal S_ .f32 := constant S_ .f32 0x47C35000#32
  let main_call1_v8 : FVec Ideal S_ .f32 := subf main_call1_cst_1 main_call1_v7
  let main_call1_cst_2 : FVec Ideal S_ .f32 := constant S_ .f32 0x00000000#32
  let main_call1_v9 : FVec Ideal S64 .f32 := (fun x v => Host.reduceAdd x v reducesTo_S100000x64_S64_d0 h_S_) main_call1_v6 main_call1_cst_2
  let main_call1_v10 : FVec Ideal S64 .f32 := (broadcastInDim S64 ![] bcast_S_S64) main_call1_v8
  let main_call1_v11 : FVec Ideal S64 .f32 := Host.divf main_call1_v9 main_call1_v10
  let main_call1_cst_3 : FVec Ideal S_ .f32 := constant S_ .f32 0x00000000#32
  let main_call1_v12 : IVec S_ 1 := (cmpf .ogt) main_call1_v8 main_call1_cst_3
  let main_call1_cst_4 : FVec Ideal S_ .f32 := constant S_ .f32 0x7FC00000#32
  let main_call1_call0_v0 : FVec Ideal S_ .f32 := id main_call1_cst_4
  let main_call1_call0_v1 : FVec Ideal S64 .f32 := (broadcastInDim S64 ![] bcast_S_S64) main_call1_call0_v0
  let main_v62 : FVec Ideal S64 .f32 := (fun p a b => select (broadcastInDim S64 ![] bcast_S_S64 p) a b) main_call1_v12 main_call1_v11 main_call1_call0_v1
  main_v62

/-- The node layer's output. -/
def outNode (main_v58 : FVec Ideal S100000x64 .f32) (main_v61 : FVec Ideal S64 .f32) (main_v62 : FVec Ideal S64 .f32) (main_arg9 : FVec Ideal S64 .f32) (main_arg10 : FVec Ideal S64 .f32) : FVec Ideal S100000x64 .f32 :=
  let main_v63 : FVec Ideal S1x64 .f32 := broadcastInDim S1x64 ![1] bcast_S64_S1x64_1 main_v61
  let main_v64 : FVec Ideal S100000x64 .f32 := broadcastInDim S100000x64 ![0, 1] bcast_S1x64_S100000x64_0_1 main_v63
  let main_v65 : FVec Ideal S100000x64 .f32 := subf main_v58 main_v64
  let main_cst_13 : FVec Ideal S_ .f32 := constant S_ .f32 0x3727C5AC#32
  let main_v66 : FVec Ideal S64 .f32 := broadcastInDim S64 ![] bcast_S_S64 main_cst_13
  let main_v67 : FVec Ideal S64 .f32 := addf main_v62 main_v66
  let main_v68 : FVec Ideal S64 .f32 := Host.rsqrt main_v67
  let main_v69 : FVec Ideal S1x64 .f32 := broadcastInDim S1x64 ![1] bcast_S64_S1x64_1 main_v68
  let main_v70 : FVec Ideal S100000x64 .f32 := broadcastInDim S100000x64 ![0, 1] bcast_S1x64_S100000x64_0_1 main_v69
  let main_v71 : FVec Ideal S100000x64 .f32 := mulf main_v65 main_v70
  let main_v72 : FVec Ideal S1x64 .f32 := broadcastInDim S1x64 ![1] bcast_S64_S1x64_1 main_arg9
  let main_v73 : FVec Ideal S100000x64 .f32 := broadcastInDim S100000x64 ![0, 1] bcast_S1x64_S100000x64_0_1 main_v72
  let main_v74 : FVec Ideal S100000x64 .f32 := mulf main_v71 main_v73
  let main_v75 : FVec Ideal S1x64 .f32 := broadcastInDim S1x64 ![1] bcast_S64_S1x64_1 main_arg10
  let main_v76 : FVec Ideal S100000x64 .f32 := broadcastInDim S100000x64 ![0, 1] bcast_S1x64_S100000x64_0_1 main_v75
  let main_v77 : FVec Ideal S100000x64 .f32 := addf main_v74 main_v76
  let main_v78 : FVec Ideal S100000x64 .f32 := Host.negf main_v77
  let main_v79 : FVec Ideal S100000x64 .f32 := Host.exp main_v78
  let main_cst_14 : FVec Ideal S_ .f32 := constant S_ .f32 0x3F800000#32
  let main_v80 : FVec Ideal S100000x64 .f32 := broadcastInDim S100000x64 ![] bcast_S_S100000x64 main_cst_14
  let main_v81 : FVec Ideal S100000x64 .f32 := addf main_v80 main_v79
  let main_cst_15 : FVec Ideal S_ .f32 := constant S_ .f32 0x3F800000#32
  let main_v82 : FVec Ideal S100000x64 .f32 := broadcastInDim S100000x64 ![] bcast_S_S100000x64 main_cst_15
  let main_v83 : FVec Ideal S100000x64 .f32 := Host.divf main_v82 main_v81
  let main_v84 : FVec Ideal S100000x64 .f32 := mulf main_v77 main_v83
  main_v84

/-- The whole program's result as a function of the argument arrays it reads. -/
def refTerm (main_arg0 : FVec Ideal S100000x64 .f32) (main_arg1 : FVec Ideal S1000000x64 .f32) (main_arg3 : FVec Ideal S128x64 .f32)
    (main_arg4 main_arg5 main_arg6 : FVec Ideal S64 .f32) (main_arg7 : FVec Ideal S128x64 .f32)
    (main_arg8 main_arg9 main_arg10 : FVec Ideal S64 .f32) (main_arg11 : IVec S2x1000000 32) : FVec Ideal S100000x64 .f32 :=
  let h1 := affineEdge (gathered main_arg0 main_arg11) main_arg1 main_arg3 main_arg4
  let msg := msgEdge h1 (meanEdge h1) (varEdge h1) main_arg5 main_arg6
  let h2 := affineNode main_arg0 (aggregated msg (dstIdx main_arg11)) main_arg7 main_arg8
  outNode h2 (meanNode h2) (varNode h2) main_arg9 main_arg10

end Cert.ReferenceIdeal.Term

end
-- ==== Proof.RRun.lean ====
/-
  The reference program runs: @main is a straight line of host operations (the two variance functions and the
  selection they call are straight lines too, executed where they are called), so every weakly fair execution
  terminates, nothing faulting, with each buffer at the value the operations compute in order from the launch memory.
  Read at the result buffer, that value is the program's pure term of the argument arrays; no operation writes an
  argument.

  The line is cut into the stages of the pure term: per stage the list of its operations, the buffers it writes, the
  value it leaves at the buffer the later stages read (the stage's function of what it read), and that every other
  buffer keeps its contents through it. The stages composed in order give the whole term.
-/
import proofs.«412310_j6030134084155_3_alg».proof.Proof.RTerm
import Idealize.ShloMosaic.Lib.StableHlo.Run
import Idealize.ShloMosaic.Lib.Tactic

noncomputable section

namespace Cert.ReferenceIdeal.Run

open Cert.ReferenceIdeal Cert.ReferenceIdeal.Gen Cert.ReferenceIdeal.Term
open Idealize.ShloMosaic Idealize.ShloMosaic.TcCoe Idealize.SL.Sem Idealize.ShloMosaic.StableHlo

/-! ## The operations, stage by stage -/

section Ops

variable {F : FTy → Type} [FloatOps F]

/-- Statements 1 to 13: the two rows of the connectivity array flattened, the source row's negative entries wrapped
    by the node count, one node row gathered per edge. -/
abbrev opsGather : List (HloOp τ sig (Elt F)) :=
  [ StableHlo.unary main_arg11 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg11 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- Statements 14 to 18: the gathered rows beside the edge rows, times the weight matrix, plus the bias. -/
abbrev opsAffineEdge : List (HloOp τ sig (Elt F)) :=
  [ StableHlo.binary main_v10 main_arg1 main_v11 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    StableHlo.binary main_v11 main_arg3 main_v12 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    StableHlo.unary main_arg4 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S1000000x64 ![0, 1] bcast_S1x64_S1000000x64_0_1 : (⟨S1x64, .f32⟩ : BufTy).Contents (Elt F) → (⟨S1000000x64, .f32⟩ : BufTy).Contents (Elt F)),
    StableHlo.binary main_v12 main_v14 main_v15 (addf : (⟨S1000000x64, .f32⟩ : BufTy).Contents (Elt F) → (⟨S1000000x64, .f32⟩ : BufTy).Contents (Elt F) → (⟨S1000000x64, .f32⟩ : BufTy).Contents (Elt F)) ]

/-- Statements 19 to 23: its column sums over the edge count. -/
abbrev opsMeanEdge : List (HloOp τ sig (Elt F)) :=
  [ StableHlo.nullary main_cst (constant S_ .f32 0x00000000#32),
    StableHlo.binary main_v15 main_cst main_v16 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.nullary main_cst_1 (constant S_ .f32 0x49742400#32),
    StableHlo.unary main_cst_1 main_v17 (broadcastInDim S64 ![] bcast_S_S64 : (⟨S_, .f32⟩ : BufTy).Contents (Elt F) → (⟨S64, .f32⟩ : BufTy).Contents (Elt F)),
    StableHlo.binary main_v16 main_v17 main_v18 (Host.divf : (⟨S64, .f32⟩ : BufTy).Contents (Elt F) → (⟨S64, .f32⟩ : BufTy).Contents (Elt F) → (⟨S64, .f32⟩ : BufTy).Contents (Elt F)) ]

/-- Statement 24 and the call of statement 25, the variance function's nineteen operations and the three of the
    selection it calls written over the call's own buffers (each buffer's own type is the type the function's text gives
    the value it holds, so an operation over the typed references is the operation over the buffers): the column mean,
    the squared deviations from it, their column sums over the count less the correction (zero), and the selection by
    that divisor's sign. -/
abbrev opsVarEdge : List (HloOp τ sig (Elt F)) :=
  [ StableHlo.nullary main_c_2 (constantI S_ 32 0#32),
    StableHlo.nullary main_call0_cst (constant S_ .f32 0x00000000#32),
    StableHlo.binary main_v15 main_call0_cst main_call0_v0 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.unary main_call0_v0 main_call0_v1 (broadcastInDim S1x64 ![1] bcast_S64_S1x64_1 : (⟨S64, .f32⟩ : BufTy).Contents (Elt F) → (⟨S1x64, .f32⟩ : BufTy).Contents (Elt F)),
    StableHlo.nullary main_call0_cst_0 (constant S_ .f32 0x49742400#32),
    StableHlo.unary main_call0_cst_0 main_call0_v2 (broadcastInDim S1x64 ![] bcast_S_S1x64 : (⟨S_, .f32⟩ : BufTy).Contents (Elt F) → (⟨S1x64, .f32⟩ : BufTy).Contents (Elt F)),
    StableHlo.binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    StableHlo.unary main_call0_v3 main_call0_v4 (broadcastInDim S1000000x64 ![0, 1] bcast_S1x64_S1000000x64_0_1 : (⟨S1x64, .f32⟩ : BufTy).Contents (Elt F) → (⟨S1000000x64, .f32⟩ : BufTy).Contents (Elt F)),
    StableHlo.binary main_v15 main_call0_v4 main_call0_v5 (subf : (⟨S1000000x64, .f32⟩ : BufTy).Contents (Elt F) → (⟨S1000000x64, .f32⟩ : BufTy).Contents (Elt F) → (⟨S1000000x64, .f32⟩ : BufTy).Contents (Elt F)),
    StableHlo.binary main_call0_v5 main_call0_v5 main_call0_v6 (mulf : (⟨S1000000x64, .f32⟩ : BufTy).Contents (Elt F) → (⟨S1000000x64, .f32⟩ : BufTy).Contents (Elt F) → (⟨S1000000x64, .f32⟩ : BufTy).Contents (Elt F)),
    StableHlo.unary main_c_2 main_call0_v7 (sitofp .f32 : (⟨S_, .i32⟩ : BufTy).Contents (Elt F) → (⟨S_, .f32⟩ : BufTy).Contents (Elt F)),
    StableHlo.nullary main_call0_cst_1 (constant S_ .f32 0x49742400#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.unary main_call0_v8 main_call0_v10 (broadcastInDim S64 ![] bcast_S_S64 : (⟨S_, .f32⟩ : BufTy).Contents (Elt F) → (⟨S64, .f32⟩ : BufTy).Contents (Elt F)),
    StableHlo.binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S64 ![] bcast_S_S64 : (⟨S_, .f32⟩ : BufTy).Contents (Elt F) → (⟨S64, .f32⟩ : BufTy).Contents (Elt F)),
    StableHlo.ternary main_call0_v12 main_call0_v11 main_call0_call0_v1 main_v19 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Statements 26 to 50: the affine output normalised by its column mean and variance, scaled, shifted, then
    multiplied by its own logistic value. -/
abbrev opsMsgEdge : List (HloOp τ sig (Elt F)) :=
  [ StableHlo.unary main_v18 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S1000000x64 ![0, 1] bcast_S1x64_S1000000x64_0_1 : (⟨S1x64, .f32⟩ : BufTy).Contents (Elt F) → (⟨S1000000x64, .f32⟩ : BufTy).Contents (Elt F)),
    StableHlo.binary main_v15 main_v21 main_v22 (subf : (⟨S1000000x64, .f32⟩ : BufTy).Contents (Elt F) → (⟨S1000000x64, .f32⟩ : BufTy).Contents (Elt F) → (⟨S1000000x64, .f32⟩ : BufTy).Contents (Elt F)),
    StableHlo.nullary main_cst_3 (constant S_ .f32 0x3727C5AC#32),
    StableHlo.unary main_cst_3 main_v23 (broadcastInDim S64 ![] bcast_S_S64 : (⟨S_, .f32⟩ : BufTy).Contents (Elt F) → (⟨S64, .f32⟩ : BufTy).Contents (Elt F)),
    StableHlo.binary main_v19 main_v23 main_v24 (addf : (⟨S64, .f32⟩ : BufTy).Contents (Elt F) → (⟨S64, .f32⟩ : BufTy).Contents (Elt F) → (⟨S64, .f32⟩ : BufTy).Contents (Elt F)),
    StableHlo.unary main_v24 main_v25 (Host.rsqrt : (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S1000000x64 ![0, 1] bcast_S1x64_S1000000x64_0_1 : (⟨S1x64, .f32⟩ : BufTy).Contents (Elt F) → (⟨S1000000x64, .f32⟩ : BufTy).Contents (Elt F)),
    StableHlo.binary main_v22 main_v27 main_v28 (mulf : (⟨S1000000x64, .f32⟩ : BufTy).Contents (Elt F) → (⟨S1000000x64, .f32⟩ : BufTy).Contents (Elt F) → (⟨S1000000x64, .f32⟩ : BufTy).Contents (Elt F)),
    StableHlo.unary main_arg5 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S1000000x64 ![0, 1] bcast_S1x64_S1000000x64_0_1 : (⟨S1x64, .f32⟩ : BufTy).Contents (Elt F) → (⟨S1000000x64, .f32⟩ : BufTy).Contents (Elt F)),
    StableHlo.binary main_v28 main_v30 main_v31 (mulf : (⟨S1000000x64, .f32⟩ : BufTy).Contents (Elt F) → (⟨S1000000x64, .f32⟩ : BufTy).Contents (Elt F) → (⟨S1000000x64, .f32⟩ : BufTy).Contents (Elt F)),
    StableHlo.unary main_arg6 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S1000000x64 ![0, 1] bcast_S1x64_S1000000x64_0_1 : (⟨S1x64, .f32⟩ : BufTy).Contents (Elt F) → (⟨S1000000x64, .f32⟩ : BufTy).Contents (Elt F)),
    StableHlo.binary main_v31 main_v33 main_v34 (addf : (⟨S1000000x64, .f32⟩ : BufTy).Contents (Elt F) → (⟨S1000000x64, .f32⟩ : BufTy).Contents (Elt F) → (⟨S1000000x64, .f32⟩ : BufTy).Contents (Elt F)),
    StableHlo.unary main_v34 main_v35 (Host.negf : (⟨S1000000x64, .f32⟩ : BufTy).Contents (Elt F) → (⟨S1000000x64, .f32⟩ : BufTy).Contents (Elt F)),
    StableHlo.unary main_v35 main_v36 (Host.exp : (⟨S1000000x64, .f32⟩ : BufTy).Contents (Elt F) → (⟨S1000000x64, .f32⟩ : BufTy).Contents (Elt F)),
    StableHlo.nullary main_cst_4 (constant S_ .f32 0x3F800000#32),
    StableHlo.unary main_cst_4 main_v37 (broadcastInDim S1000000x64 ![] bcast_S_S1000000x64 : (⟨S_, .f32⟩ : BufTy).Contents (Elt F) → (⟨S1000000x64, .f32⟩ : BufTy).Contents (Elt F)),
    StableHlo.binary main_v37 main_v36 main_v38 (addf : (⟨S1000000x64, .f32⟩ : BufTy).Contents (Elt F) → (⟨S1000000x64, .f32⟩ : BufTy).Contents (Elt F) → (⟨S1000000x64, .f32⟩ : BufTy).Contents (Elt F)),
    StableHlo.nullary main_cst_5 (constant S_ .f32 0x3F800000#32),
    StableHlo.unary main_cst_5 main_v39 (broadcastInDim S1000000x64 ![] bcast_S_S1000000x64 : (⟨S_, .f32⟩ : BufTy).Contents (Elt F) → (⟨S1000000x64, .f32⟩ : BufTy).Contents (Elt F)),
    StableHlo.binary main_v39 main_v38 main_v40 (Host.divf : (⟨S1000000x64, .f32⟩ : BufTy).Contents (Elt F) → (⟨S1000000x64, .f32⟩ : BufTy).Contents (Elt F) → (⟨S1000000x64, .f32⟩ : BufTy).Contents (Elt F)),
    StableHlo.binary main_v34 main_v40 main_v41 (mulf : (⟨S1000000x64, .f32⟩ : BufTy).Contents (Elt F) → (⟨S1000000x64, .f32⟩ : BufTy).Contents (Elt F) → (⟨S1000000x64, .f32⟩ : BufTy).Contents (Elt F)) ]

/-- Statements 51 to 60: the edge rows added up at their destination nodes, and the number of edges arriving at each. -/
abbrev opsAggHead : List (HloOp τ sig (Elt F)) :=
  [ StableHlo.nullary main_cst_6 (constant S_ .f32 0x00000000#32),
    StableHlo.unary main_cst_6 main_v42 (broadcastInDim S100000x64 ![] bcast_S_S100000x64 : (⟨S_, .f32⟩ : BufTy).Contents (Elt F) → (⟨S100000x64, .f32⟩ : BufTy).Contents (Elt F)),
    StableHlo.unary main_v3 main_v43 (broadcastInDim S1000000x1 ![0] bcast_S1000000_S1000000x1_0 : (⟨S1000000, .i32⟩ : BufTy).Contents (Elt F) → (⟨S1000000x1, .i32⟩ : BufTy).Contents (Elt F)),
    StableHlo.ternary main_v42 main_v43 main_v41 main_v44 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_7 (constant S_ .f32 0x3F800000#32),
    StableHlo.unary main_cst_7 main_v45 (broadcastInDim S1000000 ![] bcast_S_S1000000 : (⟨S_, .f32⟩ : BufTy).Contents (Elt F) → (⟨S1000000, .f32⟩ : BufTy).Contents (Elt F)),
    StableHlo.nullary main_cst_8 (constant S_ .f32 0x00000000#32),
    StableHlo.unary main_cst_8 main_v46 (broadcastInDim S100000 ![] bcast_S_S100000 : (⟨S_, .f32⟩ : BufTy).Contents (Elt F) → (⟨S100000, .f32⟩ : BufTy).Contents (Elt F)),
    StableHlo.unary main_v3 main_v47 (broadcastInDim S1000000x1 ![0] bcast_S1000000_S1000000x1_0 : (⟨S1000000, .i32⟩ : BufTy).Contents (Elt F) → (⟨S1000000x1, .i32⟩ : BufTy).Contents (Elt F)),
    StableHlo.ternary main_v46 main_v47 main_v45 main_v48 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ]

/-- Statements 61 to 66: the sums over the count, a count of zero read as one. -/
abbrev opsAggTail : List (HloOp τ sig (Elt F)) :=
  [ StableHlo.nullary main_cst_9 (constant S_ .f32 0x3F800000#32),
    StableHlo.unary main_cst_9 main_v49 (broadcastInDim S100000 ![] bcast_S_S100000 : (⟨S_, .f32⟩ : BufTy).Contents (Elt F) → (⟨S100000, .f32⟩ : BufTy).Contents (Elt F)),
    StableHlo.binary main_v48 main_v49 main_v50 (maximumf : (⟨S100000, .f32⟩ : BufTy).Contents (Elt F) → (⟨S100000, .f32⟩ : BufTy).Contents (Elt F) → (⟨S100000, .f32⟩ : BufTy).Contents (Elt F)),
    StableHlo.unary main_v50 main_v51 (broadcastInDim S100000x1 ![0] bcast_S100000_S100000x1_0 : (⟨S100000, .f32⟩ : BufTy).Contents (Elt F) → (⟨S100000x1, .f32⟩ : BufTy).Contents (Elt F)),
    StableHlo.unary main_v51 main_v52 (broadcastInDim S100000x64 ![0, 1] bcast_S100000x1_S100000x64_0_1 : (⟨S100000x1, .f32⟩ : BufTy).Contents (Elt F) → (⟨S100000x64, .f32⟩ : BufTy).Contents (Elt F)),
    StableHlo.binary main_v44 main_v52 main_v53 (Host.divf : (⟨S100000x64, .f32⟩ : BufTy).Contents (Elt F) → (⟨S100000x64, .f32⟩ : BufTy).Contents (Elt F) → (⟨S100000x64, .f32⟩ : BufTy).Contents (Elt F)) ]

/-- Statements 67 to 71: the node rows beside the aggregated rows, times the weight matrix, plus the bias. -/
abbrev opsAffineNode : List (HloOp τ sig (Elt F)) :=
  [ StableHlo.binary main_arg0 main_v53 main_v54 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v54 main_arg7 main_v55 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)) ]

/-- Statements 72 to 76: its column sums over the node count. -/
abbrev opsMeanNode : List (HloOp τ sig (Elt F)) :=
  [ StableHlo.nullary main_cst_10 (constant S_ .f32 0x00000000#32),
    StableHlo.binary main_v58 main_cst_10 main_v59 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)) ]

/-- Statement 77 and the call of statement 78, written out over that call's buffers as for the edge layer. -/
abbrev opsVarNode : List (HloOp τ sig (Elt F)) :=
  [ StableHlo.nullary main_c_12 (constantI S_ 32 0#32),
    StableHlo.nullary main_call1_cst (constant S_ .f32 0x00000000#32),
    StableHlo.binary main_v58 main_call1_cst main_call1_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v0 main_call1_v1 (broadcastInDim S1x64 ![1] bcast_S64_S1x64_1 : (⟨S64, .f32⟩ : BufTy).Contents (Elt F) → (⟨S1x64, .f32⟩ : BufTy).Contents (Elt F)),
    StableHlo.nullary main_call1_cst_0 (constant S_ .f32 0x47C35000#32),
    StableHlo.unary main_call1_cst_0 main_call1_v2 (broadcastInDim S1x64 ![] bcast_S_S1x64 : (⟨S_, .f32⟩ : BufTy).Contents (Elt F) → (⟨S1x64, .f32⟩ : BufTy).Contents (Elt F)),
    StableHlo.binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    StableHlo.unary main_call1_v3 main_call1_v4 (broadcastInDim S100000x64 ![0, 1] bcast_S1x64_S100000x64_0_1 : (⟨S1x64, .f32⟩ : BufTy).Contents (Elt F) → (⟨S100000x64, .f32⟩ : BufTy).Contents (Elt F)),
    StableHlo.binary main_v58 main_call1_v4 main_call1_v5 (subf : (⟨S100000x64, .f32⟩ : BufTy).Contents (Elt F) → (⟨S100000x64, .f32⟩ : BufTy).Contents (Elt F) → (⟨S100000x64, .f32⟩ : BufTy).Contents (Elt F)),
    StableHlo.binary main_call1_v5 main_call1_v5 main_call1_v6 (mulf : (⟨S100000x64, .f32⟩ : BufTy).Contents (Elt F) → (⟨S100000x64, .f32⟩ : BufTy).Contents (Elt F) → (⟨S100000x64, .f32⟩ : BufTy).Contents (Elt F)),
    StableHlo.unary main_c_12 main_call1_v7 (sitofp .f32 : (⟨S_, .i32⟩ : BufTy).Contents (Elt F) → (⟨S_, .f32⟩ : BufTy).Contents (Elt F)),
    StableHlo.nullary main_call1_cst_1 (constant S_ .f32 0x47C35000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v8 main_call1_v10 (broadcastInDim S64 ![] bcast_S_S64 : (⟨S_, .f32⟩ : BufTy).Contents (Elt F) → (⟨S64, .f32⟩ : BufTy).Contents (Elt F)),
    StableHlo.binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    StableHlo.nullary main_call1_cst_3 (constant S_ .f32 0x00000000#32),
    StableHlo.binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S64 ![] bcast_S_S64 : (⟨S_, .f32⟩ : BufTy).Contents (Elt F) → (⟨S64, .f32⟩ : BufTy).Contents (Elt F)),
    StableHlo.ternary main_call1_v12 main_call1_v11 main_call1_call0_v1 main_v62 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Statements 79 to 103: the node layer's affine output normalised, scaled, shifted, then multiplied by its own
    logistic value. -/
abbrev opsOutNode : List (HloOp τ sig (Elt F)) :=
  [ StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v64 main_v65 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v66 (broadcastInDim S64 ![] bcast_S_S64 : (⟨S_, .f32⟩ : BufTy).Contents (Elt F) → (⟨S64, .f32⟩ : BufTy).Contents (Elt F)),
    StableHlo.binary main_v62 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v70 main_v71 (mulf : (⟨S100000x64, .f32⟩ : BufTy).Contents (Elt F) → (⟨S100000x64, .f32⟩ : BufTy).Contents (Elt F) → (⟨S100000x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v73 main_v74 (mulf : (⟨S100000x64, .f32⟩ : BufTy).Contents (Elt F) → (⟨S100000x64, .f32⟩ : BufTy).Contents (Elt F) → (⟨S100000x64, .f32⟩ : BufTy).Contents (Elt F)),
    StableHlo.unary main_arg10 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),
    StableHlo.unary main_v77 main_v78 (Host.negf : (⟨S100000x64, .f32⟩ : BufTy).Contents (Elt F) → (⟨S100000x64, .f32⟩ : BufTy).Contents (Elt F)),
    StableHlo.unary main_v78 main_v79 (Host.exp : (⟨S100000x64, .f32⟩ : BufTy).Contents (Elt F) → (⟨S100000x64, .f32⟩ : BufTy).Contents (Elt F)),
    StableHlo.nullary main_cst_14 (constant S_ .f32 0x3F800000#32),
    StableHlo.unary main_cst_14 main_v80 (broadcastInDim S100000x64 ![] bcast_S_S100000x64 : (⟨S_, .f32⟩ : BufTy).Contents (Elt F) → (⟨S100000x64, .f32⟩ : BufTy).Contents (Elt F)),
    StableHlo.binary main_v80 main_v79 main_v81 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3F800000#32),
    StableHlo.unary main_cst_15 main_v82 (broadcastInDim S100000x64 ![] bcast_S_S100000x64 : (⟨S_, .f32⟩ : BufTy).Contents (Elt F) → (⟨S100000x64, .f32⟩ : BufTy).Contents (Elt F)),
    StableHlo.binary main_v82 main_v81 main_v83 (Host.divf : (⟨S100000x64, .f32⟩ : BufTy).Contents (Elt F) → (⟨S100000x64, .f32⟩ : BufTy).Contents (Elt F) → (⟨S100000x64, .f32⟩ : BufTy).Contents (Elt F)),
    StableHlo.binary main_v77 main_v83 main_v84 (mulf : (⟨S100000x64, .f32⟩ : BufTy).Contents (Elt F) → (⟨S100000x64, .f32⟩ : BufTy).Contents (Elt F) → (⟨S100000x64, .f32⟩ : BufTy).Contents (Elt F)) ]

/-- The first window's operations: statements 1 to 60. -/
abbrev opsPart0 : List (HloOp τ sig (Elt F)) :=
  opsGather ++ (opsAffineEdge ++ (opsMeanEdge ++ (opsVarEdge ++ (opsMsgEdge ++ opsAggHead))))

/-- The second window's: statements 61 to 103. -/
abbrev opsPart1 : List (HloOp τ sig (Elt F)) :=
  opsAggTail ++ (opsAffineNode ++ (opsMeanNode ++ (opsVarNode ++ opsOutNode)))

/-- @main's 145 operations, in order, the calls' included. -/
abbrev ops : List (HloOp τ sig (Elt F)) := opsPart0 ++ opsPart1

/-! ## @main is that line -/

set_option maxRecDepth 8192 in
set_option maxHeartbeats 400000 in
/-- The first window is its operations in order: the variance function's definition, and the selection's inside it,
    unfold where they are called, and sequencing is associative. -/
theorem main_part0_eq (c : Dev nD) : main_part0 (F := F) c = seq opsPart0 := rfl

set_option maxRecDepth 8192 in
set_option maxHeartbeats 400000 in
/-- The second window likewise. -/
theorem main_part1_eq (c : Dev nD) : main_part1 (F := F) c = seq opsPart1 := rfl

/-- @main runs its two windows in order, and two lines run in order are their concatenation run as one. -/
theorem main_eq (c : Dev nD) : main (F := F) c = seq ops := by
  show (main_part0 (F := F) c >>= fun _ => main_part1 (F := F) c) = _
  rw [main_part0_eq, main_part1_eq, ← seq_append]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem opsGather_sub : (opsGather : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub ..⟩
theorem opsAffineEdge_sub : (opsAffineEdge : List (HloOp τ sig (Elt F))).Forall fun op => op.bufs ⊆ tcRefs τ sig :=
  ⟨binary_bufs_sub .., binary_bufs_sub .., unary_bufs_sub .., unary_bufs_sub .., binary_bufs_sub ..⟩
theorem opsMeanEdge_sub : (opsMeanEdge : List (HloOp τ sig (Elt F))).Forall fun op => op.bufs ⊆ tcRefs τ sig :=
  ⟨nullary_bufs_sub .., binary_bufs_sub .., nullary_bufs_sub .., unary_bufs_sub .., binary_bufs_sub ..⟩
theorem opsVarEdge_sub : (opsVarEdge : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem opsMsgEdge_sub : (opsMsgEdge : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub ..⟩
theorem opsAggHead_sub : (opsAggHead : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub ..⟩
theorem opsAggTail_sub : (opsAggTail : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem opsAffineNode_sub : (opsAffineNode : List (HloOp τ sig (Elt F))).Forall fun op => op.bufs ⊆ tcRefs τ sig :=
  ⟨binary_bufs_sub .., binary_bufs_sub .., unary_bufs_sub .., unary_bufs_sub .., binary_bufs_sub ..⟩
theorem opsMeanNode_sub : (opsMeanNode : List (HloOp τ sig (Elt F))).Forall fun op => op.bufs ⊆ tcRefs τ sig :=
  ⟨nullary_bufs_sub .., binary_bufs_sub .., nullary_bufs_sub .., unary_bufs_sub .., binary_bufs_sub ..⟩
theorem opsVarNode_sub : (opsVarNode : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem opsOutNode_sub : (opsOutNode : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub ..⟩

/-- A property of every operation of each stage is one of every operation of the line. -/
theorem ops_forall {p : HloOp τ sig (Elt F) → Prop}
    (h1 : (opsGather (F := F)).Forall p) (h2 : (opsAffineEdge (F := F)).Forall p) (h3 : (opsMeanEdge (F := F)).Forall p)
    (h4 : (opsVarEdge (F := F)).Forall p) (h5 : (opsMsgEdge (F := F)).Forall p) (h6 : (opsAggHead (F := F)).Forall p)
    (h7 : (opsAggTail (F := F)).Forall p) (h8 : (opsAffineNode (F := F)).Forall p) (h9 : (opsMeanNode (F := F)).Forall p)
    (h10 : (opsVarNode (F := F)).Forall p) (h11 : (opsOutNode (F := F)).Forall p) : (ops (F := F)).Forall p :=
  List.forall_append.mpr ⟨List.forall_append.mpr ⟨h1, List.forall_append.mpr ⟨h2, List.forall_append.mpr ⟨h3,
      List.forall_append.mpr ⟨h4, List.forall_append.mpr ⟨h5, h6⟩⟩⟩⟩⟩,
    List.forall_append.mpr ⟨h7, List.forall_append.mpr ⟨h8, List.forall_append.mpr ⟨h9, List.forall_append.mpr ⟨h10, h11⟩⟩⟩⟩⟩

theorem ops_sub : (ops : List (HloOp τ sig (Elt F))).Forall fun op => op.bufs ⊆ tcRefs τ sig :=
  ops_forall opsGather_sub opsAffineEdge_sub opsMeanEdge_sub opsVarEdge_sub opsMsgEdge_sub opsAggHead_sub opsAggTail_sub
    opsAffineNode_sub opsMeanNode_sub opsVarNode_sub opsOutNode_sub

/-- No operation of the line leaves a result open: each is a function of what it reads. -/
theorem ops_fresh : (ops : List (HloOp τ sig (Elt F))).Forall fun op => op.fresh = ∅ :=
  ops_forall (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor)

/-! ## What each stage writes, and what it leaves alone -/

/-- A stage's operation writes one buffer, a member of the stage's list of written references. -/
local macro "writes_in_list" : tactic =>
  `(tactic| (simp only [nullary_writes, unary_writes, binary_writes, ternary_writes, reshape_writes,
      Finset.singleton_subset_iff, List.mem_toFinset]; exact List.mem_map_of_mem (by decide)))

abbrev wGather : List (Ref sig .tc) :=
  [main_v0, main_v1, main_v2, main_v3, main_c, main_v4, main_v5, main_c_0, main_v6, main_v7, main_v8, main_v9, main_v10]
abbrev wAffineEdge : List (Ref sig .tc) := [main_v11, main_v12, main_v13, main_v14, main_v15]
abbrev wMeanEdge : List (Ref sig .tc) := [main_cst, main_v16, main_cst_1, main_v17, main_v18]
abbrev wVarEdge : List (Ref sig .tc) :=
  [main_c_2, main_call0_cst, main_call0_v0, main_call0_v1, main_call0_cst_0, main_call0_v2, main_call0_v3, main_call0_v4,
    main_call0_v5, main_call0_v6, main_call0_v7, main_call0_cst_1, main_call0_v8, main_call0_cst_2, main_call0_v9,
    main_call0_v10, main_call0_v11, main_call0_cst_3, main_call0_v12, main_call0_cst_4, main_call0_call0_v0,
    main_call0_call0_v1, main_v19]
abbrev wMsgEdge : List (Ref sig .tc) :=
  [main_v20, main_v21, main_v22, main_cst_3, main_v23, main_v24, main_v25, main_v26, main_v27, main_v28, main_v29, main_v30,
    main_v31, main_v32, main_v33, main_v34, main_v35, main_v36, main_cst_4, main_v37, main_v38, main_cst_5, main_v39, main_v40,
    main_v41]
abbrev wAggHead : List (Ref sig .tc) :=
  [main_cst_6, main_v42, main_v43, main_v44, main_cst_7, main_v45, main_cst_8, main_v46, main_v47, main_v48]
abbrev wAggTail : List (Ref sig .tc) := [main_cst_9, main_v49, main_v50, main_v51, main_v52, main_v53]
abbrev wAffineNode : List (Ref sig .tc) := [main_v54, main_v55, main_v56, main_v57, main_v58]
abbrev wMeanNode : List (Ref sig .tc) := [main_cst_10, main_v59, main_cst_11, main_v60, main_v61]
abbrev wVarNode : List (Ref sig .tc) :=
  [main_c_12, main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_v11, main_call1_cst_3, main_call1_v12, main_call1_cst_4, main_call1_call0_v0,
    main_call1_call0_v1, main_v62]
abbrev wOutNode : List (Ref sig .tc) :=
  [main_v63, main_v64, main_v65, main_cst_13, main_v66, main_v67, main_v68, main_v69, main_v70, main_v71, main_v72, main_v73,
    main_v74, main_v75, main_v76, main_v77, main_v78, main_v79, main_cst_14, main_v80, main_v81, main_cst_15, main_v82, main_v83,
    main_v84]

theorem opsGather_writes : (opsGather : List (HloOp τ sig (Elt F))).Forall fun op =>
    op.writes ⊆ (wGather.map (Proc.devRef (τ := τ) .tc)).toFinset := by
  simp only [List.Forall]; repeat' constructor
  all_goals writes_in_list
theorem opsAffineEdge_writes : (opsAffineEdge : List (HloOp τ sig (Elt F))).Forall fun op =>
    op.writes ⊆ (wAffineEdge.map (Proc.devRef (τ := τ) .tc)).toFinset := by
  simp only [List.Forall]; repeat' constructor
  all_goals writes_in_list
theorem opsMeanEdge_writes : (opsMeanEdge : List (HloOp τ sig (Elt F))).Forall fun op =>
    op.writes ⊆ (wMeanEdge.map (Proc.devRef (τ := τ) .tc)).toFinset := by
  simp only [List.Forall]; repeat' constructor
  all_goals writes_in_list
theorem opsVarEdge_writes : (opsVarEdge : List (HloOp τ sig (Elt F))).Forall fun op =>
    op.writes ⊆ (wVarEdge.map (Proc.devRef (τ := τ) .tc)).toFinset := by
  simp only [List.Forall]; repeat' constructor
  all_goals writes_in_list
theorem opsMsgEdge_writes : (opsMsgEdge : List (HloOp τ sig (Elt F))).Forall fun op =>
    op.writes ⊆ (wMsgEdge.map (Proc.devRef (τ := τ) .tc)).toFinset := by
  simp only [List.Forall]; repeat' constructor
  all_goals writes_in_list
theorem opsAggHead_writes : (opsAggHead : List (HloOp τ sig (Elt F))).Forall fun op =>
    op.writes ⊆ (wAggHead.map (Proc.devRef (τ := τ) .tc)).toFinset := by
  simp only [List.Forall]; repeat' constructor
  all_goals writes_in_list
theorem opsAggTail_writes : (opsAggTail : List (HloOp τ sig (Elt F))).Forall fun op =>
    op.writes ⊆ (wAggTail.map (Proc.devRef (τ := τ) .tc)).toFinset := by
  simp only [List.Forall]; repeat' constructor
  all_goals writes_in_list
theorem opsAffineNode_writes : (opsAffineNode : List (HloOp τ sig (Elt F))).Forall fun op =>
    op.writes ⊆ (wAffineNode.map (Proc.devRef (τ := τ) .tc)).toFinset := by
  simp only [List.Forall]; repeat' constructor
  all_goals writes_in_list
theorem opsMeanNode_writes : (opsMeanNode : List (HloOp τ sig (Elt F))).Forall fun op =>
    op.writes ⊆ (wMeanNode.map (Proc.devRef (τ := τ) .tc)).toFinset := by
  simp only [List.Forall]; repeat' constructor
  all_goals writes_in_list
theorem opsVarNode_writes : (opsVarNode : List (HloOp τ sig (Elt F))).Forall fun op =>
    op.writes ⊆ (wVarNode.map (Proc.devRef (τ := τ) .tc)).toFinset := by
  simp only [List.Forall]; repeat' constructor
  all_goals writes_in_list
theorem opsOutNode_writes : (opsOutNode : List (HloOp τ sig (Elt F))).Forall fun op =>
    op.writes ⊆ (wOutNode.map (Proc.devRef (τ := τ) .tc)).toFinset := by
  simp only [List.Forall]; repeat' constructor
  all_goals writes_in_list

/-- A buffer outside a stage's list keeps its contents through the stage. -/
theorem keepGather (V : Valuation τ sig (Elt F)) {r : Ref sig .tc} (h : r ∉ wGather) :
    after opsGather V (Proc.devRef .tc r) = V (Proc.devRef .tc r) := after_of_writes_sub opsGather V opsGather_writes h
theorem keepAffineEdge (V : Valuation τ sig (Elt F)) {r : Ref sig .tc} (h : r ∉ wAffineEdge) :
    after opsAffineEdge V (Proc.devRef .tc r) = V (Proc.devRef .tc r) := after_of_writes_sub opsAffineEdge V opsAffineEdge_writes h
theorem keepMeanEdge (V : Valuation τ sig (Elt F)) {r : Ref sig .tc} (h : r ∉ wMeanEdge) :
    after opsMeanEdge V (Proc.devRef .tc r) = V (Proc.devRef .tc r) := after_of_writes_sub opsMeanEdge V opsMeanEdge_writes h
theorem keepVarEdge (V : Valuation τ sig (Elt F)) {r : Ref sig .tc} (h : r ∉ wVarEdge) :
    after opsVarEdge V (Proc.devRef .tc r) = V (Proc.devRef .tc r) := after_of_writes_sub opsVarEdge V opsVarEdge_writes h
theorem keepMsgEdge (V : Valuation τ sig (Elt F)) {r : Ref sig .tc} (h : r ∉ wMsgEdge) :
    after opsMsgEdge V (Proc.devRef .tc r) = V (Proc.devRef .tc r) := after_of_writes_sub opsMsgEdge V opsMsgEdge_writes h
theorem keepAggHead (V : Valuation τ sig (Elt F)) {r : Ref sig .tc} (h : r ∉ wAggHead) :
    after opsAggHead V (Proc.devRef .tc r) = V (Proc.devRef .tc r) := after_of_writes_sub opsAggHead V opsAggHead_writes h
theorem keepAggTail (V : Valuation τ sig (Elt F)) {r : Ref sig .tc} (h : r ∉ wAggTail) :
    after opsAggTail V (Proc.devRef .tc r) = V (Proc.devRef .tc r) := after_of_writes_sub opsAggTail V opsAggTail_writes h
theorem keepAffineNode (V : Valuation τ sig (Elt F)) {r : Ref sig .tc} (h : r ∉ wAffineNode) :
    after opsAffineNode V (Proc.devRef .tc r) = V (Proc.devRef .tc r) := after_of_writes_sub opsAffineNode V opsAffineNode_writes h
theorem keepMeanNode (V : Valuation τ sig (Elt F)) {r : Ref sig .tc} (h : r ∉ wMeanNode) :
    after opsMeanNode V (Proc.devRef .tc r) = V (Proc.devRef .tc r) := after_of_writes_sub opsMeanNode V opsMeanNode_writes h
theorem keepVarNode (V : Valuation τ sig (Elt F)) {r : Ref sig .tc} (h : r ∉ wVarNode) :
    after opsVarNode V (Proc.devRef .tc r) = V (Proc.devRef .tc r) := after_of_writes_sub opsVarNode V opsVarNode_writes h
theorem keepOutNode (V : Valuation τ sig (Elt F)) {r : Ref sig .tc} (h : r ∉ wOutNode) :
    after opsOutNode V (Proc.devRef .tc r) = V (Proc.devRef .tc r) := after_of_writes_sub opsOutNode V opsOutNode_writes h

/-- Two lines in a row leave what the second leaves from what the first left. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

end Ops

/-! ## What each stage leaves at the buffer the later stages read

Each is the stage's function of what the stage read: every operation's value at its own result buffer is its function of
its operands' contents, and a buffer keeps its contents through an operation that writes another. -/

section Value

variable (V : Valuation τ sig (Elt Ideal))

set_option maxHeartbeats 400000 in
theorem gather_v10 : after opsGather V (Proc.devRef .tc main_v10)
    = gathered (V (Proc.devRef .tc main_arg0)) (V (Proc.devRef .tc main_arg11)) := by
  after_results
  rfl

set_option maxHeartbeats 400000 in
theorem gather_v3 : after opsGather V (Proc.devRef .tc main_v3) = dstIdx (V (Proc.devRef .tc main_arg11)) := by
  after_results
  rfl

set_option maxHeartbeats 400000 in
theorem affineEdge_v15 : after opsAffineEdge V (Proc.devRef .tc main_v15)
    = affineEdge (V (Proc.devRef .tc main_v10)) (V (Proc.devRef .tc main_arg1)) (V (Proc.devRef .tc main_arg3))
        (V (Proc.devRef .tc main_arg4)) := by
  after_results
  rfl

set_option maxHeartbeats 400000 in
theorem meanEdge_v18 : after opsMeanEdge V (Proc.devRef .tc main_v18) = meanEdge (V (Proc.devRef .tc main_v15)) := by
  after_results
  rfl

set_option maxHeartbeats 400000 in
theorem varEdge_v19 : after opsVarEdge V (Proc.devRef .tc main_v19) = varEdge (V (Proc.devRef .tc main_v15)) := by
  after_results_simp
  rfl

set_option maxHeartbeats 400000 in
theorem msgEdge_v41 : after opsMsgEdge V (Proc.devRef .tc main_v41)
    = msgEdge (V (Proc.devRef .tc main_v15)) (V (Proc.devRef .tc main_v18)) (V (Proc.devRef .tc main_v19))
        (V (Proc.devRef .tc main_arg5)) (V (Proc.devRef .tc main_arg6)) := by
  after_results_simp
  rfl

set_option maxHeartbeats 400000 in
theorem agg_v53 : after opsAggTail (after opsAggHead V) (Proc.devRef .tc main_v53)
    = aggregated (V (Proc.devRef .tc main_v41)) (V (Proc.devRef .tc main_v3)) := by
  after_results_simp
  rfl

set_option maxHeartbeats 400000 in
theorem affineNode_v58 : after opsAffineNode V (Proc.devRef .tc main_v58)
    = affineNode (V (Proc.devRef .tc main_arg0)) (V (Proc.devRef .tc main_v53)) (V (Proc.devRef .tc main_arg7))
        (V (Proc.devRef .tc main_arg8)) := by
  after_results
  rfl

set_option maxHeartbeats 400000 in
theorem meanNode_v61 : after opsMeanNode V (Proc.devRef .tc main_v61) = meanNode (V (Proc.devRef .tc main_v58)) := by
  after_results
  rfl

set_option maxHeartbeats 400000 in
theorem varNode_v62 : after opsVarNode V (Proc.devRef .tc main_v62) = varNode (V (Proc.devRef .tc main_v58)) := by
  after_results_simp
  rfl

set_option maxHeartbeats 400000 in
theorem outNode_v84 : after opsOutNode V (Proc.devRef .tc main_v84)
    = outNode (V (Proc.devRef .tc main_v58)) (V (Proc.devRef .tc main_v61)) (V (Proc.devRef .tc main_v62))
        (V (Proc.devRef .tc main_arg9)) (V (Proc.devRef .tc main_arg10)) := by
  after_results_simp
  rfl

end Value

/-! ## The stages in order -/

section Whole

variable (V : Valuation τ sig (Elt Ideal))

/-- Every reference the line writes. -/
abbrev wAll : List (Ref sig .tc) :=
  wGather ++ (wAffineEdge ++ (wMeanEdge ++ (wVarEdge ++ (wMsgEdge ++ (wAggHead ++ (wAggTail ++ (wAffineNode ++ (wMeanNode
    ++ (wVarNode ++ wOutNode)))))))))

/-- A buffer the line never writes keeps its contents through all of it: stage by stage. -/
theorem ops_keep {r : Ref sig .tc} (h : r ∉ wAll) :
    after (ops (F := Ideal)) V (Proc.devRef .tc r) = V (Proc.devRef .tc r) := by
  simp only [wAll, List.mem_append, not_or] at h
  obtain ⟨h1, h2, h3, h4, h5, h6, h7, h8, h9, h10, h11⟩ := h
  simp only [ops, opsPart0, opsPart1, after_app]
  rw [keepOutNode _ h11, keepVarNode _ h10, keepMeanNode _ h9, keepAffineNode _ h8, keepAggTail _ h7, keepAggHead _ h6,
    keepMsgEdge _ h5, keepVarEdge _ h4, keepMeanEdge _ h3, keepAffineEdge _ h2, keepGather _ h1]

/-- The result buffer after the whole line: each stage's value at what the stages before it left, which for a buffer a
    stage does not write is what was there before the stage; read back to the launch contents this is the program's term. -/
theorem ops_v84 : after (ops (F := Ideal)) V (Proc.devRef .tc main_v84)
    = refTerm (V (Proc.devRef .tc main_arg0)) (V (Proc.devRef .tc main_arg1)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg9))
        (V (Proc.devRef .tc main_arg10)) (V (Proc.devRef .tc main_arg11)) := by
  simp only [ops, opsPart0, opsPart1, after_app]
  -- the node layer's output, of the affine output, its mean and its variance
  rw [outNode_v84, varNode_v62,
    keepVarNode _ (r := main_v58) (by decide), keepVarNode _ (r := main_v61) (by decide),
    keepVarNode _ (r := main_arg9) (by decide), keepVarNode _ (r := main_arg10) (by decide),
    meanNode_v61,
    keepMeanNode _ (r := main_v58) (by decide), keepMeanNode _ (r := main_arg9) (by decide),
    keepMeanNode _ (r := main_arg10) (by decide)]
  -- the affine output, of the node rows and the aggregated rows
  rw [affineNode_v58,
    keepAffineNode _ (r := main_arg9) (by decide), keepAffineNode _ (r := main_arg10) (by decide),
    agg_v53,
    keepAggTail _ (r := main_arg0) (by decide), keepAggTail _ (r := main_arg7) (by decide),
    keepAggTail _ (r := main_arg8) (by decide), keepAggTail _ (r := main_arg9) (by decide),
    keepAggTail _ (r := main_arg10) (by decide),
    keepAggHead _ (r := main_arg0) (by decide), keepAggHead _ (r := main_arg7) (by decide),
    keepAggHead _ (r := main_arg8) (by decide), keepAggHead _ (r := main_arg9) (by decide),
    keepAggHead _ (r := main_arg10) (by decide)]
  -- the edge layer's output, of its affine output, mean and variance
  rw [msgEdge_v41,
    keepMsgEdge _ (r := main_v3) (by decide), keepMsgEdge _ (r := main_arg0) (by decide),
    keepMsgEdge _ (r := main_arg7) (by decide), keepMsgEdge _ (r := main_arg8) (by decide),
    keepMsgEdge _ (r := main_arg9) (by decide), keepMsgEdge _ (r := main_arg10) (by decide),
    varEdge_v19,
    keepVarEdge _ (r := main_v15) (by decide), keepVarEdge _ (r := main_v18) (by decide),
    keepVarEdge _ (r := main_v3) (by decide), keepVarEdge _ (r := main_arg0) (by decide),
    keepVarEdge _ (r := main_arg5) (by decide), keepVarEdge _ (r := main_arg6) (by decide),
    keepVarEdge _ (r := main_arg7) (by decide), keepVarEdge _ (r := main_arg8) (by decide),
    keepVarEdge _ (r := main_arg9) (by decide), keepVarEdge _ (r := main_arg10) (by decide),
    meanEdge_v18,
    keepMeanEdge _ (r := main_v15) (by decide), keepMeanEdge _ (r := main_v3) (by decide),
    keepMeanEdge _ (r := main_arg0) (by decide), keepMeanEdge _ (r := main_arg5) (by decide),
    keepMeanEdge _ (r := main_arg6) (by decide), keepMeanEdge _ (r := main_arg7) (by decide),
    keepMeanEdge _ (r := main_arg8) (by decide), keepMeanEdge _ (r := main_arg9) (by decide),
    keepMeanEdge _ (r := main_arg10) (by decide)]
  -- the edge layer's affine output, of the gathered rows; the gathered rows and the destination indices
  rw [affineEdge_v15,
    keepAffineEdge _ (r := main_v3) (by decide), keepAffineEdge _ (r := main_arg0) (by decide),
    keepAffineEdge _ (r := main_arg5) (by decide), keepAffineEdge _ (r := main_arg6) (by decide),
    keepAffineEdge _ (r := main_arg7) (by decide), keepAffineEdge _ (r := main_arg8) (by decide),
    keepAffineEdge _ (r := main_arg9) (by decide), keepAffineEdge _ (r := main_arg10) (by decide),
    gather_v10, gather_v3,
    keepGather _ (r := main_arg0) (by decide), keepGather _ (r := main_arg1) (by decide),
    keepGather _ (r := main_arg3) (by decide), keepGather _ (r := main_arg4) (by decide),
    keepGather _ (r := main_arg5) (by decide), keepGather _ (r := main_arg6) (by decide),
    keepGather _ (r := main_arg7) (by decide), keepGather _ (r := main_arg8) (by decide),
    keepGather _ (r := main_arg9) (by decide), keepGather _ (r := main_arg10) (by decide)]
  rfl

end Whole

/-! ## The run -/

/-- Every weakly fair execution of the reference program from `m` terminates, nothing faulting, with the result buffer at
    the program's term of the launch memory's argument arrays and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v84)
        = refTerm (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      ⟨(h c main_v84).trans (ops_v84 _),
        (h c main_arg0).trans (ops_keep _ (by decide)), (h c main_arg1).trans (ops_keep _ (by decide)),
        (h c main_arg2).trans (ops_keep _ (by decide)), (h c main_arg3).trans (ops_keep _ (by decide)),
        (h c main_arg4).trans (ops_keep _ (by decide)), (h c main_arg5).trans (ops_keep _ (by decide)),
        (h c main_arg6).trans (ops_keep _ (by decide)), (h c main_arg7).trans (ops_keep _ (by decide)),
        (h c main_arg8).trans (ops_keep _ (by decide)), (h c main_arg9).trans (ops_keep _ (by decide)),
        (h c main_arg10).trans (ops_keep _ (by decide)), (h c main_arg11).trans (ops_keep _ (by decide)),
        (h c main_arg12).trans (ops_keep _ (by decide))⟩)
    (run_seq scopedRefs_eq scopedSems_eq defs main (fun _ => ops) main_eq (fun _ => ops_sub) m ρ
      (fun _ op hop => List.forall_iff_forall_mem.mp ops_fresh op hop))

end Cert.ReferenceIdeal.Run

end
-- ==== Proof.RValue.lean ====
/-
  The reference program's term is the two-layer computation with the variance spelt as the mean of the squared
  deviations and a negative source index read as counting back from the last node (the node count added).

  Stage by stage: the gather reads row (wrapped source index) of the node array; the matrix product of the
  concatenated row [gathered | edge] with the 128 x 64 weights is the sum of the two 64-term sums against the weights'
  two halves; a column reduction from zero is the column sum; the variance function divides the sum of squared
  deviations by the row count minus zero, behind a selection on that divisor being positive, which it is; the
  activation 1 / (1 + exp(-x)) is the logistic function; the mean aggregation is the same operations as
  `Terms.aggregate`.
-/
import proofs.«412310_j6030134084155_3_alg».proof.Proof.RTerm
import proofs.«412310_j6030134084155_3_alg».proof.Proof.Terms
import proofs.«412310_j6030134084155_3_alg».proof.Proof.Sums
import Idealize.ShloMosaic.Lib.ValueLayout
import Idealize.ShloMosaic.Lib.Pipeline.Value

noncomputable section

namespace Cert.ReferenceIdeal.Value

open Cert.ReferenceIdeal Cert.ReferenceIdeal.Term Cert.Spec Cert.Terms
open Idealize.ShloMosaic Idealize.ShloMosaic.ValueIdx
open scoped BigOperators
open Cert.ReferenceIdeal.Facts₀

/-! ## Layout and reduction operations read at an index, over any row count -/

section Generic
variable {R : ℕ}

/-- A vector of 64 entries laid out as a one-row array reads, at (u, j), the vector at j. -/
theorem vecRow_apply (h1 : (⟨1, ![64]⟩ : Shape).BroadcastsInDim ⟨2, ![1, 64]⟩ ![1]) {α : Type}
    (v : (⟨1, ![64]⟩ : Shape).Idx → α) (u : Fin 1) (j : Fin 64) :
    broadcastInDim ⟨2, ![1, 64]⟩ ![1] h1 v (ix2 u j) = v (ix1 j) := by
  refine broadcastInDim_apply _ h1 _ (ix2 u j) (ix1 j) (fun a => ?_)
  match a with
  | ⟨0, _⟩ => rfl

/-- A one-row array repeated over `R` rows reads, at (r, j), its one row at j. -/
theorem rowRep_apply (h2 : (⟨2, ![1, 64]⟩ : Shape).BroadcastsInDim ⟨2, ![R, 64]⟩ ![0, 1]) {α : Type}
    (v : (⟨2, ![1, 64]⟩ : Shape).Idx → α) (r : Fin R) (j : Fin 64) :
    broadcastInDim ⟨2, ![R, 64]⟩ ![0, 1] h2 v (ix2 r j) = v (ix2 (0 : Fin 1) j) := by
  refine broadcastInDim_apply _ h2 _ (ix2 r j) (ix2 (0 : Fin 1) j) (fun a => ?_)
  match a with
  | ⟨0, _⟩ => rfl
  | ⟨1, _⟩ => rfl

/-- A scalar repeated over any shape reads the scalar everywhere. -/
theorem scalarBcast_apply {t : Shape} (h : (⟨0, ![]⟩ : Shape).BroadcastsInDim t ![]) {α : Type}
    (c : (⟨0, ![]⟩ : Shape).Idx → α) (i : t.Idx) : broadcastInDim t ![] h c i = c ix0 :=
  broadcastInDim_apply _ h c i ix0 (fun a => a.elim0)

/-- A column reduction from zero is the column's sum over the rows. -/
theorem colReduce_apply (hred : (⟨2, ![R, 64]⟩ : Shape).ReducesTo [0] ⟨1, ![64]⟩) (hu : 0 < (⟨0, ![]⟩ : Shape).numel)
    (x : FVec Ideal ⟨2, ![R, 64]⟩ .f32) (j : Fin 64) :
    Host.reduceAdd (F := Ideal) x (constant (F := Ideal) ⟨0, ![]⟩ .f32 0x00000000#32) hred hu (ix1 j)
      = ∑ r : Fin R, x (ix2 r j) := by
  unfold Host.reduceAdd
  show Ideal.hostReduceAdd hred x (Ideal.ofBits .f32 0x00000000#32) (ix1 j) = _
  rw [Ideal.hostReduceAdd_single hred ⟨hred.1, Nat.one_pos, hred.2⟩, Ideal.ofBits_zero_f32, zero_add]
  refine Finset.sum_congr rfl (fun k _ => congrArg x (funext fun c => Fin.ext ?_))
  match c with
  | ⟨0, _⟩ => rfl
  | ⟨1, _⟩ => rfl

/-! The host's elementwise quotient, reciprocal square root, exponential and negation read at an index. -/

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The integer zero converted to a float is zero. -/
theorem sitofp_zero : FloatOps.sitofp (F := Ideal) .f32 (0#32 : BitVec 32) = (0 : EReal) := by
  show (((0#32 : BitVec 32).toInt : ℝ) : EReal) = 0
  simp

/-! The matrix product of an `R x 128` array with a `128 x 64` array, contracted over the 128, read at (p, q). -/

section Dot
variable (D : DotDims (⟨2, ![R, 128]⟩ : Shape) (⟨2, ![128, 64]⟩ : Shape) (⟨2, ![R, 64]⟩ : Shape))
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

/-- The left operand's row coordinate is the result's row coordinate. -/
theorem dot_lhs_0 (j : (⟨2, ![R, 64]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < (⟨2, ![R, 64]⟩ : Shape).rank) (hq : q < (⟨2, ![R, 64]⟩ : Shape).rank), p = q →
      (j ⟨p, hp⟩).val = (j ⟨q, hq⟩).val := fun p q hp hq h => by subst h; rfl
  exact key _ _ _ _ (by simp [hlb, hln])

/-- The right operand's column coordinate is the result's column coordinate. -/
theorem dot_rhs_1 (j : (⟨2, ![R, 64]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < (⟨2, ![R, 64]⟩ : Shape).rank) (hq : q < (⟨2, ![R, 64]⟩ : Shape).rank), p = q →
      (j ⟨p, hp⟩).val = (j ⟨q, hq⟩).val := fun p q hp hq h => by subst h; rfl
  exact key _ _ _ _ (by simp [hlb, hln, hrn])

/-- The contraction runs over one axis … -/
theorem dot_contr_rank : D.contr.rank = 1 := by rw [D.rank_contr, hlc]; rfl

/-- … of extent 128. -/
theorem dot_contr_size : D.contr.size ⟨0, by rw [dot_contr_rank D hlc hrc hln hrn hlb hrb]; exact Nat.one_pos⟩ = 128 := by
  rw [D.size_contr 0 (by rw [hlc]; exact Nat.one_pos), List.getElem_of_eq hlc]
  rfl

/-- The product at (p, q): the sum over the 128 contracted positions of row p of the left times column q of the right. -/
theorem dot_apply (l : FVec Ideal ⟨2, ![R, 128]⟩ .f32) (w : FVec Ideal ⟨2, ![128, 64]⟩ .f32) (p : Fin R) (q : Fin 64) :
    Host.dotGeneral D none l w (ix2 p q) = ∑ k : Fin 128, l (ix2 p k) * w (ix2 k q) := by
  have hr := dot_contr_rank D hlc hrc hln hrn hlb hrb
  have hs := dot_contr_size D hlc hrc hln hrn hlb hrb
  show FloatOps.dotGeneral D none .single l w (ix2 p q) = _
  rw [Ideal.dotGeneral_apply, ← Equiv.sum_comp (contrEquiv1 D 128 hr hs).symm]
  refine Finset.sum_congr rfl (fun k _ => ?_)
  have el : D.lhsIdx (ix2 p q) ((contrEquiv1 D 128 hr hs).symm k) = ix2 p k := funext fun a => Fin.ext (by
    match a with
    | ⟨0, _⟩ => exact dot_lhs_0 D hlc hrc hln hrn hlb hrb _ _
    | ⟨1, _⟩ => exact (D.lhsIdx_val_of_single hlc _ _).trans (contrEquiv1_symm_val D 128 hr hs k))
  have er : D.rhsIdx (ix2 p q) ((contrEquiv1 D 128 hr hs).symm k) = ix2 k q := funext fun a => Fin.ext (by
    match a with
    | ⟨0, _⟩ => exact (D.rhsIdx_val_of_single hrc _ _).trans (contrEquiv1_symm_val D 128 hr hs k)
    | ⟨1, _⟩ => exact dot_rhs_1 D hlc hrc hln hrn hlb hrb _ _)
  rw [el, er]

end Dot

/-! Two `R x 64` arrays side by side, read at a column of the left half and of the right half. -/

section Concat
variable (hc : Shape.Concatenates [(⟨2, ![R, 64]⟩ : Shape), (⟨2, ![R, 64]⟩ : Shape)] (⟨2, ![R, 128]⟩ : Shape) 1)
  (a b : (⟨2, ![R, 64]⟩ : Shape).Idx → EReal)

/-- A column below 64 of [a | b] is that column of `a`. -/
theorem concat_left (r : Fin R) (k : Fin 64) :
    concatenate (⟨2, ![R, 128]⟩ : Shape) 1 [⟨(⟨2, ![R, 64]⟩ : Shape), a⟩, ⟨(⟨2, ![R, 64]⟩ : Shape), b⟩] hc
        (ix2 r (⟨k.val, by omega⟩ : Fin 128)) = a (ix2 r k) :=
  concatenate_pair_apply_left (t := (⟨2, ![R, 128]⟩ : Shape)) (s₁ := (⟨2, ![R, 64]⟩ : Shape)) (s₂ := (⟨2, ![R, 64]⟩ : Shape))
    1 a b hc (ix2 r (⟨k.val, by omega⟩ : Fin 128)) rfl (ix2 r k) (fun c => by
      match c with
      | ⟨0, _⟩ => rfl
      | ⟨1, _⟩ => rfl)

/-- Column 64 + k of [a | b] is column k of `b`. -/
theorem concat_right (r : Fin R) (k : Fin 64) :
    concatenate (⟨2, ![R, 128]⟩ : Shape) 1 [⟨(⟨2, ![R, 64]⟩ : Shape), a⟩, ⟨(⟨2, ![R, 64]⟩ : Shape), b⟩] hc
        (ix2 r (⟨64 + k.val, by omega⟩ : Fin 128)) = b (ix2 r k) :=
  concatenate_pair_apply_right (t := (⟨2, ![R, 128]⟩ : Shape)) (s₁ := (⟨2, ![R, 64]⟩ : Shape)) (s₂ := (⟨2, ![R, 64]⟩ : Shape))
    1 a b hc (ix2 r (⟨64 + k.val, by omega⟩ : Fin 128)) rfl rfl (ix2 r k) (fun c hne => by
      match c, hne with
      | ⟨0, _⟩, _ => rfl
      | ⟨1, _⟩, hne => exact absurd rfl hne)
    (Nat.add_comm _ _)

end Concat

/-! The affine stage: [a | b] times the weights, plus the bias repeated over the rows. -/

theorem affine_apply (hc : Shape.Concatenates [(⟨2, ![R, 64]⟩ : Shape), (⟨2, ![R, 64]⟩ : Shape)] (⟨2, ![R, 128]⟩ : Shape) 1)
    (D : DotDims (⟨2, ![R, 128]⟩ : Shape) (⟨2, ![128, 64]⟩ : Shape) (⟨2, ![R, 64]⟩ : Shape))
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![64]⟩ : Shape).BroadcastsInDim ⟨2, ![1, 64]⟩ ![1])
    (h2 : (⟨2, ![1, 64]⟩ : Shape).BroadcastsInDim ⟨2, ![R, 64]⟩ ![0, 1])
    (a b : FVec Ideal ⟨2, ![R, 64]⟩ .f32) (w : FVec Ideal ⟨2, ![128, 64]⟩ .f32) (β : FVec Ideal ⟨1, ![64]⟩ .f32)
    (r : Fin R) (j : Fin 64) :
    addf (Host.dotGeneral D none
          (concatenate (⟨2, ![R, 128]⟩ : Shape) 1 [⟨(⟨2, ![R, 64]⟩ : Shape), a⟩, ⟨(⟨2, ![R, 64]⟩ : Shape), b⟩] hc) w)
        (broadcastInDim ⟨2, ![R, 64]⟩ ![0, 1] h2 (broadcastInDim ⟨2, ![1, 64]⟩ ![1] h1 β)) (ix2 r j)
      = affine (arr2 a) (arr2 b) (topHalf w) (botHalf w) (vec1 β) r j := by
  rw [addf_apply, rowRep_apply, vecRow_apply, dot_apply D hlc hrc hln hrn hlb hrb, sum_fin128]
  -- the first 64 terms read the left piece against the weights' top rows, the last 64 the right piece against the bottom rows
  unfold affine
  congr 1
  congr 1
  · exact Finset.sum_congr rfl (fun k _ => congrArg (· * w (ix2 ⟨k.val, by omega⟩ j)) (concat_left hc a b r k))
  · exact Finset.sum_congr rfl (fun k _ => congrArg (· * w (ix2 ⟨64 + k.val, by omega⟩ j)) (concat_right hc a b r k))

/-! The column statistics. -/

/-- The column mean: the column sum over the row count. -/
theorem mean_apply (hred : (⟨2, ![R, 64]⟩ : Shape).ReducesTo [0] ⟨1, ![64]⟩) (hu : 0 < (⟨0, ![]⟩ : Shape).numel)
    (hb : (⟨0, ![]⟩ : Shape).BroadcastsInDim ⟨1, ![64]⟩ ![]) (n : BitVec 32) (h : FVec Ideal ⟨2, ![R, 64]⟩ .f32) (j : Fin 64) :
    Host.divf (Host.reduceAdd (F := Ideal) h (constant (F := Ideal) ⟨0, ![]⟩ .f32 0x00000000#32) hred hu)
        (broadcastInDim ⟨1, ![64]⟩ ![] hb (constant (F := Ideal) ⟨0, ![]⟩ .f32 n)) (ix1 j)
      = mean (Ideal.ofBits .f32 n) (arr2 h) j := by
  rw [hostDivf_apply, colReduce_apply, scalarBcast_apply]
  rfl

/-- The column variance: the guard on the divisor's sign is true for a positive row count, so the selection takes the
    mean of the squared deviations from the column mean. -/
theorem var_apply (hred : (⟨2, ![R, 64]⟩ : Shape).ReducesTo [0] ⟨1, ![64]⟩) (hu : 0 < (⟨0, ![]⟩ : Shape).numel)
    (h1 : (⟨1, ![64]⟩ : Shape).BroadcastsInDim ⟨2, ![1, 64]⟩ ![1])
    (hs1 : (⟨0, ![]⟩ : Shape).BroadcastsInDim ⟨2, ![1, 64]⟩ ![])
    (h2 : (⟨2, ![1, 64]⟩ : Shape).BroadcastsInDim ⟨2, ![R, 64]⟩ ![0, 1])
    (hb : (⟨0, ![]⟩ : Shape).BroadcastsInDim ⟨1, ![64]⟩ ![]) (n : BitVec 32) (hpos : 0 < Ideal.ofBits .f32 n)
    (h : FVec Ideal ⟨2, ![R, 64]⟩ .f32) (j : Fin 64) :
    select
        (broadcastInDim ⟨1, ![64]⟩ ![] hb
          (cmpf .ogt (subf (constant (F := Ideal) ⟨0, ![]⟩ .f32 n) (sitofp (F := Ideal) .f32 (constantI ⟨0, ![]⟩ 32 0#32)))
            (constant (F := Ideal) ⟨0, ![]⟩ .f32 0x00000000#32)))
        (Host.divf
          (Host.reduceAdd (F := Ideal)
            (mulf
              (subf h (broadcastInDim ⟨2, ![R, 64]⟩ ![0, 1] h2
                (Host.divf
                  (broadcastInDim ⟨2, ![1, 64]⟩ ![1] h1
                    (Host.reduceAdd (F := Ideal) h (constant (F := Ideal) ⟨0, ![]⟩ .f32 0x00000000#32) hred hu))
                  (broadcastInDim ⟨2, ![1, 64]⟩ ![] hs1 (constant (F := Ideal) ⟨0, ![]⟩ .f32 n)))))
              (subf h (broadcastInDim ⟨2, ![R, 64]⟩ ![0, 1] h2
                (Host.divf
                  (broadcastInDim ⟨2, ![1, 64]⟩ ![1] h1
                    (Host.reduceAdd (F := Ideal) h (constant (F := Ideal) ⟨0, ![]⟩ .f32 0x00000000#32) hred hu))
                  (broadcastInDim ⟨2, ![1, 64]⟩ ![] hs1 (constant (F := Ideal) ⟨0, ![]⟩ .f32 n))))))
            (constant (F := Ideal) ⟨0, ![]⟩ .f32 0x00000000#32) hred hu)
          (broadcastInDim ⟨1, ![64]⟩ ![] hb
            (subf (constant (F := Ideal) ⟨0, ![]⟩ .f32 n) (sitofp (F := Ideal) .f32 (constantI ⟨0, ![]⟩ 32 0#32)))))
        (broadcastInDim ⟨1, ![64]⟩ ![] hb (id (constant (F := Ideal) ⟨0, ![]⟩ .f32 0x7FC00000#32))) (ix1 j)
      = varCentred (Ideal.ofBits .f32 n) (arr2 h) j := by
  -- the divisor: the row count minus the integer zero
  have hd : (subf (constant (F := Ideal) ⟨0, ![]⟩ .f32 n) (sitofp (F := Ideal) .f32 (constantI ⟨0, ![]⟩ 32 0#32))) ix0
      = Ideal.ofBits .f32 n := by
    rw [subf_apply, sitofp_apply, constantI_apply, constant_apply, sitofp_zero, sub_eq_add_neg, neg_zero, add_zero]
  -- the guard: the divisor is above zero
  have hg : (cmpf .ogt (subf (constant (F := Ideal) ⟨0, ![]⟩ .f32 n) (sitofp (F := Ideal) .f32 (constantI ⟨0, ![]⟩ 32 0#32)))
      (constant (F := Ideal) ⟨0, ![]⟩ .f32 0x00000000#32)) ix0 = 1#1 := by
    rw [cmpf_apply, hd, constant_apply, Ideal.ofBits_zero_f32, Ideal.cmpf_def]
    show BitVec.ofBool (decide ((0 : EReal) < Ideal.ofBits .f32 n)) = 1#1
    rw [decide_eq_true hpos]; rfl
  rw [select_apply, scalarBcast_apply, hg, select_one, hostDivf_apply, scalarBcast_apply, hd, colReduce_apply]
  unfold varCentred
  refine congrArg (fun s => Ideal.div s (Ideal.ofBits .f32 n)) (Finset.sum_congr rfl (fun r _ => ?_))
  rw [mulf_apply, subf_apply, rowRep_apply, hostDivf_apply, vecRow_apply, scalarBcast_apply, colReduce_apply]
  rfl

/-! The normalisation and the activation. -/

/-- Normalise by the column's mean and variance, scale and shift: the same products in the same order. -/
theorem normalise_apply (h1 : (⟨1, ![64]⟩ : Shape).BroadcastsInDim ⟨2, ![1, 64]⟩ ![1])
    (h2 : (⟨2, ![1, 64]⟩ : Shape).BroadcastsInDim ⟨2, ![R, 64]⟩ ![0, 1])
    (hb : (⟨0, ![]⟩ : Shape).BroadcastsInDim ⟨1, ![64]⟩ ![])
    (h : FVec Ideal ⟨2, ![R, 64]⟩ .f32) (μ v g β : FVec Ideal ⟨1, ![64]⟩ .f32) (r : Fin R) (j : Fin 64) :
    addf
        (mulf
          (mulf (subf h (broadcastInDim ⟨2, ![R, 64]⟩ ![0, 1] h2 (broadcastInDim ⟨2, ![1, 64]⟩ ![1] h1 μ)))
            (broadcastInDim ⟨2, ![R, 64]⟩ ![0, 1] h2 (broadcastInDim ⟨2, ![1, 64]⟩ ![1] h1
              (Host.rsqrt (addf v (broadcastInDim ⟨1, ![64]⟩ ![] hb (constant (F := Ideal) ⟨0, ![]⟩ .f32 0x3727C5AC#32)))))))
          (broadcastInDim ⟨2, ![R, 64]⟩ ![0, 1] h2 (broadcastInDim ⟨2, ![1, 64]⟩ ![1] h1 g)))
        (broadcastInDim ⟨2, ![R, 64]⟩ ![0, 1] h2 (broadcastInDim ⟨2, ![1, 64]⟩ ![1] h1 β)) (ix2 r j)
      = normalise (arr2 h) (vec1 μ) (vec1 v) (vec1 g) (vec1 β) r j := by
  rw [addf_apply, mulf_apply, mulf_apply, subf_apply, rowRep_apply, vecRow_apply, rowRep_apply, vecRow_apply,
    rowRep_apply, vecRow_apply, rowRep_apply, vecRow_apply, hostRsqrt_apply, addf_apply, scalarBcast_apply]
  rfl

/-- `x · (1 / (1 + exp (-x)))` is `x · σ(x)`. -/
theorem silu_apply {s : Shape} (hbR : (⟨0, ![]⟩ : Shape).BroadcastsInDim s ![]) (X : FVec Ideal s .f32) (i : s.Idx) :
    mulf X (Host.divf (broadcastInDim s ![] hbR (constant (F := Ideal) ⟨0, ![]⟩ .f32 0x3F800000#32))
        (addf (broadcastInDim s ![] hbR (constant (F := Ideal) ⟨0, ![]⟩ .f32 0x3F800000#32)) (Host.exp (Host.negf X)))) i
      = silu (X i) := by
  rw [mulf_apply, hostDivf_apply, addf_apply, scalarBcast_apply, hostExp_apply, hostNegf_apply, constant_apply,
    Cert.Fin.ofBits_one]
  rfl

end Generic

/-! The two row counts are positive reals. -/

/-- The word of the edge count denotes the real number one million, which is positive. -/
theorem nEdges_pos : 0 < Ideal.ofBits .f32 0x49742400#32 := by
  have e : Ideal.ofBits .f32 0x49742400#32 = ((1000000 : ℝ) : EReal) := by
    simp [Ideal.ofBits, Ideal.ieee, -EReal.coe_mul]; norm_num
  rw [e]; exact_mod_cast (by norm_num : (0 : ℝ) < 1000000)

/-- The word of the node count denotes the real number one hundred thousand, which is positive. -/
theorem nNodes_pos : 0 < Ideal.ofBits .f32 0x47C35000#32 := by
  have e : Ideal.ofBits .f32 0x47C35000#32 = ((100000 : ℝ) : EReal) := by
    simp [Ideal.ofBits, Ideal.ieee, -EReal.coe_mul]; norm_num
  rw [e]; exact_mod_cast (by norm_num : (0 : ℝ) < 100000)

/-! ## The reference's stages, one by one -/

/-- The gathered rows: row (wrapped source index) of the node array, per edge. -/
theorem gathered_eq (x : FVec Ideal S100000x64 .f32) (ei : IVec S2x1000000 32) :
    gathered x ei = gatherRows x (asColumn (wrapNeg (srcRow ei))) := rfl

/-- The destination indices. -/
theorem dstIdx_eq (ei : IVec S2x1000000 32) : dstIdx ei = dstRow ei := rfl

/-- The edge layer's affine output. -/
theorem affineEdge_eq (g ea : FVec Ideal S1000000x64 .f32) (w : FVec Ideal S128x64 .f32) (b : FVec Ideal S64 .f32) :
    arr2 (affineEdge g ea w b) = affine (arr2 g) (arr2 ea) (topHalf w) (botHalf w) (vec1 b) := by
  funext r j
  show affineEdge g ea w b (ix2 r j) = _
  unfold affineEdge
  exact affine_apply (R := 1000000) concatenates_S1000000x64_S1000000x64_S1000000x128_d1
    dot_S1000000x128_S128x64_S1000000x64_1_0_0_1_n_n rfl rfl rfl rfl rfl rfl bcast_S64_S1x64_1 bcast_S1x64_S1000000x64_0_1
    g ea w b r j

/-- Its column means. -/
theorem meanEdge_eq (h : FVec Ideal S1000000x64 .f32) : vec1 (meanEdge h) = mean nEdges (arr2 h) := by
  funext j
  show meanEdge h (ix1 j) = _
  unfold meanEdge
  exact mean_apply (R := 1000000) reducesTo_S1000000x64_S64_d0 h_S_ bcast_S_S64 0x49742400#32 h j

/-- Its column variances. -/
theorem varEdge_eq (h : FVec Ideal S1000000x64 .f32) : vec1 (varEdge h) = varCentred nEdges (arr2 h) := by
  funext j
  show varEdge h (ix1 j) = _
  unfold varEdge
  exact var_apply (R := 1000000) reducesTo_S1000000x64_S64_d0 h_S_ bcast_S64_S1x64_1 bcast_S_S1x64 bcast_S1x64_S1000000x64_0_1
    bcast_S_S64 0x49742400#32 nEdges_pos h j

/-- The edge layer's output. -/
theorem msgEdge_eq (h : FVec Ideal S1000000x64 .f32) (μ v g β : FVec Ideal S64 .f32) :
    arr2 (msgEdge h μ v g β) = layer (arr2 h) (vec1 μ) (vec1 v) (vec1 g) (vec1 β) := by
  funext r j
  show msgEdge h μ v g β (ix2 r j) = _
  unfold msgEdge
  refine (silu_apply bcast_S_S1000000x64 _ (ix2 r j)).trans ?_
  unfold layer
  exact congrArg silu (normalise_apply (R := 1000000) bcast_S64_S1x64_1 bcast_S1x64_S1000000x64_0_1 bcast_S_S64 h μ v g β r j)

/-- The aggregation onto the nodes is the shared one. -/
theorem aggregated_eq (msg : FVec Ideal S1000000x64 .f32) (col : IVec S1000000 32) :
    arr2 (aggregated msg col) = aggregate2 col (arr2 msg) := by
  unfold aggregate2
  rw [toArr2_arr2]
  rfl

/-- The node layer's affine output. -/
theorem affineNode_eq (x agg : FVec Ideal S100000x64 .f32) (w : FVec Ideal S128x64 .f32) (b : FVec Ideal S64 .f32) :
    arr2 (affineNode x agg w b) = affine (arr2 x) (arr2 agg) (topHalf w) (botHalf w) (vec1 b) := by
  funext r j
  show affineNode x agg w b (ix2 r j) = _
  unfold affineNode
  exact affine_apply (R := 100000) concatenates_S100000x64_S100000x64_S100000x128_d1
    dot_S100000x128_S128x64_S100000x64_1_0_0_1_n_n rfl rfl rfl rfl rfl rfl bcast_S64_S1x64_1 bcast_S1x64_S100000x64_0_1
    x agg w b r j

/-- Its column means. -/
theorem meanNode_eq (h : FVec Ideal S100000x64 .f32) : vec1 (meanNode h) = mean nNodes (arr2 h) := by
  funext j
  show meanNode h (ix1 j) = _
  unfold meanNode
  exact mean_apply (R := 100000) reducesTo_S100000x64_S64_d0 h_S_ bcast_S_S64 0x47C35000#32 h j

/-- Its column variances. -/
theorem varNode_eq (h : FVec Ideal S100000x64 .f32) : vec1 (varNode h) = varCentred nNodes (arr2 h) := by
  funext j
  show varNode h (ix1 j) = _
  unfold varNode
  exact var_apply (R := 100000) reducesTo_S100000x64_S64_d0 h_S_ bcast_S64_S1x64_1 bcast_S_S1x64 bcast_S1x64_S100000x64_0_1
    bcast_S_S64 0x47C35000#32 nNodes_pos h j

/-- The node layer's output. -/
theorem outNode_eq (h : FVec Ideal S100000x64 .f32) (μ v g β : FVec Ideal S64 .f32) :
    arr2 (outNode h μ v g β) = layer (arr2 h) (vec1 μ) (vec1 v) (vec1 g) (vec1 β) := by
  funext r j
  show outNode h μ v g β (ix2 r j) = _
  unfold outNode
  refine (silu_apply bcast_S_S100000x64 _ (ix2 r j)).trans ?_
  unfold layer
  exact congrArg silu (normalise_apply (R := 100000) bcast_S64_S1x64_1 bcast_S1x64_S100000x64_0_1 bcast_S_S64 h μ v g β r j)

/-- The reference's term, at every index, is the shared two-layer computation (centred variance, wrapped source index). -/
theorem refTerm_eq (x : FVec Ideal S100000x64 .f32) (ea : FVec Ideal S1000000x64 .f32) (w1 : FVec Ideal S128x64 .f32)
    (b1 g1 be1 : FVec Ideal S64 .f32) (w2 : FVec Ideal S128x64 .f32) (b2 g2 be2 : FVec Ideal S64 .f32)
    (ei : IVec S2x1000000 32) :
    (refTerm x ea w1 b1 g1 be1 w2 b2 g2 be2 ei : S100000x64.Idx → EReal)
      = toArr2 (result @varCentred wrapNeg x ea w1 b1 g1 be1 w2 b2 g2 be2 ei) := by
  refine (toArr2_arr2 _).symm.trans (congrArg toArr2 ?_)
  unfold refTerm result network
  simp only [outNode_eq, meanNode_eq, varNode_eq, affineNode_eq, aggregated_eq, dstIdx_eq, msgEdge_eq, meanEdge_eq,
    varEdge_eq, affineEdge_eq, gathered_eq]

end Cert.ReferenceIdeal.Value

end
-- ==== Proof.Bridge.lean ====
/-
  Why the two programs compute the same thing on finite inputs.

  They differ in two places only. (1) The variance of a column: the mean of the squares minus the square of the
  mean, against the mean of the squared deviations. For real entries these are one number (expand the square and use
  that the deviations' mean is the mean minus itself); the expansion distributes a product over a sum, which is a law of
  the reals and not of the extended reals, so every entry of the column has to be finite — and it is: the affine
  output of finite arrays is finite, a layer's output of a finite column is finite (the variance plus the small
  positive constant is a positive real, its reciprocal square root a real; the logistic function of a real is a
  real), and the mean aggregation of finite rows is finite. (2) The source index: as it stands, against wrapped so
  that a negative index counts back from the last node; where no index is negative the two are the same vector.
-/
import Mathlib.Algebra.BigOperators.Field
import Mathlib.Tactic.FieldSimp
import Mathlib.Tactic.Ring
import Mathlib.Tactic.Positivity
import proofs.«412310_j6030134084155_3_alg».proof.Proof.Terms
import proofs.«412310_j6030134084155_3_alg».proof.Proof.Sums

noncomputable section

namespace Cert.Bridge

open Idealize.ShloMosaic Idealize.ShloMosaic.ValueIdx Cert.Spec Cert.Terms Cert.Fin
open Cert.KernelIdeal
open scoped BigOperators

/-! ## The two row counts -/

/-- The edge count's word denotes the real number one million. -/
theorem nEdges_eq : nEdges = ((1000000 : ℝ) : EReal) := by
  unfold nEdges
  simp [Ideal.ofBits, Ideal.ieee, -EReal.coe_mul]; norm_num

/-- The node count's word denotes the real number one hundred thousand. -/
theorem nNodes_eq : nNodes = ((100000 : ℝ) : EReal) := by
  unfold nNodes
  simp [Ideal.ofBits, Ideal.ieee, -EReal.coe_mul]; norm_num

/-! ## The variance of a real column, spelt two ways -/

/-- Over the reals: the mean of the squares less the square of the mean is the mean of the squared deviations.
    Expanding each squared deviation gives the square, less twice the mean times the entry, plus the mean's square;
    summed over the `n` rows the middle term is twice the mean times the total and the last is `n` times the mean's
    square, and the total is `n` times the mean. -/
theorem real_variance {R : ℕ} (n : ℝ) (hn : n = (R : ℝ)) (hR : 0 < R) (a : Fin R → ℝ) :
    (∑ r, a r * a r) / n - (∑ r, a r) / n * ((∑ r, a r) / n)
      = (∑ r, (a r - (∑ r, a r) / n) * (a r - (∑ r, a r) / n)) / n := by
  have hn0 : n ≠ 0 := by rw [hn]; exact_mod_cast hR.ne'
  generalize hS : ∑ r, a r = S
  generalize hm : S / n = m
  have h1 : ∑ r, (a r - m) * (a r - m) = (∑ r, a r * a r) - 2 * m * S + n * (m * m) := by
    have e : ∀ r, (a r - m) * (a r - m) = a r * a r - 2 * m * a r + m * m := fun r => by ring
    simp only [e]
    rw [Finset.sum_add_distrib, Finset.sum_sub_distrib, ← Finset.mul_sum, Finset.sum_const, Finset.card_univ,
      Fintype.card_fin, nsmul_eq_mul, hn, hS]
  rw [h1, ← hm]
  field_simp
  ring

/-- On a column of real numbers the two spellings of the variance agree (`n` the row count, positive). -/
theorem varMoments_eq_varCentred {R : ℕ} (n : ℝ) (hn : n = (R : ℝ)) (hR : 0 < R) (h : Fin R → Fin 64 → EReal)
    (hfin : ∀ r j, IsFin (h r j)) (j : Fin 64) : varMoments (n : EReal) h j = varCentred (n : EReal) h j := by
  have hn0 : n ≠ 0 := by rw [hn]; exact_mod_cast hR.ne'
  choose a ha using fun r => hfin r j
  unfold varMoments varCentred mean colSum colSumSq
  simp only [ha, ← EReal.coe_mul, ← coe_sum, div_coe_coe _ _ hn0, ← EReal.coe_sub]
  exact congrArg _ (real_variance n hn hR a)

/-! ## Finite values stay finite through a layer -/

variable {R : ℕ}

/-- The small positive constant is a real number. -/
theorem isFin_eps : IsFin eps := isFin_ofBits_eps

/-- The small positive constant is positive. -/
theorem eps_pos : 0 < eps := ofBits_eps_pos

/-- The affine output of finite rows, weights and bias is finite: two finite sums of products of real numbers, plus a
    real number. -/
theorem isFin_affine {a b : Fin R → Fin 64 → EReal} {wa wb : Fin 64 → Fin 64 → EReal} {β : Fin 64 → EReal}
    (ha : ∀ r k, IsFin (a r k)) (hb : ∀ r k, IsFin (b r k)) (hwa : ∀ k j, IsFin (wa k j))
    (hwb : ∀ k j, IsFin (wb k j)) (hβ : ∀ j, IsFin (β j)) (r : Fin R) (j : Fin 64) :
    IsFin (affine a b wa wb β r j) :=
  ((isFin_sum _ _ fun k _ => (ha r k).mul (hwa k j)).add (isFin_sum _ _ fun k _ => (hb r k).mul (hwb k j))).add (hβ j)

/-- The mean of a finite column over a nonzero real count is finite. -/
theorem isFin_mean {n : EReal} {h : Fin R → Fin 64 → EReal} (hn : IsFin n) (hn0 : n ≠ 0)
    (hh : ∀ r j, IsFin (h r j)) (j : Fin 64) : IsFin (mean n h j) :=
  (isFin_sum _ _ fun r _ => hh r j).div hn hn0

/-- The mean of the squared deviations of a finite column, over a positive real count, is finite. -/
theorem isFin_varCentred {n : EReal} {h : Fin R → Fin 64 → EReal} (hn : IsFin n) (hn0 : 0 < n)
    (hh : ∀ r j, IsFin (h r j)) (j : Fin 64) : IsFin (varCentred n h j) :=
  (isFin_sum _ _ fun r _ =>
    ((hh r j).sub (isFin_mean hn hn0.ne' hh j)).mul ((hh r j).sub (isFin_mean hn hn0.ne' hh j))).div hn hn0.ne'

/-- … and it is not negative: a sum of squares of real numbers over a positive count. -/
theorem varCentred_nonneg {n : EReal} {h : Fin R → Fin 64 → EReal} (hn : IsFin n) (hn0 : 0 < n)
    (hh : ∀ r j, IsFin (h r j)) (j : Fin 64) : 0 ≤ varCentred n h j :=
  div_nonneg'
    (isFin_sum _ _ fun r _ =>
      ((hh r j).sub (isFin_mean hn hn0.ne' hh j)).mul ((hh r j).sub (isFin_mean hn hn0.ne' hh j)))
    (sum_sq_nonneg _ (fun r => h r j) _ (fun r _ => hh r j) (isFin_mean hn hn0.ne' hh j)) hn hn0

/-- The logistic function of a real number is a real number. -/
theorem isFin_logistic {x : EReal} (hx : IsFin x) : IsFin (Ideal.logistic x) := by
  obtain ⟨r, rfl⟩ := hx
  exact ⟨_, Ideal.logistic_coe r⟩

/-- A layer's output entry is finite when the column, its centre, its spread, the scale and the shift are, and the
    spread plus the small constant is positive: the reciprocal square root of a positive real is a real. -/
theorem isFin_layer {h : Fin R → Fin 64 → EReal} {μ v g β : Fin 64 → EReal} (hh : ∀ r j, IsFin (h r j))
    (hμ : ∀ j, IsFin (μ j)) (hv : ∀ j, IsFin (v j)) (hpos : ∀ j, 0 < v j + eps) (hg : ∀ j, IsFin (g j))
    (hβ : ∀ j, IsFin (β j)) (r : Fin R) (j : Fin 64) : IsFin (layer h μ v g β r j) := by
  have hn : IsFin (normalise h μ v g β r j) :=
    ((((hh r j).sub (hμ j)).mul (((hv j).add isFin_eps).rsqrt (hpos j))).mul (hg j)).add (hβ j)
  exact hn.mul (isFin_logistic hn)

/-- A layer run on a finite column with the column's own mean and centred variance gives finite entries. -/
theorem isFin_layer_centred {n : EReal} {h : Fin R → Fin 64 → EReal} {g β : Fin 64 → EReal} (hn : IsFin n)
    (hn0 : 0 < n) (hh : ∀ r j, IsFin (h r j)) (hg : ∀ j, IsFin (g j)) (hβ : ∀ j, IsFin (β j)) (r : Fin R)
    (j : Fin 64) : IsFin (layer h (mean n h) (varCentred n h) g β r j) :=
  isFin_layer hh (isFin_mean hn hn0.ne' hh) (isFin_varCentred hn hn0 hh)
    (fun j => add_pos' (varCentred_nonneg hn hn0 hh j) eps_pos) hg hβ r j

/-! ## The mean aggregation keeps finiteness -/

/-- The larger of any value and one is not zero. -/
theorem max_one_ne_zero (a b : EReal) (hb : b = 1) : max a b ≠ 0 := by
  have h : (0 : EReal) < max a b := lt_of_lt_of_le (by rw [hb]; exact zero_lt_one) (le_max_right a b)
  exact h.ne'

/-- Every entry of a broadcast array is an entry of its source, so a nowhere zero source gives a nowhere zero array. -/
theorem broadcastInDim_ne_zero {s t : Shape} (dims : Fin s.rank → Fin t.rank) (h : s.BroadcastsInDim t dims)
    {x : s.Idx → EReal} (hx : ∀ k, x k ≠ 0) (i : t.Idx) : broadcastInDim t dims h x i ≠ 0 :=
  hx _

/-- The entrywise larger of any array and an array of ones is nowhere zero. -/
theorem maximumf_one_ne_zero {s : Shape} {φ : FTy} (x y : FVec Ideal s φ) (hy : ∀ k, y k = 1) (k : s.Idx) :
    maximumf x y k ≠ 0 :=
  max_one_ne_zero _ _ (hy k)

/-- Every entry of a broadcast constant array is the value the constant's word denotes. -/
theorem broadcastInDim_constant_eq {s t : Shape} {φ : FTy} (dims : Fin s.rank → Fin t.rank)
    (h : s.BroadcastsInDim t dims) (b : BitVec φ.bits) (v : EReal) (hb : Ideal.ofBits φ b = v) (k : t.Idx) :
    broadcastInDim t dims h (constant (F := Ideal) s φ b) k = v :=
  hb

/-- The mean of the finite rows arriving at each node is finite: a finite sum of finite entries, over a count that
    is a finite sum of ones made at least one, hence a nonzero real. -/
theorem allFin_aggregate {msg : FVec Ideal S1000000x64 .f32} (col : IVec S1000000 32) (hmsg : AllFin msg) :
    AllFin (aggregate msg col) := by
  unfold aggregate
  refine allFin_hostDivf
    (allFin_scatterAdd _ _ (allFin_broadcastInDim _ _ (allFin_constant isFin_ofBits_zero)) hmsg)
    (allFin_broadcastInDim _ _ (allFin_broadcastInDim _ _ (allFin_maximumf
      (allFin_scatterAdd _ _ (allFin_broadcastInDim _ _ (allFin_constant isFin_ofBits_zero))
        (allFin_broadcastInDim _ _ (allFin_constant isFin_ofBits_one)))
      (allFin_broadcastInDim _ _ (allFin_constant isFin_ofBits_one))))) ?_
  intro i
  apply broadcastInDim_ne_zero
  intro k
  apply broadcastInDim_ne_zero
  intro k
  apply maximumf_one_ne_zero
  intro k
  exact broadcastInDim_constant_eq _ _ _ _ ofBits_one k

/-- A function of two coordinates with finite values is a finite array. -/
theorem allFin_toArr2 {n0 n1 : ℕ} {f : Fin n0 → Fin n1 → EReal} (hf : ∀ r j, IsFin (f r j)) : AllFin (toArr2 f) :=
  fun i => hf (i 0) (i 1)

/-- A finite rank-2 array read by its coordinates gives finite values. -/
theorem isFin_arr2 {n0 n1 : ℕ} {v : (⟨2, ![n0, n1]⟩ : Shape).Idx → EReal} (hv : AllFin v) (r : Fin n0) (j : Fin n1) :
    IsFin (arr2 v r j) :=
  hv _

/-- A finite rank-1 array read by its coordinate gives finite values. -/
theorem isFin_vec1 {n : ℕ} {v : (⟨1, ![n]⟩ : Shape).Idx → EReal} (hv : AllFin v) (j : Fin n) : IsFin (vec1 v j) :=
  hv _

/-- The aggregation, as a map on functions of (edge, column), keeps finiteness. -/
theorem isFin_aggregate2 (col : IVec S1000000 32) {msg : Fin 1000000 → Fin 64 → EReal}
    (hmsg : ∀ r j, IsFin (msg r j)) (r : Fin 100000) (j : Fin 64) : IsFin (aggregate2 col msg r j) := by
  unfold aggregate2
  exact isFin_arr2 (allFin_aggregate col (allFin_toArr2 hmsg)) r j

/-! ## The whole computation -/

/-- Two layers with an aggregation between them, on finite arrays with real positive row counts, give the same
    result with either spelling of the variance: at each layer the affine output is a finite column, where the two
    spellings are one number. -/
theorem network_eq {E N : ℕ} (n₁ n₂ : ℝ) (hn₁ : n₁ = (E : ℝ)) (hE : 0 < E) (hn₂ : n₂ = (N : ℝ)) (hN : 0 < N)
    (xr ea : Fin E → Fin 64 → EReal) (x : Fin N → Fin 64 → EReal)
    (agg : (Fin E → Fin 64 → EReal) → Fin N → Fin 64 → EReal)
    (w1a w1b : Fin 64 → Fin 64 → EReal) (b1 g1 be1 : Fin 64 → EReal)
    (w2a w2b : Fin 64 → Fin 64 → EReal) (b2 g2 be2 : Fin 64 → EReal)
    (hxr : ∀ r k, IsFin (xr r k)) (hea : ∀ r k, IsFin (ea r k)) (hx : ∀ r k, IsFin (x r k))
    (hagg : ∀ msg, (∀ r j, IsFin (msg r j)) → ∀ r j, IsFin (agg msg r j))
    (hw1a : ∀ k j, IsFin (w1a k j)) (hw1b : ∀ k j, IsFin (w1b k j)) (hb1 : ∀ j, IsFin (b1 j))
    (hg1 : ∀ j, IsFin (g1 j)) (hbe1 : ∀ j, IsFin (be1 j))
    (hw2a : ∀ k j, IsFin (w2a k j)) (hw2b : ∀ k j, IsFin (w2b k j)) (hb2 : ∀ j, IsFin (b2 j)) :
    network @varMoments (n₁ : EReal) (n₂ : EReal) xr ea x agg w1a w1b b1 g1 be1 w2a w2b b2 g2 be2
      = network @varCentred (n₁ : EReal) (n₂ : EReal) xr ea x agg w1a w1b b1 g1 be1 w2a w2b b2 g2 be2 := by
  have hp₁ : (0 : EReal) < (n₁ : EReal) := by rw [hn₁]; exact_mod_cast hE
  have hh1 : ∀ r j, IsFin (affine xr ea w1a w1b b1 r j) := isFin_affine hxr hea hw1a hw1b hb1
  have hv1 : varMoments (n₁ : EReal) (affine xr ea w1a w1b b1) = varCentred (n₁ : EReal) (affine xr ea w1a w1b b1) :=
    funext fun j => varMoments_eq_varCentred n₁ hn₁ hE _ hh1 j
  have hmsg : ∀ r j, IsFin (layer (affine xr ea w1a w1b b1) (mean (n₁ : EReal) (affine xr ea w1a w1b b1))
      (varCentred (n₁ : EReal) (affine xr ea w1a w1b b1)) g1 be1 r j) :=
    isFin_layer_centred (isFin_coe n₁) hp₁ hh1 hg1 hbe1
  have hh2 := isFin_affine (wa := w2a) (wb := w2b) (β := b2) hx (hagg _ hmsg) hw2a hw2b hb2
  have hv2 := funext fun j => varMoments_eq_varCentred n₂ hn₂ hN _ hh2 j
  simp only [network]
  rw [hv1, hv2]

/-- The whole computation, on finite arrays whose source indices wrapping leaves alone, is the same with either
    spelling of the variance and with the source index wrapped or not. -/
theorem result_eq (x : S100000x64.Idx → EReal) (ea : S1000000x64.Idx → EReal) (w1 : S128x64.Idx → EReal)
    (b1 g1 be1 : S64.Idx → EReal) (w2 : S128x64.Idx → EReal) (b2 g2 be2 : S64.Idx → EReal) (ei : IVec S2x1000000 32)
    (hx : AllFin x) (hea : AllFin ea) (hw1 : AllFin w1) (hb1 : AllFin b1) (hg1 : AllFin g1) (hbe1 : AllFin be1)
    (hw2 : AllFin w2) (hb2 : AllFin b2) (hg2 : AllFin g2) (hbe2 : AllFin be2)
    (hwrap : wrapNeg (srcRow ei) = srcRow ei) :
    result @varMoments id x ea w1 b1 g1 be1 w2 b2 g2 be2 ei
      = result @varCentred wrapNeg x ea w1 b1 g1 be1 w2 b2 g2 be2 ei := by
  unfold result
  rw [hwrap, nEdges_eq, nNodes_eq, id_eq]
  exact network_eq 1000000 100000 (by norm_num) (by norm_num) (by norm_num) (by norm_num) _ _ _ _ _ _ _ _ _ _ _ _ _ _
    (isFin_arr2 (allFin_gather _ _ hx)) (isFin_arr2 hea) (isFin_arr2 hx)
    (fun _ hmsg => isFin_aggregate2 _ hmsg)
    (fun _ _ => hw1 _) (fun _ _ => hw1 _) (isFin_vec1 hb1) (isFin_vec1 hg1) (isFin_vec1 hbe1)
    (fun _ _ => hw2 _) (fun _ _ => hw2 _) (isFin_vec1 hb2)

end Cert.Bridge

end
-- ==== Proof.Pre.lean ====
/-
  What the precondition says, decoded: every float argument array holds real numbers only, and no source index is
  negative, so reading a negative index as counting back from the last node leaves the source indices as they are.
-/
import proofs.«412310_j6030134084155_3_alg».proof.Defs
import proofs.«412310_j6030134084155_3_alg».proof.Proof.Gen.Pre_finite_inputs
import proofs.«412310_j6030134084155_3_alg».proof.Proof.Terms
import Idealize.ShloMosaic.Lib.ReduceAll
import Idealize.ShloMosaic.Lib.StableHlo.Predicate

noncomputable section

namespace Cert.PreFacts

open Idealize.ShloMosaic Idealize.SL.Sem Cert.Spec Cert.Terms Cert.Fin
open Cert.KernelIdeal

/-- The shape with no axes has a single index. -/
instance subsingleton_scalar_idx : Subsingleton (⟨0, ![]⟩ : Shape).Idx := ⟨fun a b => funext fun d => d.elim0⟩

/-- The word of positive infinity denotes the top of the extended reals. -/
theorem ofBits_inf : Ideal.ofBits .f32 0x7F800000#32 = (⊤ : EReal) := by
  simp [Ideal.ofBits, Ideal.ieee]

/-- An extended real whose absolute value lies strictly below the top is a real number: the absolute value of
    either infinity is the top itself. -/
theorem isFin_of_abs_lt_top (x : EReal) (h : Ideal.cmp .olt (max x (-x)) (⊤ : EReal) = 1#1) : IsFin x := by
  induction x using EReal.rec with
  | bot => simp [Ideal.cmp] at h
  | top => simp [Ideal.cmp] at h
  | coe r => exact ⟨r, rfl⟩

/-- One conjunct of the precondition, decoded at any shape: when "every entry's absolute value is below positive
    infinity", taken as a conjunction over the whole array, comes out true, every entry is a real number. -/
theorem allFin_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (init : IVec (⟨0, ![]⟩ : Shape) 1) (j : (⟨0, ![]⟩ : Shape).Idx)
    (h : Host.reduce IntOp.andi
          (cmpf .olt (Host.absf x) (broadcastInDim s ![] hb (constant (F := Ideal) (⟨0, ![]⟩ : Shape) .f32 0x7F800000#32)))
          init hr h0 j = 1#1) : AllFin x := by
  intro i
  have hi := Host.reduce_andi_all _ init hr h0 j h i
  apply isFin_of_abs_lt_top
  rw [← ofBits_inf]
  exact hi

/-- The two signed comparisons are complementary: a word that is at least another is not below it. -/
theorem slt_zero_of_sge {w : Nat} (a b : BitVec w) (h : IntOp.cmpi .sge a b = 1#1) : IntOp.cmpi .slt a b = 0#1 := by
  unfold IntOp.cmpi at h ⊢
  have hle : b.toInt ≤ a.toInt := by
    simpa only [BitVec.sle, StableHlo.Predicate.ofBool_eq_one_iff, decide_eq_true_eq] using h
  have : a.slt b = false := by
    simp only [BitVec.slt, decide_eq_false_iff_not, not_lt]
    exact hle
  show BitVec.ofBool (a.slt b) = 0#1
  rw [this]
  rfl

/-- Under the precondition, on every device: the ten float arrays the computation reads are finite, and wrapping
    leaves the source indices alone. -/
theorem of_pre (m : (ℓ : Loc nD τ sig) → Buf (Elt Ideal) ℓ) (h : Cert.Pre_KernelIdeal m) (c : Dev nD) :
    AllFin (m ((c.tc : Thread nD τ).loc main_arg0) : S100000x64.Idx → EReal)
    ∧ AllFin (m ((c.tc : Thread nD τ).loc main_arg1) : S1000000x64.Idx → EReal)
    ∧ AllFin (m ((c.tc : Thread nD τ).loc main_arg3) : S128x64.Idx → EReal)
    ∧ AllFin (m ((c.tc : Thread nD τ).loc main_arg4) : S64.Idx → EReal)
    ∧ AllFin (m ((c.tc : Thread nD τ).loc main_arg5) : S64.Idx → EReal)
    ∧ AllFin (m ((c.tc : Thread nD τ).loc main_arg6) : S64.Idx → EReal)
    ∧ AllFin (m ((c.tc : Thread nD τ).loc main_arg7) : S128x64.Idx → EReal)
    ∧ AllFin (m ((c.tc : Thread nD τ).loc main_arg8) : S64.Idx → EReal)
    ∧ AllFin (m ((c.tc : Thread nD τ).loc main_arg9) : S64.Idx → EReal)
    ∧ AllFin (m ((c.tc : Thread nD τ).loc main_arg10) : S64.Idx → EReal)
    ∧ wrapNeg (srcRow (m ((c.tc : Thread nD τ).loc main_arg11) : IVec S2x1000000 32))
        = srcRow (m ((c.tc : Thread nD τ).loc main_arg11) : IVec S2x1000000 32) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨a0, a1⟩, _⟩, a3⟩, a4⟩, a5⟩, a6⟩, a7⟩, a8⟩, a9⟩, a10⟩, a11⟩ := h0
  refine ⟨allFin_of_all _ _ _ _ _ _ a0, allFin_of_all _ _ _ _ _ _ a1, allFin_of_all _ _ _ _ _ _ a3,
    allFin_of_all _ _ _ _ _ _ a4, allFin_of_all _ _ _ _ _ _ a5, allFin_of_all _ _ _ _ _ _ a6,
    allFin_of_all _ _ _ _ _ _ a7, allFin_of_all _ _ _ _ _ _ a8, allFin_of_all _ _ _ _ _ _ a9,
    allFin_of_all _ _ _ _ _ _ a10, ?_⟩
  funext e
  have he := Host.reduce_andi_all _ _ _ _ _ a11 e
  have hge : IntOp.cmpi .sge (srcRow (m ((c.tc : Thread nD τ).loc main_arg11) : IVec S2x1000000 32) e) 0#32 = 1#1 := he
  have hlt := slt_zero_of_sge _ _ hge
  show Scalar.select (IntOp.cmpi .slt (srcRow (m ((c.tc : Thread nD τ).loc main_arg11) : IVec S2x1000000 32) e) 0#32) _ _ = _
  rw [hlt, ValueIdx.select_zero]

end Cert.PreFacts

end
-- ==== Proof.lean ====
/-
  The certificate of one message-passing layer pair: a kernel program (four pipelined passes among host
  operations) against its plain array reference.

  Each program computes, for a graph with 100000 nodes (64 features each) and 1000000 edges: an EDGE layer on the
  concatenation [source node's row | edge's row] — a 128 x 64 affine map, a normalisation of every column by its mean
  and variance over all edges, a scale and a shift, then x · σ(x) —; the MEAN of the edge layer's rows arriving at each
  node; and a NODE layer of the same kind on [node's row | aggregated row].

  The three frame claims: the kernel's two instances by their generated frames (every region's body runs, the
  pipelines' staging and write-backs are in order, no host operation writes an argument); the reference's by its run, a
  straight line of host operations.
  The idealization rewrote nothing, so it preserves the kernel trivially.
  The equivalence at the extended reals. The kernel program's result, read forwards through its boundaries, is the
  two-layer computation with each column's variance spelt "mean of squares minus squared mean" and the source index
  used as it stands (its gather clamps an index into the array); the reference's is the same computation with the
  variance spelt "mean of squared deviations" and a negative source index wrapped by the node count first. The two
  variances are one number on real columns (a distributive law, which needs every entry finite: it is, because every
  float argument is and every operation on the way keeps values finite), and the two source indices are one vector when
  none is negative. Both are what the precondition grants.
-/
import proofs.«412310_j6030134084155_3_alg».proof.Defs
import proofs.«412310_j6030134084155_3_alg».proof.Proof.Gen.Kernel
import proofs.«412310_j6030134084155_3_alg».proof.Proof.Gen.Kernel.Frame
import proofs.«412310_j6030134084155_3_alg».proof.Proof.Gen.KernelIdeal
import proofs.«412310_j6030134084155_3_alg».proof.Proof.Gen.KernelIdeal.Frame
import proofs.«412310_j6030134084155_3_alg».proof.Proof.Gen.ReferenceIdeal
import proofs.«412310_j6030134084155_3_alg».proof.Proof.Gen.Pre_finite_inputs
import proofs.«412310_j6030134084155_3_alg».proof.Proof.KRun
import proofs.«412310_j6030134084155_3_alg».proof.Proof.KValue
import proofs.«412310_j6030134084155_3_alg».proof.Proof.RRun
import proofs.«412310_j6030134084155_3_alg».proof.Proof.RValue
import proofs.«412310_j6030134084155_3_alg».proof.Proof.Bridge
import proofs.«412310_j6030134084155_3_alg».proof.Proof.Pre

noncomputable section

namespace Cert.Proof

open Idealize.ShloMosaic Idealize.SL.Sem

/-- The kernel as printed runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The reference runs, its arguments unchanged: its run with the result's conjunct dropped. -/
theorem frame_referenceIdeal : Cert.frame_ReferenceIdeal := fun m ρ _ =>
  (θ_run Cert.ReferenceIdeal.defs _ _).mono (fun _ h c => (h c).2) (Cert.ReferenceIdeal.Run.run m ρ)

/-- The ideal pass rewrote no operation. -/
theorem preserves : Cert.preserves_Kernel_KernelIdeal := trivial

/-- At the extended reals, from memories agreeing on the arguments, under the precondition: both programs run, and
    their results are one array — the kernel's result function of its own arguments. -/
theorem algebraic : Cert.algebraic_KernelIdeal_ReferenceIdeal := by
  intro m ρ m' ρ' hpre hagree
  refine ⟨fun c => Cert.Spec.toArr2 (Cert.KernelIdeal.Value.out m c), ?_, ?_⟩
  · exact (θ_run Cert.KernelIdeal.defs _ _).mono
      (fun _ h c => ⟨(h c).1.trans (Cert.KernelIdeal.Value.final_eq m ρ c), (h c).2⟩)
      (Cert.KernelIdeal.RunResult.run_result m ρ)
  · refine (θ_run Cert.ReferenceIdeal.defs _ _).mono (fun _ h c => ⟨(h c).1.trans ?_, (h c).2⟩)
      (Cert.ReferenceIdeal.Run.run m' ρ')
    obtain ⟨a0, a1, -, a3, a4, a5, a6, a7, a8, a9, a10, a11, -⟩ := hagree c
    obtain ⟨f0, f1, f3, f4, f5, f6, f7, f8, f9, f10, hwrap⟩ := Cert.PreFacts.of_pre m hpre c
    rw [a0, a1, a3, a4, a5, a6, a7, a8, a9, a10, a11, Cert.ReferenceIdeal.Value.refTerm_eq]
    exact congrArg Cert.Spec.toArr2 (Cert.Bridge.result_eq _ _ _ _ _ _ _ _ _ _ _ f0 f1 f3 f4 f5 f6 f7 f8 f9 f10 hwrap).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
